-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100x2048 : Shape := ⟨2, ![100, 2048]⟩
abbrev S2048x1024 : Shape := ⟨2, ![2048, 1024]⟩
abbrev S100x2048x1024 : Shape := ⟨3, ![100, 2048, 1024]⟩
abbrev S1024x1000 : Shape := ⟨2, ![1024, 1000]⟩
abbrev S100x1024x1000 : Shape := ⟨3, ![100, 1024, 1000]⟩
abbrev S_ : Shape := ⟨0, ![]⟩

class Facts : Prop where
  bcast_S_S100x2048 : S_.BroadcastsInDim S100x2048 (![] : Fin 0 → Fin S100x2048.rank)
  reducesTo_S100x2048_S_d0_1 : S100x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S100x2048x1024 : S_.BroadcastsInDim S100x2048x1024 (![] : Fin 0 → Fin S100x2048x1024.rank)
  reducesTo_S100x2048x1024_S_d0_1_2 : S100x2048x1024.ReducesTo [0, 1, 2] S_
  bcast_S_S1024x1000 : S_.BroadcastsInDim S1024x1000 (![] : Fin 0 → Fin S1024x1000.rank)
  reducesTo_S1024x1000_S_d0_1 : S1024x1000.ReducesTo [0, 1] S_
  bcast_S_S100x1024x1000 : S_.BroadcastsInDim S100x1024x1000 (![] : Fin 0 → Fin S100x1024x1000.rank)
  reducesTo_S100x1024x1000_S_d0_1_2 : S100x1024x1000.ReducesTo [0, 1, 2] S_

variable [Facts]

def fn_part1 {F : FTy → Type} [FloatOps F] (main_arg4 : FVec F S100x1024x1000 .f32) (main_v13 : IVec S_ 1) (main_v16 : IVec S1024x1000 1) : IVec S_ 1 :=
  let main_c_5 : IVec S_ 1 := constantI S_ 1 1#1
  let main_v17 : IVec S_ 1 := (fun x v => Host.reduce IntOp.andi x v reducesTo_S1024x1000_S_d0_1 h_S_) main_v16 main_c_5
  let main_v18 : IVec S_ 1 := andi main_v13 main_v17
  let main_v19 : FVec F S100x1024x1000 .f32 := Host.absf main_arg4
  let main_cst_6 : FVec F S_ .f32 := constant S_ .f32 0x7F800000#32
  let main_v20 : FVec F S100x1024x1000 .f32 := broadcastInDim S100x1024x1000 ![] bcast_S_S100x1024x1000 main_cst_6
  let main_v21 : IVec S100x1024x1000 1 := cmpf .olt main_v19 main_v20
  let main_c_7 : IVec S_ 1 := constantI S_ 1 1#1
  let main_v22 : IVec S_ 1 := (fun x v => Host.reduce IntOp.andi x v reducesTo_S100x1024x1000_S_d0_1_2 h_S_) main_v21 main_c_7
  let main_v23 : IVec S_ 1 := andi main_v18 main_v22
  main_v23

def fn {F : FTy → Type} [FloatOps F] (main_arg0 : FVec F S100x2048 .f32) (main_arg1 : FVec F S2048x1024 .f32) (main_arg2 : FVec F S100x2048x1024 .f32) (main_arg3 : FVec F S1024x1000 .f32) (main_arg4 : FVec F S100x1024x1000 .f32) : IVec S_ 1 :=
  let main_v0 : FVec F S100x2048 .f32 := Host.absf main_arg0
  let main_cst : FVec F S_ .f32 := constant S_ .f32 0x7F800000#32
  let main_v1 : FVec F S100x2048 .f32 := broadcastInDim S100x2048 ![] bcast_S_S100x2048 main_cst
  let main_v2 : IVec S100x2048 1 := cmpf .olt main_v0 main_v1
  let main_c : IVec S_ 1 := constantI S_ 1 1#1
  let main_v3 : IVec S_ 1 := (fun x v => Host.reduce IntOp.andi x v reducesTo_S100x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S100x2048x1024 .f32 := Host.absf main_arg2
  let main_cst_2 : FVec F S_ .f32 := constant S_ .f32 0x7F800000#32
  let main_v10 : FVec F S100x2048x1024 .f32 := broadcastInDim S100x2048x1024 ![] bcast_S_S100x2048x1024 main_cst_2
  let main_v11 : IVec S100x2048x1024 1 := cmpf .olt main_v9 main_v10
  let main_c_3 : IVec S_ 1 := constantI S_ 1 1#1
  let main_v12 : IVec S_ 1 := (fun x v => Host.reduce IntOp.andi x v reducesTo_S100x2048x1024_S_d0_1_2 h_S_) main_v11 main_c_3
  let main_v13 : IVec S_ 1 := andi main_v8 main_v12
  let main_v14 : FVec F S1024x1000 .f32 := Host.absf main_arg3
  let main_cst_4 : FVec F S_ .f32 := constant S_ .f32 0x7F800000#32
  let main_v15 : FVec F S1024x1000 .f32 := broadcastInDim S1024x1000 ![] bcast_S_S1024x1000 main_cst_4
  let main_v16 : IVec S1024x1000 1 := cmpf .olt main_v14 main_v15
  fn_part1 (F := F) main_arg4 main_v13 main_v16
-- ==== Kernel.lean ====
abbrev S100x2048 : Shape := ⟨2, ![100, 2048]⟩
abbrev S2048x1024 : Shape := ⟨2, ![2048, 1024]⟩
abbrev S100x2048x1024 : Shape := ⟨3, ![100, 2048, 1024]⟩
abbrev S1024x1000 : Shape := ⟨2, ![1024, 1000]⟩
abbrev S100x1024x1000 : Shape := ⟨3, ![100, 1024, 1000]⟩
abbrev S100x1024 : Shape := ⟨2, ![100, 1024]⟩
abbrev S100x256 : Shape := ⟨2, ![100, 256]⟩
abbrev S256x128 : Shape := ⟨2, ![256, 128]⟩
abbrev S100x256x128 : Shape := ⟨3, ![100, 256, 128]⟩
abbrev S100x128 : Shape := ⟨2, ![100, 128]⟩
abbrev S100x1000 : Shape := ⟨2, ![100, 1000]⟩

abbrev nBuf : Space → Nat
  | .hbm => 7
  | .vmem => 20
  | .smem => 0
  | _ => 0

abbrev bufTy : (tb : Table) → Fin (tcTables nBuf tb) → BufTy
  | .hbm, ⟨0, _⟩ => ⟨S100x2048, .f32⟩
  | .hbm, ⟨1, _⟩ => ⟨S2048x1024, .f32⟩
  | .hbm, ⟨2, _⟩ => ⟨S100x2048x1024, .f32⟩
  | .hbm, ⟨3, _⟩ => ⟨S1024x1000, .f32⟩
  | .hbm, ⟨4, _⟩ => ⟨S100x1024x1000, .f32⟩
  | .hbm, ⟨5, _⟩ => ⟨S100x1024, .f32⟩
  | .hbm, ⟨6, _⟩ => ⟨S100x1000, .f32⟩
  | .local _ .vmem, ⟨0, _⟩ => ⟨S100x256, .f32⟩
  | .local _ .vmem, ⟨1, _⟩ => ⟨S100x256, .f32⟩
  | .local _ .vmem, ⟨2, _⟩ => ⟨S256x128, .f32⟩
  | .local _ .vmem, ⟨3, _⟩ => ⟨S256x128, .f32⟩
  | .local _ .vmem, ⟨4, _⟩ => ⟨S100x256x128, .f32⟩
  | .local _ .vmem, ⟨5, _⟩ => ⟨S100x256x128, .f32⟩
  | .local _ .vmem, ⟨6, _⟩ => ⟨S100x128, .f32⟩
  | .local _ .vmem, ⟨7, _⟩ => ⟨S100x128, .f32⟩
  | .local _ .vmem, ⟨8, _⟩ => ⟨S100x128, .f32⟩
  | .local _ .vmem, ⟨9, _⟩ => ⟨S100x128, .f32⟩
  | .local _ .vmem, ⟨10, _⟩ => ⟨S100x256, .f32⟩
  | .local _ .vmem, ⟨11, _⟩ => ⟨S100x256, .f32⟩
  | .local _ .vmem, ⟨12, _⟩ => ⟨S256x128, .f32⟩
  | .local _ .vmem, ⟨13, _⟩ => ⟨S256x128, .f32⟩
  | .local _ .vmem, ⟨14, _⟩ => ⟨S100x256x128, .f32⟩
  | .local _ .vmem, ⟨15, _⟩ => ⟨S100x256x128, .f32⟩
  | .local _ .vmem, ⟨16, _⟩ => ⟨S100x128, .f32⟩
  | .local _ .vmem, ⟨17, _⟩ => ⟨S100x128, .f32⟩
  | .local _ .vmem, ⟨18, _⟩ => ⟨S100x128, .f32⟩
  | .local _ .vmem, ⟨19, _⟩ => ⟨S100x128, .f32⟩
  | _, _ => ⟨S100x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_16 : BitVec 32 := 0#32
  let v22 : BitVec 1 := Scalar.cmpi .ne v21 c0_i32_16
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S100x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S100x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S100x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_16 : BitVec 32 := 0#32
  let v23 : BitVec 1 := Scalar.cmpi .ne v22 c0_i32_16
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S100x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S100x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S100x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S100x256_S100x256_0_0 : ∀ a, (![0, 0] : Fin 2 → Nat) a + S100x256.size a ≤ S100x256.size a
  h_S100x256 : 0 < S100x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S100x256x128_S100x256x128_0_0_0 : ∀ a, (![0, 0, 0] : Fin 3 → Nat) a + S100x256x128.size a ≤ S100x256x128.size a
  h_S100x256x128 : 0 < S100x256x128.numel
  reduces_S100x256x128_S100x128 : S100x256x128.Reduces [1] S100x128
  shapeCasts_S100x256_S100x256 : S100x256.ShapeCasts S100x256
  dot_S100x256_S256x128_S100x128_1_0_0_1_n_n_wf : DotDims.WF S100x256 S256x128 S100x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S100x256.size a ≤ S100x2048.size a
  hwx0_0 : ∀ i : grid0.Coords, EltTy.bits .f32 = 32 ∨ (Rect.block (s := S100x2048) S100x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S2048x1024.size a
  hwx0_1 : ∀ i : grid0.Coords, EltTy.bits .f32 = 32 ∨ (Rect.block (s := S2048x1024) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S100x256x128.size a ≤ S100x2048x1024.size a
  hwx0_2 : ∀ i : grid0.Coords, EltTy.bits .f32 = 32 ∨ (Rect.block (s := S100x2048x1024) S100x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S100x128.size a ≤ S100x1024.size a
  hwx0_3 : ∀ i : grid0.Coords, EltTy.bits .f32 = 32 ∨ (Rect.block (s := S100x1024) S100x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S100x256.size a ≤ S100x1024.size a
  hwx1_0 : ∀ i : grid1.Coords, EltTy.bits .f32 = 32 ∨ (Rect.block (s := S100x1024) S100x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S256x128.size a < S1024x1000.size a
  hwx1_1 : ∀ i : grid1.Coords, EltTy.bits .f32 = 32 ∨ (Rect.unit (s := S1024x1000) (fun a => cc1_transform_1 i a * S256x128.size a) (fun a => (Pipeline.Clip.of (cc1_transform_1 i a) (S256x128.size a) (S1024x1000.size a)).extent (S256x128.size a)) fun a => Pipeline.Clip.inb (Pipeline.Clip.ok_of (hstart1_1 i a))).WholeWords (EltTy.packing .f32)
  hwxs1_1 : ∀ i : grid1.Coords, EltTy.bits .f32 = 32 ∨ (Rect.unit (s := S256x128) (fun _ => 0) (fun a => (Pipeline.Clip.of (cc1_transform_1 i a) (S256x128.size a) (S1024x1000.size a)).extent (S256x128.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S100x256x128.size a < S100x1024x1000.size a
  hwx1_2 : ∀ i : grid1.Coords, EltTy.bits .f32 = 32 ∨ (Rect.unit (s := S100x1024x1000) (fun a => cc1_transform_2 i a * S100x256x128.size a) (fun a => (Pipeline.Clip.of (cc1_transform_2 i a) (S100x256x128.size a) (S100x1024x1000.size a)).extent (S100x256x128.size a)) fun a => Pipeline.Clip.inb (Pipeline.Clip.ok_of (hstart1_2 i a))).WholeWords (EltTy.packing .f32)
  hwxs1_2 : ∀ i : grid1.Coords, EltTy.bits .f32 = 32 ∨ (Rect.unit (s := S100x256x128) (fun _ => 0) (fun a => (Pipeline.Clip.of (cc1_transform_2 i a) (S100x256x128.size a) (S100x1024x1000.size a)).extent (S100x256x128.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S100x128.size a < S100x1000.size a
  hwx1_3 : ∀ i : grid1.Coords, EltTy.bits .f32 = 32 ∨ (Rect.unit (s := S100x1000) (fun a => cc1_transform_3 i a * S100x128.size a) (fun a => (Pipeline.Clip.of (cc1_transform_3 i a) (S100x128.size a) (S100x1000.size a)).extent (S100x128.size a)) fun a => Pipeline.Clip.inb (Pipeline.Clip.ok_of (hstart1_3 i a))).WholeWords (EltTy.packing .f32)
  hwxs1_3 : ∀ i : grid1.Coords, EltTy.bits .f32 = 32 ∨ (Rect.unit (s := S100x128) (fun _ => 0) (fun a => (Pipeline.Clip.of (cc1_transform_3 i a) (S100x128.size a) (S100x1000.size a)).extent (S100x128.size a)) fun a => (Nat.zero_add _).trans_le (Pipeline.Clip.extent_le (Pipeline.Clip.ok_of (hstart1_3 i a)))).WholeWords (EltTy.packing .f32)

variable [Facts₀]

def dot_S100x256_S256x128_S100x128_1_0_0_1_n_n : DotDims S100x256 S256x128 S100x128 where
  lhsContracting := [1]
  rhsContracting := [0]
  lhsNonContracting := [0]
  rhsNonContracting := [1]
  lhsBatch := []
  rhsBatch := []
  wf := dot_S100x256_S256x128_S100x128_1_0_0_1_n_n_wf

abbrev win0_0 : Pipeline.Window sig grid0 :=
  Pipeline.Window.ofSpec (Memref.whole main_arg0) S100x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S100x256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S100x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S100x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_arg3) S256x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_arg4) S100x256x128.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v1) S100x128.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S100x2048 : Shape := ⟨2, ![100, 2048]⟩
abbrev S2048x1024 : Shape := ⟨2, ![2048, 1024]⟩
abbrev S100x2048x1024 : Shape := ⟨3, ![100, 2048, 1024]⟩
abbrev S1024x1000 : Shape := ⟨2, ![1024, 1000]⟩
abbrev S100x1024x1000 : Shape := ⟨3, ![100, 1024, 1000]⟩
abbrev S100x1024 : Shape := ⟨2, ![100, 1024]⟩
abbrev S_ : Shape := ⟨0, ![]⟩
abbrev S100x1000 : Shape := ⟨2, ![100, 1000]⟩

abbrev nBuf : Space → Nat
  | .hbm => 28
  | .vmem => 0
  | .smem => 0
  | _ => 0

abbrev bufTy : (tb : Table) → Fin (tcTables nBuf tb) → BufTy
  | .hbm, ⟨0, _⟩ => ⟨S100x2048, .f32⟩
  | .hbm, ⟨1, _⟩ => ⟨S2048x1024, .f32⟩
  | .hbm, ⟨2, _⟩ => ⟨S100x2048x1024, .f32⟩
  | .hbm, ⟨3, _⟩ => ⟨S1024x1000, .f32⟩
  | .hbm, ⟨4, _⟩ => ⟨S100x1024x1000, .f32⟩
  | .hbm, ⟨5, _⟩ => ⟨S100x1024, .f32⟩
  | .hbm, ⟨6, _⟩ => ⟨S_, .f32⟩
  | .hbm, ⟨7, _⟩ => ⟨S100x1024, .f32⟩
  | .hbm, ⟨8, _⟩ => ⟨S100x1024, .f32⟩
  | .hbm, ⟨9, _⟩ => ⟨S_, .f32⟩
  | .hbm, ⟨10, _⟩ => ⟨S100x1024, .f32⟩
  | .hbm, ⟨11, _⟩ => ⟨S_, .f32⟩
  | .hbm, ⟨12, _⟩ => ⟨S100x1024, .f32⟩
  | .hbm, ⟨13, _⟩ => ⟨S100x1024, .f32⟩
  | .hbm, ⟨14, _⟩ => ⟨S100x1024, .f32⟩
  | .hbm, ⟨15, _⟩ => ⟨S_, .f32⟩
  | .hbm, ⟨16, _⟩ => ⟨S100x1024, .f32⟩
  | .hbm, ⟨17, _⟩ => ⟨S100x1024, .f32⟩
  | .hbm, ⟨18, _⟩ => ⟨S100x1000, .f32⟩
  | .hbm, ⟨19, _⟩ => ⟨S_, .f32⟩
  | .hbm, ⟨20, _⟩ => ⟨S100x1000, .f32⟩
  | .hbm, ⟨21, _⟩ => ⟨S100x1000, .f32⟩
  | .hbm, ⟨22, _⟩ => ⟨S_, .f32⟩
  | .hbm, ⟨23, _⟩ => ⟨S100x1000, .f32⟩
  | .hbm, ⟨24, _⟩ => ⟨S_, .f32⟩
  | .hbm, ⟨25, _⟩ => ⟨S100x1000, .f32⟩
  | .hbm, ⟨26, _⟩ => ⟨S100x1000, .f32⟩
  | .hbm, ⟨27, _⟩ => ⟨S100x1000, .f32⟩
  | _, _ => ⟨S100x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]

class Facts₀ : Prop where
  bcast_S_S100x1024 : S_.BroadcastsInDim S100x1024 (![] : Fin 0 → Fin S100x1024.rank)
  reducesTo_S100x2048x1024_S100x1024_d1 : S100x2048x1024.ReducesTo [1] S100x1024
  h_S_ : 0 < S_.numel
  bcast_S_S100x1000 : S_.BroadcastsInDim S100x1000 (![] : Fin 0 → Fin S100x1000.rank)
  reducesTo_S100x1024x1000_S100x1000_d1 : S100x1024x1000.ReducesTo [1] S100x1000
  dot_S100x2048_S2048x1024_S100x1024_1_0_0_1_n_n_wf : DotDims.WF S100x2048 S2048x1024 S100x1024 [1] [0] [0] [1] [] []
  dot_S100x1024_S1024x1000_S100x1000_1_0_0_1_n_n_wf : DotDims.WF S100x1024 S1024x1000 S100x1000 [1] [0] [0] [1] [] []

variable [Facts₀]

def dot_S100x2048_S2048x1024_S100x1024_1_0_0_1_n_n : DotDims S100x2048 S2048x1024 S100x1024 where
  lhsContracting := [1]
  rhsContracting := [0]
  lhsNonContracting := [0]
  rhsNonContracting := [1]
  lhsBatch := []
  rhsBatch := []
  wf := dot_S100x2048_S2048x1024_S100x1024_1_0_0_1_n_n_wf
def dot_S100x1024_S1024x1000_S100x1000_1_0_0_1_n_n : DotDims S100x1024 S1024x1000 S100x1000 where
  lhsContracting := [1]
  rhsContracting := [0]
  lhsNonContracting := [0]
  rhsNonContracting := [1]
  lhsBatch := []
  rhsBatch := []
  wf := dot_S100x1024_S1024x1000_S100x1000_1_0_0_1_n_n_wf

class Facts : Prop extends Facts₀ where

variable [Facts]
-- ==== Proof.K.Cond.lean ====
/-
  The two branch conditions of each kernel body as propositions of the grid coordinates, decided over the grid in
  closed form: with t = tile * (number of reduction steps) + step, the first branch (zero the two accumulators) is
  taken exactly at step 0 and the second (scale, and for the first layer clamp at zero, then store the output tile)
  exactly at the last step. Also where the output window is idle and where it is written back, and the two
  accumulators' scratch buffers as memrefs.
-/
import proofs.«122316_j6519760355912_1_alg».proof.Proof.Gen.Kernel.Launch
import proofs.«122316_j6519760355912_1_alg».proof.Proof.Gen.Kernel.Skeleton
import proofs.«122316_j6519760355912_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Layer 1 (8 tiles of 128 output features, 8 reduction steps of 256) -/

/-- "this is reduction step 0": the body zeroes both accumulators first. -/
abbrev condF0 (i : grid0.Coords) : Prop := (Scalar.cmpi .ne (Scalar.extui (Scalar.cmpi .eq (BitVec.ofNat 32 (i 1).val) 0#32)) 0#32) = 1#1
/-- "this is the last reduction step": the body stores the output tile. -/
abbrev condL0 (i : grid0.Coords) : Prop := k0_cond2 i = 1#1

theorem hcondF0 : ∀ t : Fin cfg0.N, condF0 (grid0.coords t) ↔ t.val % 8 = 0 :=
  (by decide +kernel : ∀ t : Fin grid0.N, condF0 (grid0.coords t) ↔ t.val % 8 = 0)
theorem hcondL0 : ∀ t : Fin cfg0.N, condL0 (grid0.coords t) ↔ t.val % 8 = 7 :=
  (by decide +kernel : ∀ t : Fin grid0.N, condL0 (grid0.coords t) ↔ t.val % 8 = 7)

/-- The three input windows are live at every point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- The output window is idle, and not written back, away from the last reduction step; live at it. -/
theorem idle0_3 : ∀ t : Fin cfg0.N, ¬condL0 (grid0.coords t) → cfg0.idle 3 (grid0.coords t) = true := by decide +kernel
theorem noFlush0_3 : ∀ t : Fin cfg0.N, ¬condL0 (grid0.coords t) → (cfg0.win 3).flush t = false := by decide +kernel
theorem live0_3 : ∀ t : Fin cfg0.N, condL0 (grid0.coords t) → cfg0.idle 3 (grid0.coords t) = false := by decide +kernel

/-- The matmul accumulator and the bias-sum accumulator: whole scoped buffers of the kernel's own. -/
abbrev scA0 : Memref sig .tc .vmem S100x128 .f32 := Memref.whole cc0_scratch0
abbrev scB0 : Memref sig .tc .vmem S100x128 .f32 := Memref.whole cc0_scratch1

/-! ## Layer 2 (8 tiles of 128 output features, the last overhanging by 24; 4 reduction steps of 256) -/

abbrev condF1 (i : grid1.Coords) : Prop := (Scalar.cmpi .ne (Scalar.extui (Scalar.cmpi .eq (BitVec.ofNat 32 (i 1).val) 0#32)) 0#32) = 1#1
abbrev condL1 (i : grid1.Coords) : Prop := k1_cond2 i = 1#1

theorem hcondF1 : ∀ t : Fin cfg1.N, condF1 (grid1.coords t) ↔ t.val % 4 = 0 :=
  (by decide +kernel : ∀ t : Fin grid1.N, condF1 (grid1.coords t) ↔ t.val % 4 = 0)
theorem hcondL1 : ∀ t : Fin cfg1.N, condL1 (grid1.coords t) ↔ t.val % 4 = 3 :=
  (by decide +kernel : ∀ t : Fin grid1.N, condL1 (grid1.coords t) ↔ t.val % 4 = 3)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem idle1_3 : ∀ t : Fin cfg1.N, ¬condL1 (grid1.coords t) → cfg1.idle 3 (grid1.coords t) = true := by decide +kernel
theorem noFlush1_3 : ∀ t : Fin cfg1.N, ¬condL1 (grid1.coords t) → (cfg1.win 3).flush t = false := by decide +kernel
theorem live1_3 : ∀ t : Fin cfg1.N, condL1 (grid1.coords t) → cfg1.idle 3 (grid1.coords t) = false := by decide +kernel

abbrev scA1 : Memref sig .tc .vmem S100x128 .f32 := Memref.whole cc1_scratch0
abbrev scB1 : Memref sig .tc .vmem S100x128 .f32 := Memref.whole cc1_scratch1

/-! ## Whole-buffer accesses -/

theorem hz2 : (![0, 0] : Fin 2 → Nat) = fun _ => 0 := funext fun a => by fin_cases a <;> rfl
theorem hz3 : (![0, 0, 0] : Fin 3 → Nat) = fun _ => 0 := funext fun a => by fin_cases a <;> rfl

/-- One store through the whole rectangle covers the buffer. -/
theorem cover_one (p : Vec F S100x128 .f32) (y : S100x128.Idx) :
    ∃ pc ∈ ([⟨Rect.unit ![0, 0] S100x128.size inb_S100x128_S100x128_0_0, p⟩] : List (View.Piece (Elt F) S100x128 .f32)), y ∈ pc.1.set :=
  ⟨_, List.mem_singleton_self _, View.mem_set_unit_zero hz2 inb_S100x128_S100x128_0_0 y⟩

/-- So does the later of two. -/
theorem cover_two (p q : Vec F S100x128 .f32) (y : S100x128.Idx) :
    ∃ pc ∈ ([⟨Rect.unit ![0, 0] S100x128.size inb_S100x128_S100x128_0_0, p⟩, ⟨Rect.unit ![0, 0] S100x128.size inb_S100x128_S100x128_0_0, q⟩] : List (View.Piece (Elt F) S100x128 .f32)), y ∈ pc.1.set :=
  ⟨_, List.mem_cons_self, View.mem_set_unit_zero hz2 inb_S100x128_S100x128_0_0 y⟩

end Cert.Kernel.Hand

end
-- ==== Proof.K.Kern0.lean ====
/-
  The first layer's kernel body run once on whole buffers, in each of the three cases a grid point can be in.
  Write a, s for what the two accumulators hold when the body starts and x, w, b for the three input blocks; every
  load and store is of a whole buffer. At reduction step 0 the accumulators are first zeroed, so they end at
  (0 + x·w, 0 + Σ b); at a middle step at (a + x·w, s + Σ b); at the last step the same, and the output tile is
  stored as the scaled (and clamped) sum of the two. The output buffer is untouched before the last step.
  The arithmetic stays folded in the body's named payloads; every statement holds for any float instance.
-/
import proofs.«122316_j6519760355912_1_alg».proof.Proof.K.Cond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- A middle reduction step: both accumulators updated, the output buffer untouched. -/
theorem kern0_mid (c : Dev nD) (E : Set ℕ) (i : grid0.Coords)
    (arg2 : Memref sig .tc .vmem S100x256 .f32) (harg2 : arg2.IsWhole) (arg3 : Memref sig .tc .vmem S256x128 .f32) (harg3 : arg3.IsWhole)
    (arg4 : Memref sig .tc .vmem S100x256x128 .f32) (harg4 : arg4.IsWhole) (arg5 : Memref sig .tc .vmem S100x128 .f32) (harg5 : arg5.IsWhole)
    (arg6 : Memref sig .tc .vmem S100x128 .f32) (harg6 : arg6.IsWhole) (arg7 : Memref sig .tc .vmem S100x128 .f32) (harg7 : arg7.IsWhole)
    (hF : ¬condF0 i) (hL : ¬condL0 i)
    (x : Vec F S100x256 .f32) (w : Vec F S256x128 .f32) (b : Vec F S100x256x128 .f32) (o : Vec F S100x128 .f32)
    (a s : Vec F S100x128 .f32) (K : PUnit → sProp 𝕄) :
    iprop(owns (c : Thread nD τ) arg2 fullShare x ∗ owns (c : Thread nD τ) arg3 fullShare w ∗ owns (c : Thread nD τ) arg4 fullShare b
        ∗ owns (c : Thread nD τ) arg5 fullShare o ∗ owns (c : Thread nD τ) arg6 fullShare a ∗ owns (c : Thread nD τ) arg7 fullShare s
        ∗ (iprop(owns (c : Thread nD τ) arg2 fullShare x ∗ owns (c : Thread nD τ) arg3 fullShare w ∗ owns (c : Thread nD τ) arg4 fullShare b
            ∗ owns (c : Thread nD τ) arg5 fullShare o ∗ owns (c : Thread nD τ) arg6 fullShare (k0_pay3 x w a) ∗ owns (c : Thread nD τ) arg7 fullShare (k0_pay4 s b)) -∗ K ⟨⟩))
      ⊢ wp frame (wpE (defs₀ (F := F)) Variants.none c none) E (cc0__fused_linear_kernel i arg2 harg2 arg3 harg3 arg4 harg4 arg5 harg5 arg6 harg6 arg7 harg7) K := by
  simp only [cc0__fused_linear_kernel_eq_skeleton]; unfold cc0__fused_linear_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hF | exact hL)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    try sl_unfold_words
    rw [View.read_writes_eq_canon _ _ _ (cover_one _), View.canon_unit_zero hz2]
    simp only [View.readAt_eq_ld, harg2.read_unread, harg3.read_unread, harg6.read_unread,
      View.ld_unit_zero (S := S100x256) hz2, View.ld_unit_zero (S := S256x128) hz2, View.ld_unit_zero (S := S100x128) hz2]
  · iexists _; isplitr
    swap; · iexact H7
    ipureintro
    try sl_unfold_words
    rw [View.read_writes_eq_canon _ _ _ (cover_one _), View.canon_unit_zero hz2]
    simp only [View.readAt_eq_ld, harg4.read_unread, harg7.read_unread,
      View.ld_unit_zero (S := S100x256x128) hz3, View.ld_unit_zero (S := S100x128) hz2]

set_option maxHeartbeats 1600000 in
/-- Reduction step 0: both accumulators zeroed, then updated; the output buffer untouched. -/
theorem kern0_first (c : Dev nD) (E : Set ℕ) (i : grid0.Coords)
    (arg2 : Memref sig .tc .vmem S100x256 .f32) (harg2 : arg2.IsWhole) (arg3 : Memref sig .tc .vmem S256x128 .f32) (harg3 : arg3.IsWhole)
    (arg4 : Memref sig .tc .vmem S100x256x128 .f32) (harg4 : arg4.IsWhole) (arg5 : Memref sig .tc .vmem S100x128 .f32) (harg5 : arg5.IsWhole)
    (arg6 : Memref sig .tc .vmem S100x128 .f32) (harg6 : arg6.IsWhole) (arg7 : Memref sig .tc .vmem S100x128 .f32) (harg7 : arg7.IsWhole)
    (hF : condF0 i) (hL : ¬condL0 i)
    (x : Vec F S100x256 .f32) (w : Vec F S256x128 .f32) (b : Vec F S100x256x128 .f32) (o : Vec F S100x128 .f32)
    (a s : Vec F S100x128 .f32) (K : PUnit → sProp 𝕄) :
    iprop(owns (c : Thread nD τ) arg2 fullShare x ∗ owns (c : Thread nD τ) arg3 fullShare w ∗ owns (c : Thread nD τ) arg4 fullShare b
        ∗ owns (c : Thread nD τ) arg5 fullShare o ∗ owns (c : Thread nD τ) arg6 fullShare a ∗ owns (c : Thread nD τ) arg7 fullShare s
        ∗ (iprop(owns (c : Thread nD τ) arg2 fullShare x ∗ owns (c : Thread nD τ) arg3 fullShare w ∗ owns (c : Thread nD τ) arg4 fullShare b
            ∗ owns (c : Thread nD τ) arg5 fullShare o ∗ owns (c : Thread nD τ) arg6 fullShare (k0_pay3 x w k0_pay1) ∗ owns (c : Thread nD τ) arg7 fullShare (k0_pay4 k0_pay2 b)) -∗ K ⟨⟩))
      ⊢ wp frame (wpE (defs₀ (F := F)) Variants.none c none) E (cc0__fused_linear_kernel i arg2 harg2 arg3 harg3 arg4 harg4 arg5 harg5 arg6 harg6 arg7 harg7) K := by
  simp only [cc0__fused_linear_kernel_eq_skeleton]; unfold cc0__fused_linear_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hF | exact hL)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    try sl_unfold_words
    rw [View.read_writes_eq_canon _ _ _ (cover_two _ _), View.canon_cons_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]
  · iexists _; isplitr
    swap; · iexact H7
    ipureintro
    try sl_unfold_words
    rw [View.read_writes_eq_canon _ _ _ (cover_two _ _), View.canon_cons_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]

set_option maxHeartbeats 1600000 in
/-- The last reduction step: both accumulators updated, then the output tile stored from them. -/
theorem kern0_last (c : Dev nD) (E : Set ℕ) (i : grid0.Coords)
    (arg2 : Memref sig .tc .vmem S100x256 .f32) (harg2 : arg2.IsWhole) (arg3 : Memref sig .tc .vmem S256x128 .f32) (harg3 : arg3.IsWhole)
    (arg4 : Memref sig .tc .vmem S100x256x128 .f32) (harg4 : arg4.IsWhole) (arg5 : Memref sig .tc .vmem S100x128 .f32) (harg5 : arg5.IsWhole)
    (arg6 : Memref sig .tc .vmem S100x128 .f32) (harg6 : arg6.IsWhole) (arg7 : Memref sig .tc .vmem S100x128 .f32) (harg7 : arg7.IsWhole)
    (hF : ¬condF0 i) (hL : condL0 i)
    (x : Vec F S100x256 .f32) (w : Vec F S256x128 .f32) (b : Vec F S100x256x128 .f32) (o : Vec F S100x128 .f32)
    (a s : Vec F S100x128 .f32) (K : PUnit → sProp 𝕄) :
    iprop(owns (c : Thread nD τ) arg2 fullShare x ∗ owns (c : Thread nD τ) arg3 fullShare w ∗ owns (c : Thread nD τ) arg4 fullShare b
        ∗ owns (c : Thread nD τ) arg5 fullShare o ∗ owns (c : Thread nD τ) arg6 fullShare a ∗ owns (c : Thread nD τ) arg7 fullShare s
        ∗ (iprop(owns (c : Thread nD τ) arg2 fullShare x ∗ owns (c : Thread nD τ) arg3 fullShare w ∗ owns (c : Thread nD τ) arg4 fullShare b
            ∗ owns (c : Thread nD τ) arg5 fullShare (k0_pay5 (k0_pay3 x w a) (k0_pay4 s b)) ∗ owns (c : Thread nD τ) arg6 fullShare (k0_pay3 x w a) ∗ owns (c : Thread nD τ) arg7 fullShare (k0_pay4 s b)) -∗ K ⟨⟩))
      ⊢ wp frame (wpE (defs₀ (F := F)) Variants.none c none) E (cc0__fused_linear_kernel i arg2 harg2 arg3 harg3 arg4 harg4 arg5 harg5 arg6 harg6 arg7 harg7) K := by
  simp only [cc0__fused_linear_kernel_eq_skeleton]; unfold cc0__fused_linear_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hF | exact hL)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_words
    rw [View.read_writes_eq_canon _ _ _ (cover_one _), View.canon_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]
  isplitl [H6]
  · iexists _; isplitr
    swap; · iexact H6
    ipureintro
    try sl_unfold_words
    rw [View.read_writes_eq_canon _ _ _ (cover_one _), View.canon_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]
  · iexists _; isplitr
    swap; · iexact H7
    ipureintro
    try sl_unfold_words
    rw [View.read_writes_eq_canon _ _ _ (cover_one _), View.canon_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]

end Cert.Kernel.Hand

end
-- ==== Proof.K.Data0.lean ====
/-
  The first layer's pipeline as proof data, at any float instance, from the buffer contents V the region is
  entered with. Point t = 8 * tile + step reads the blocks x[:, 256 step ..], W1[256 step .., 128 tile ..] and
  b1[:, 256 step .., 128 tile ..]. The two accumulators after point t are given by recursion on t: at step 0 they
  restart from zero, otherwise they continue from what point t - 1 left. The output tile stored at a last step is
  the body's scaled and clamped sum of the two accumulators there. The region's invariant is, before point 0,
  "every scratch buffer at something", and before point t + 1 the two accumulators at what point t left.
-/
import proofs.«122316_j6519760355912_1_alg».proof.Proof.K.Cond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block whenever the body runs, fetched at that point or not, for any
    proof data over V whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The accumulators, point by point -/

/-- What the matmul accumulator (first) and the bias-sum accumulator (second) hold after the body at point n. -/
def scAt0 (c : Dev nD) : (n : ℕ) → n < cfg0.N → Vec F S100x128 .f32 × Vec F S100x128 .f32
  | 0, hn => (k0_pay3 (iblk0 V c 0 ⟨0, hn⟩) (iblk0 V c 1 ⟨0, hn⟩) k0_pay1, k0_pay4 k0_pay2 (iblk0 V c 2 ⟨0, hn⟩))
  | n + 1, hn =>
    if (n + 1) % 8 = 0 then
      (k0_pay3 (iblk0 V c 0 ⟨n + 1, hn⟩) (iblk0 V c 1 ⟨n + 1, hn⟩) k0_pay1, k0_pay4 k0_pay2 (iblk0 V c 2 ⟨n + 1, hn⟩))
    else
      (k0_pay3 (iblk0 V c 0 ⟨n + 1, hn⟩) (iblk0 V c 1 ⟨n + 1, hn⟩) (scAt0 c n (Nat.lt_of_succ_lt hn)).1,
        k0_pay4 (scAt0 c n (Nat.lt_of_succ_lt hn)).2 (iblk0 V c 2 ⟨n + 1, hn⟩))

/-- At reduction step 0 the accumulators restart from zero. -/
theorem scAt0_first (c : Dev nD) (t : Fin cfg0.N) (h : t.val % 8 = 0) :
    scAt0 V c t.val t.isLt = (k0_pay3 (iblk0 V c 0 t) (iblk0 V c 1 t) k0_pay1, k0_pay4 k0_pay2 (iblk0 V c 2 t)) := by
  obtain ⟨n, hn⟩ := t
  cases n with
  | zero => rfl
  | succ n => exact if_pos h

/-- At a later step they continue from what the point before left. -/
theorem scAt0_next (c : Dev nD) (t : Fin cfg0.N) (h : ¬t.val % 8 = 0) :
    scAt0 V c t.val t.isLt = (k0_pay3 (iblk0 V c 0 t) (iblk0 V c 1 t) (scAt0 V c (t.val - 1) (Nat.lt_of_le_of_lt (Nat.sub_le _ _) t.isLt)).1,
      k0_pay4 (scAt0 V c (t.val - 1) (Nat.lt_of_le_of_lt (Nat.sub_le _ _) t.isLt)).2 (iblk0 V c 2 t)) := by
  obtain ⟨n, hn⟩ := t
  cases n with
  | zero => exact absurd (Nat.zero_mod _) h
  | succ n => exact if_neg h

/-- The output tile the body stores at a last reduction step (at the other points nothing reads this). -/
def out0 (c : Dev nD) (t : Fin cfg0.N) : Vec F S100x128 .f32 :=
  k0_pay5 (scAt0 V c t.val t.isLt).1 (scAt0 V c t.val t.isLt).2

/-! ## The invariant -/

/-- The scoped buffers that are neither a staging buffer of this pipeline nor one of its two accumulators, each at
    something. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- "Every scratch buffer at something, the generator register at some state", with the two accumulators first. -/
theorem PhiA0_eq (c : Dev nD) :
    (Pipeline.ΦA spec0 c : sProp 𝕄)
      = iprop(((∃ d, owns (c : Thread nD τ) scA0 fullShare d) ∗ (∃ d, owns (c : Thread nD τ) scB0 fullShare d) ∗ rest0 c) ∗ (∃ r, prngReg c r)) := by
  unfold Pipeline.ΦA rest0; rw [scopedRest0_eq]; simp only [scA0, scB0, owns_whole]; try rfl

/-- Before point n: at n = 0 the class invariant; afterwards the two accumulators at what point n - 1 left. -/
def Phi0 (c : Dev nD) : (n : ℕ) → n ≤ cfg0.N → sProp 𝕄
  | 0, _ => Pipeline.ΦA spec0 c
  | n + 1, hn => iprop((owns (c : Thread nD τ) scA0 fullShare (scAt0 V c n hn).1 ∗ owns (c : Thread nD τ) scB0 fullShare (scAt0 V c n hn).2 ∗ rest0 c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scA0 fullShare (scAt0 V c n hn).1 ∗ owns (c : Thread nD τ) scB0 fullShare (scAt0 V c n hn).2 ∗ rest0 c) ∗ (∃ r, prngReg c r)) := rfl

theorem Phi0_pos (c : Dev nD) (n : ℕ) (h : n ≤ cfg0.N) (hz : n ≠ 0) :
    Phi0 V c n h = iprop((owns (c : Thread nD τ) scA0 fullShare (scAt0 V c (n - 1) (by omega)).1 ∗ owns (c : Thread nD τ) scB0 fullShare (scAt0 V c (n - 1) (by omega)).2 ∗ rest0 c) ∗ (∃ r, prngReg c r)) := by
  cases n with
  | zero => exact absurd rfl hz
  | succ n => rfl

/-! ## The proof data -/

/-- Pipeline 0's proof data on core c: the arrays as found; after the body each input buffer at its block and the
    output buffer at the tile; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem Phi0_castSucc (c : Dev nD) (t : Fin cfg0.N) :
    (dat0 V c).Φ t.castSucc = Phi0 V c t.val (Nat.le_of_lt t.isLt) := by
  dsimp only [dat0]; simp only [Fin.coe_castSucc]

theorem Phi0_at_succ (c : Dev nD) (t : Fin cfg0.N) :
    (dat0 V c).Φ t.succ = Phi0 V c (t.val + 1) t.isLt := rfl

end Cert.Kernel.Hand

end
-- ==== Proof.K.Body0.lean ====
/-
  The first layer's kernel body at every grid point, against the pipeline's proof data: whatever point t = 8 * tile
  + step the pipeline calls the body at, the three input buffers hold their blocks, the invariant hands over the two
  accumulators, and the body hands everything back with the accumulators advanced by one reduction step. Three
  cases, as the body has: step 0 (the accumulators restart from zero, whatever they held), a middle step (they
  continue from what the point before left), the last step (they continue, and the output tile is stored). Away
  from the last step the output buffer is idle: it is handed back holding what it held. Also the two ends of the
  region: what it is entered with is the invariant before point 0, and the invariant after the last point gives
  that back with the accumulators' contents forgotten.
-/
import proofs.«122316_j6519760355912_1_alg».proof.Proof.K.Kern0
import proofs.«122316_j6519760355912_1_alg».proof.Proof.K.Data0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two ends -/

/-- Before any point the invariant holds both accumulators at something: at point 0 by what the region is
    entered with; later their named contents are forgotten. -/
theorem Phi0_open (c : Dev nD) (n : ℕ) (h : n ≤ cfg0.N) :
    Phi0 V c n h ⊢ iprop(((∃ d, owns (c : Thread nD τ) scA0 fullShare d) ∗ (∃ d, owns (c : Thread nD τ) scB0 fullShare d) ∗ rest0 c) ∗ (∃ r, prngReg c r)) := by
  by_cases hz : n = 0
  · rw [Phi0_zero V c n h hz, PhiA0_eq]
  · rw [Phi0_pos V c n h hz]
    iintro ⟨⟨HA, HB, Hr⟩, Hg⟩
    isplitr [Hg]
    · isplitl [HA]
      · iexists _; iexact HA
      isplitl [HB]
      · iexists _; iexact HB
      iexact Hr
    iexact Hg

/-! ## The body at a point -/

/-- What the body is called with at point t: the invariant, nothing owed, each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- An input window is live everywhere: the body leaves its buffer at the block it found there. -/
theorem leaves0_0 (c : Dev nD) (t : Fin cfg0.N) :
    (dat0 V c).leavesExact 0 t = owns (c : Thread nD τ) (st0_0 t) fullShare (iblk0 V c 0 t) := by
  unfold Dat.leavesExact; rw [live0_0 t, after0_0]
theorem leaves0_1 (c : Dev nD) (t : Fin cfg0.N) :
    (dat0 V c).leavesExact 1 t = owns (c : Thread nD τ) (st0_1 t) fullShare (iblk0 V c 1 t) := by
  unfold Dat.leavesExact; rw [live0_1 t, after0_1]
theorem leaves0_2 (c : Dev nD) (t : Fin cfg0.N) :
    (dat0 V c).leavesExact 2 t = owns (c : Thread nD τ) (st0_2 t) fullShare (iblk0 V c 2 t) := by
  unfold Dat.leavesExact; rw [live0_2 t, after0_2]
/-- The output window is live at a last reduction step: its buffer is left at the tile stored there. -/
theorem leaves0_3 (c : Dev nD) (t : Fin cfg0.N) (hL : condL0 (grid0.coords t)) :
    (dat0 V c).leavesExact 3 t = owns (c : Thread nD τ) (st0_3 t) fullShare (out0 V c t) := by
  unfold Dat.leavesExact; rw [live0_3 t hL, after0_3]

set_option maxHeartbeats 4800000 in
/-- The body at any point. The input buffers hold their blocks; which of the three cases the point is in is read
    off t mod 8. At step 0 the accumulators are taken at whatever they hold (the body zeroes them first); at a later
    step at what the point before left. Each case's run of the body gives them back advanced by this point's
    blocks, which is what the invariant after the point names; the output buffer comes back as it was found, or,
    at the last step, at the tile computed from the two accumulators. Nothing is owed before or after. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [Phi0_castSucc, Phi0_at_succ, Phi0_succ, leaves0_0, leaves0_1, leaves0_2]
  have hN : t.val < 64 := lt_of_lt_of_eq t.isLt (show cfg0.N = 64 from N_0)
  by_cases h0 : t.val % 8 = 0
  · -- reduction step 0
    have hF : condF0 (grid0.coords t) := (hcondF0 t).mpr h0
    have hL : ¬condL0 (grid0.coords t) := fun h => by have := (hcondL0 t).mp h; omega
    rw [Dat.leavesExact_idle (dat0 V c) 3 t (idle0_3 t hL) (noFlush0_3 t hL), scAt0_first V c t h0]
    dsimp only
    iintro ⟨HΦ, Ho, ⟨%d0, H0⟩, ⟨%d1, H1⟩, ⟨%d2, H2⟩, ⟨%d3, H3⟩⟩
    ihave ⟨⟨⟨%a, HA⟩, ⟨%s, HB⟩, Hr⟩, Hg⟩ := (Phi0_open V c _ _) $$ HΦ
    iapply (kern0_first c Set.univ (grid0.coords t) _ _ _ _ _ _ _ _ _ _ _ _ hF hL (iblk0 V c 0 t) (iblk0 V c 1 t) (iblk0 V c 2 t) ((dat0 V c).before 3 t d3) a s _)
    iframe H0 H1 H2 H3 HA HB
    iintro ⟨H0, H1, H2, H3, HA, HB⟩
    iframe HA HB Hr Hg Ho H0 H1 H2
    iexists d3; iexact H3
  · have hF : ¬condF0 (grid0.coords t) := fun h => h0 ((hcondF0 t).mp h)
    have hz : t.val ≠ 0 := fun h => h0 (by rw [h])
    rw [Phi0_pos V c _ _ hz, scAt0_next V c t h0]
    dsimp only
    by_cases h7 : t.val % 8 = 7
    · -- the last reduction step
      have hL : condL0 (grid0.coords t) := (hcondL0 t).mpr h7
      rw [leaves0_3 V c t hL]
      unfold out0
      rw [scAt0_next V c t h0]
      dsimp only
      iintro ⟨⟨⟨HA, HB, Hr⟩, Hg⟩, Ho, ⟨%d0, H0⟩, ⟨%d1, H1⟩, ⟨%d2, H2⟩, ⟨%d3, H3⟩⟩
      iapply (kern0_last c Set.univ (grid0.coords t) _ _ _ _ _ _ _ _ _ _ _ _ hF hL (iblk0 V c 0 t) (iblk0 V c 1 t) (iblk0 V c 2 t) ((dat0 V c).before 3 t d3) _ _ _)
      iframe H0 H1 H2 H3 HA HB
      iintro ⟨H0, H1, H2, H3, HA, HB⟩
      iframe HA HB Hr Hg Ho H0 H1 H2
      iexact H3
    · -- a middle step
      have hL : ¬condL0 (grid0.coords t) := fun h => h7 ((hcondL0 t).mp h)
      rw [Dat.leavesExact_idle (dat0 V c) 3 t (idle0_3 t hL) (noFlush0_3 t hL)]
      iintro ⟨⟨⟨HA, HB, Hr⟩, Hg⟩, Ho, ⟨%d0, H0⟩, ⟨%d1, H1⟩, ⟨%d2, H2⟩, ⟨%d3, H3⟩⟩
      iapply (kern0_mid c Set.univ (grid0.coords t) _ _ _ _ _ _ _ _ _ _ _ _ hF hL (iblk0 V c 0 t) (iblk0 V c 1 t) (iblk0 V c 2 t) ((dat0 V c).before 3 t d3) _ _ _)
      iframe H0 H1 H2 H3 HA HB
      iintro ⟨H0, H1, H2, H3, HA, HB⟩
      iframe HA HB Hr Hg Ho H0 H1 H2
      iexists d3; iexact H3

/-- The pipeline's body obligation at every point: the windows written out one by one. -/
theorem body_obligation0 (c : Dev nD) : BodyObligation (dat0 (F := F) V c) (defs₀ (F := F)) Variants.none () Set.univ := fun t => by
  rw [bigSep_W0, bigSep_W0]
  exact sound_body0 V c t

/-- what the region is handed is the invariant before the first point -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- after the last point the invariant gives the class invariant back (the accumulators' contents forgotten) -/
theorem hout0 (c : Dev nD) : (dat0 V c).Φ (Fin.last cfg0.N) ⊢ Pipeline.ΦA spec0 c := by
  rw [PhiA0_eq]
  exact Phi0_open V c (Fin.last cfg0.N).val (Nat.le_of_lt_succ (Fin.last cfg0.N).isLt)

end Cert.Kernel.Hand

end
-- ==== Proof.K.Kern1.lean ====
/-
  The second layer's kernel body run once on whole buffers, in each of the three cases a grid point can be in.
  Write a, s for what the two accumulators hold when the body starts and x, w, b for the three input blocks; every
  load and store is of a whole buffer. At reduction step 0 the accumulators are first zeroed, so they end at
  (0 + x·w, 0 + Σ b); at a middle step at (a + x·w, s + Σ b); at the last step the same, and the output tile is
  stored as the scaled sum of the two. The output buffer is untouched before the last step.
  The arithmetic stays folded in the body's named payloads; every statement holds for any float instance.
-/
import proofs.«122316_j6519760355912_1_alg».proof.Proof.K.Cond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- A middle reduction step: both accumulators updated, the output buffer untouched. -/
theorem kern1_mid (c : Dev nD) (E : Set ℕ) (i : grid1.Coords)
    (arg2 : Memref sig .tc .vmem S100x256 .f32) (harg2 : arg2.IsWhole) (arg3 : Memref sig .tc .vmem S256x128 .f32) (harg3 : arg3.IsWhole)
    (arg4 : Memref sig .tc .vmem S100x256x128 .f32) (harg4 : arg4.IsWhole) (arg5 : Memref sig .tc .vmem S100x128 .f32) (harg5 : arg5.IsWhole)
    (arg6 : Memref sig .tc .vmem S100x128 .f32) (harg6 : arg6.IsWhole) (arg7 : Memref sig .tc .vmem S100x128 .f32) (harg7 : arg7.IsWhole)
    (hF : ¬condF1 i) (hL : ¬condL1 i)
    (x : Vec F S100x256 .f32) (w : Vec F S256x128 .f32) (b : Vec F S100x256x128 .f32) (o : Vec F S100x128 .f32)
    (a s : Vec F S100x128 .f32) (K : PUnit → sProp 𝕄) :
    iprop(owns (c : Thread nD τ) arg2 fullShare x ∗ owns (c : Thread nD τ) arg3 fullShare w ∗ owns (c : Thread nD τ) arg4 fullShare b
        ∗ owns (c : Thread nD τ) arg5 fullShare o ∗ owns (c : Thread nD τ) arg6 fullShare a ∗ owns (c : Thread nD τ) arg7 fullShare s
        ∗ (iprop(owns (c : Thread nD τ) arg2 fullShare x ∗ owns (c : Thread nD τ) arg3 fullShare w ∗ owns (c : Thread nD τ) arg4 fullShare b
            ∗ owns (c : Thread nD τ) arg5 fullShare o ∗ owns (c : Thread nD τ) arg6 fullShare (k1_pay3 x w a) ∗ owns (c : Thread nD τ) arg7 fullShare (k1_pay4 s b)) -∗ K ⟨⟩))
      ⊢ wp frame (wpE (defs₀ (F := F)) Variants.none c none) E (cc1__fused_linear_kernel i arg2 harg2 arg3 harg3 arg4 harg4 arg5 harg5 arg6 harg6 arg7 harg7) K := by
  simp only [cc1__fused_linear_kernel_eq_skeleton]; unfold cc1__fused_linear_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hF | exact hL)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    try sl_unfold_words
    rw [View.read_writes_eq_canon _ _ _ (cover_one _), View.canon_unit_zero hz2]
    simp only [View.readAt_eq_ld, harg2.read_unread, harg3.read_unread, harg6.read_unread,
      View.ld_unit_zero (S := S100x256) hz2, View.ld_unit_zero (S := S256x128) hz2, View.ld_unit_zero (S := S100x128) hz2]
  · iexists _; isplitr
    swap; · iexact H7
    ipureintro
    try sl_unfold_words
    rw [View.read_writes_eq_canon _ _ _ (cover_one _), View.canon_unit_zero hz2]
    simp only [View.readAt_eq_ld, harg4.read_unread, harg7.read_unread,
      View.ld_unit_zero (S := S100x256x128) hz3, View.ld_unit_zero (S := S100x128) hz2]

set_option maxHeartbeats 1600000 in
/-- Reduction step 0: both accumulators zeroed, then updated; the output buffer untouched. -/
theorem kern1_first (c : Dev nD) (E : Set ℕ) (i : grid1.Coords)
    (arg2 : Memref sig .tc .vmem S100x256 .f32) (harg2 : arg2.IsWhole) (arg3 : Memref sig .tc .vmem S256x128 .f32) (harg3 : arg3.IsWhole)
    (arg4 : Memref sig .tc .vmem S100x256x128 .f32) (harg4 : arg4.IsWhole) (arg5 : Memref sig .tc .vmem S100x128 .f32) (harg5 : arg5.IsWhole)
    (arg6 : Memref sig .tc .vmem S100x128 .f32) (harg6 : arg6.IsWhole) (arg7 : Memref sig .tc .vmem S100x128 .f32) (harg7 : arg7.IsWhole)
    (hF : condF1 i) (hL : ¬condL1 i)
    (x : Vec F S100x256 .f32) (w : Vec F S256x128 .f32) (b : Vec F S100x256x128 .f32) (o : Vec F S100x128 .f32)
    (a s : Vec F S100x128 .f32) (K : PUnit → sProp 𝕄) :
    iprop(owns (c : Thread nD τ) arg2 fullShare x ∗ owns (c : Thread nD τ) arg3 fullShare w ∗ owns (c : Thread nD τ) arg4 fullShare b
        ∗ owns (c : Thread nD τ) arg5 fullShare o ∗ owns (c : Thread nD τ) arg6 fullShare a ∗ owns (c : Thread nD τ) arg7 fullShare s
        ∗ (iprop(owns (c : Thread nD τ) arg2 fullShare x ∗ owns (c : Thread nD τ) arg3 fullShare w ∗ owns (c : Thread nD τ) arg4 fullShare b
            ∗ owns (c : Thread nD τ) arg5 fullShare o ∗ owns (c : Thread nD τ) arg6 fullShare (k1_pay3 x w k1_pay1) ∗ owns (c : Thread nD τ) arg7 fullShare (k1_pay4 k1_pay2 b)) -∗ K ⟨⟩))
      ⊢ wp frame (wpE (defs₀ (F := F)) Variants.none c none) E (cc1__fused_linear_kernel i arg2 harg2 arg3 harg3 arg4 harg4 arg5 harg5 arg6 harg6 arg7 harg7) K := by
  simp only [cc1__fused_linear_kernel_eq_skeleton]; unfold cc1__fused_linear_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hF | exact hL)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    try sl_unfold_words
    rw [View.read_writes_eq_canon _ _ _ (cover_two _ _), View.canon_cons_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]
  · iexists _; isplitr
    swap; · iexact H7
    ipureintro
    try sl_unfold_words
    rw [View.read_writes_eq_canon _ _ _ (cover_two _ _), View.canon_cons_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]

set_option maxHeartbeats 1600000 in
/-- The last reduction step: both accumulators updated, then the output tile stored from them. -/
theorem kern1_last (c : Dev nD) (E : Set ℕ) (i : grid1.Coords)
    (arg2 : Memref sig .tc .vmem S100x256 .f32) (harg2 : arg2.IsWhole) (arg3 : Memref sig .tc .vmem S256x128 .f32) (harg3 : arg3.IsWhole)
    (arg4 : Memref sig .tc .vmem S100x256x128 .f32) (harg4 : arg4.IsWhole) (arg5 : Memref sig .tc .vmem S100x128 .f32) (harg5 : arg5.IsWhole)
    (arg6 : Memref sig .tc .vmem S100x128 .f32) (harg6 : arg6.IsWhole) (arg7 : Memref sig .tc .vmem S100x128 .f32) (harg7 : arg7.IsWhole)
    (hF : ¬condF1 i) (hL : condL1 i)
    (x : Vec F S100x256 .f32) (w : Vec F S256x128 .f32) (b : Vec F S100x256x128 .f32) (o : Vec F S100x128 .f32)
    (a s : Vec F S100x128 .f32) (K : PUnit → sProp 𝕄) :
    iprop(owns (c : Thread nD τ) arg2 fullShare x ∗ owns (c : Thread nD τ) arg3 fullShare w ∗ owns (c : Thread nD τ) arg4 fullShare b
        ∗ owns (c : Thread nD τ) arg5 fullShare o ∗ owns (c : Thread nD τ) arg6 fullShare a ∗ owns (c : Thread nD τ) arg7 fullShare s
        ∗ (iprop(owns (c : Thread nD τ) arg2 fullShare x ∗ owns (c : Thread nD τ) arg3 fullShare w ∗ owns (c : Thread nD τ) arg4 fullShare b
            ∗ owns (c : Thread nD τ) arg5 fullShare (k1_pay5 (k1_pay3 x w a) (k1_pay4 s b)) ∗ owns (c : Thread nD τ) arg6 fullShare (k1_pay3 x w a) ∗ owns (c : Thread nD τ) arg7 fullShare (k1_pay4 s b)) -∗ K ⟨⟩))
      ⊢ wp frame (wpE (defs₀ (F := F)) Variants.none c none) E (cc1__fused_linear_kernel i arg2 harg2 arg3 harg3 arg4 harg4 arg5 harg5 arg6 harg6 arg7 harg7) K := by
  simp only [cc1__fused_linear_kernel_eq_skeleton]; unfold cc1__fused_linear_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hF | exact hL)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_words
    rw [View.read_writes_eq_canon _ _ _ (cover_one _), View.canon_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]
  isplitl [H6]
  · iexists _; isplitr
    swap; · iexact H6
    ipureintro
    try sl_unfold_words
    rw [View.read_writes_eq_canon _ _ _ (cover_one _), View.canon_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]
  · iexists _; isplitr
    swap; · iexact H7
    ipureintro
    try sl_unfold_words
    rw [View.read_writes_eq_canon _ _ _ (cover_one _), View.canon_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]

end Cert.Kernel.Hand

end
-- ==== Proof.K.RData1.lean ====
/-
  The second layer's pipeline as relational proof data, at any float instance, from the buffer contents V the region
  is entered with. The last of the eight output tiles overhangs the arrays' 1000 columns, so the fetches of the
  weight, bias and output windows there are cut at the array's end and leave the rest of the staging buffer at words
  nothing names; what the accumulators and the output buffer hold afterwards is then not a function of the inputs
  that can be written down. For a claim that reads none of that, nothing of it is named: each input window's relation
  says the body hands the buffer back as it found it, the output window's relation says nothing, and the invariant at
  every point is "every scratch buffer at something, the generator register at some state". Nothing is owed. The body
  obligation then asks only that the body runs at every point and hands every buffer back, which its three cases
  (reduction step 0, a middle step, the last step) give at whatever contents the buffers hold.
-/
import proofs.«122316_j6519760355912_1_alg».proof.Proof.K.Kern1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data -/

/-- Pipeline 1's proof data on core c: the arrays as found; each input buffer handed back as it was found, nothing
    said of the output buffer; the class invariant at every point; nothing owed; full shares. -/
def rdat1 (c : Dev nD) : Pipeline.RDat τ (Elt F) Unit ℕ (UR sig nD τ) ℕ cfg1 c where
  A w := V c (Pipeline.arrRef spec1 w)
  after w _ Y X := match w with
    | ⟨0, _⟩ => X = Y
    | ⟨1, _⟩ => X = Y
    | ⟨2, _⟩ => X = Y
    | ⟨3, _⟩ => True
  Φ _ := Pipeline.ΦA spec1 c
  q _ := fullShare
  owed _ := 0

theorem rA_eq1 (c : Dev nD) (w : Fin cfg1.W) : (rdat1 V c).A w = V c (Pipeline.arrRef spec1 w) := rfl

theorem rafter1_0 (c : Dev nD) (t : Fin cfg1.N) (Y X) : (rdat1 V c).after 0 t Y X ↔ X = Y := Iff.rfl
theorem rafter1_1 (c : Dev nD) (t : Fin cfg1.N) (Y X) : (rdat1 V c).after 1 t Y X ↔ X = Y := Iff.rfl
theorem rafter1_2 (c : Dev nD) (t : Fin cfg1.N) (Y X) : (rdat1 V c).after 2 t Y X ↔ X = Y := Iff.rfl
theorem rafter1_3 (c : Dev nD) (t : Fin cfg1.N) (Y X) : (rdat1 V c).after 3 t Y X := trivial

theorem rPhi1 (c : Dev nD) (t : Fin (cfg1.N + 1)) : (rdat1 V c).Φ t = Pipeline.ΦA spec1 c := rfl
theorem rowed1 (c : Dev nD) (t : Fin (cfg1.N + 1)) : (rdat1 V c).owed t = 0 := rfl

/-! ## The invariant, opened -/

/-- "Every scratch buffer at something, the generator register at some state", written out buffer by buffer: the
    first layer's staging buffers and accumulators, then this layer's two accumulators. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scA1 fullShare d) ∗ (∃ d, owns (c : Thread nD τ) scB1 fullShare d)) ∗ (∃ r, prngReg c r)) := by
  unfold Pipeline.ΦA; rw [scopedRest1_eq]; simp only [scA1, scB1, owns_whole]; try rfl

/-! ## The body at a point -/

set_option maxHeartbeats 4800000 in
/-- The body at any point, at whatever contents Y the four current buffers hold. Which of the three cases the point
    is in is read off t mod 4; the two accumulators are taken at whatever they hold. Each case's run of the body hands
    the three input buffers back at the contents they were found at, the output buffer and the two accumulators at
    some contents, and touches nothing else. Nothing is owed before or after. -/
theorem sound_rbody1 (c : Dev nD) (t : Fin cfg1.N) (Y : (w : Fin cfg1.W) → (cfg1.win w).block.Idx → Elt F (cfg1.win w).elt) :
    iprop((rdat1 V c).Φ t.castSucc ∗ (rdat1 V c).owesAt () t.castSucc
        ∗ owns (c : Thread nD τ) (st1_0 t) fullShare (Y 0) ∗ owns (c : Thread nD τ) (st1_1 t) fullShare (Y 1)
        ∗ owns (c : Thread nD τ) (st1_2 t) fullShare (Y 2) ∗ owns (c : Thread nD τ) (st1_3 t) fullShare (Y 3))
      ⊢ wp frame (wpE (defs₀ (F := F)) Variants.none c none) Set.univ (bodyAt1 t) (fun _ =>
          iprop((rdat1 V c).Φ t.succ ∗ (rdat1 V c).owesAt () t.succ
            ∗ (∃ X, ⌜(rdat1 V c).after 0 t (Y 0) X⌝ ∗ owns (c : Thread nD τ) (st1_0 t) fullShare X)
            ∗ (∃ X, ⌜(rdat1 V c).after 1 t (Y 1) X⌝ ∗ owns (c : Thread nD τ) (st1_1 t) fullShare X)
            ∗ (∃ X, ⌜(rdat1 V c).after 2 t (Y 2) X⌝ ∗ owns (c : Thread nD τ) (st1_2 t) fullShare X)
            ∗ (∃ X, ⌜(rdat1 V c).after 3 t (Y 3) X⌝ ∗ owns (c : Thread nD τ) (st1_3 t) fullShare X))) := by
  rw [rPhi1, rPhi1, PhiA1_eq]
  rw [show (rdat1 V c).owesAt () t.succ = (rdat1 V c).owesAt () t.castSucc from rfl]
  unfold bodyAt1
  have hN : t.val < 32 := lt_of_lt_of_eq t.isLt (show cfg1.N = 32 from N_1)
  iintro ⟨⟨⟨R0, R1, R2, R3, R4, R5, R6, R7, R8, R9, ⟨%a, HA⟩, ⟨%s, HB⟩⟩, Hg⟩, Ho, H0, H1, H2, H3⟩
  by_cases h0 : t.val % 4 = 0
  · -- reduction step 0
    have hF : condF1 (grid1.coords t) := (hcondF1 t).mpr h0
    have hL : ¬condL1 (grid1.coords t) := fun h => by have := (hcondL1 t).mp h; omega
    iapply (kern1_first c Set.univ (grid1.coords t) _ _ _ _ _ _ _ _ _ _ _ _ hF hL (Y 0) (Y 1) (Y 2) (Y 3) a s _)
    iframe H0 H1 H2 H3 HA HB
    iintro ⟨H0, H1, H2, H3, HA, HB⟩
    isplitl [R0 R1 R2 R3 R4 R5 R6 R7 R8 R9 HA HB Hg]
    · isplitr [Hg]
      · iframe R0 R1 R2 R3 R4 R5 R6 R7 R8 R9
        isplitl [HA]
        · iexists _; iexact HA
        iexists _; iexact HB
      iexact Hg
    isplitl [Ho]; · iexact Ho
    isplitl [H0]
    · iexists (Y 0); isplitr; · ipureintro; exact (rafter1_0 V c t _ _).mpr rfl
      iexact H0
    isplitl [H1]
    · iexists (Y 1); isplitr; · ipureintro; exact (rafter1_1 V c t _ _).mpr rfl
      iexact H1
    isplitl [H2]
    · iexists (Y 2); isplitr; · ipureintro; exact (rafter1_2 V c t _ _).mpr rfl
      iexact H2
    iexists _; isplitr
    swap; · iexact H3
    ipureintro; exact rafter1_3 V c t _ _
  · have hF : ¬condF1 (grid1.coords t) := fun h => h0 ((hcondF1 t).mp h)
    by_cases h3 : t.val % 4 = 3
    · -- the last reduction step
      have hL : condL1 (grid1.coords t) := (hcondL1 t).mpr h3
      iapply (kern1_last c Set.univ (grid1.coords t) _ _ _ _ _ _ _ _ _ _ _ _ hF hL (Y 0) (Y 1) (Y 2) (Y 3) a s _)
      iframe H0 H1 H2 H3 HA HB
      iintro ⟨H0, H1, H2, H3, HA, HB⟩
      isplitl [R0 R1 R2 R3 R4 R5 R6 R7 R8 R9 HA HB Hg]
      · isplitr [Hg]
        · iframe R0 R1 R2 R3 R4 R5 R6 R7 R8 R9
          isplitl [HA]
          · iexists _; iexact HA
          iexists _; iexact HB
        iexact Hg
      isplitl [Ho]; · iexact Ho
      isplitl [H0]
      · iexists (Y 0); isplitr; · ipureintro; exact (rafter1_0 V c t _ _).mpr rfl
        iexact H0
      isplitl [H1]
      · iexists (Y 1); isplitr; · ipureintro; exact (rafter1_1 V c t _ _).mpr rfl
        iexact H1
      isplitl [H2]
      · iexists (Y 2); isplitr; · ipureintro; exact (rafter1_2 V c t _ _).mpr rfl
        iexact H2
      iexists _; isplitr
      swap; · iexact H3
      ipureintro; exact rafter1_3 V c t _ _
    · -- a middle step
      have hL : ¬condL1 (grid1.coords t) := fun h => h3 ((hcondL1 t).mp h)
      iapply (kern1_mid c Set.univ (grid1.coords t) _ _ _ _ _ _ _ _ _ _ _ _ hF hL (Y 0) (Y 1) (Y 2) (Y 3) a s _)
      iframe H0 H1 H2 H3 HA HB
      iintro ⟨H0, H1, H2, H3, HA, HB⟩
      isplitl [R0 R1 R2 R3 R4 R5 R6 R7 R8 R9 HA HB Hg]
      · isplitr [Hg]
        · iframe R0 R1 R2 R3 R4 R5 R6 R7 R8 R9
          isplitl [HA]
          · iexists _; iexact HA
          iexists _; iexact HB
        iexact Hg
      isplitl [Ho]; · iexact Ho
      isplitl [H0]
      · iexists (Y 0); isplitr; · ipureintro; exact (rafter1_0 V c t _ _).mpr rfl
        iexact H0
      isplitl [H1]
      · iexists (Y 1); isplitr; · ipureintro; exact (rafter1_1 V c t _ _).mpr rfl
        iexact H1
      isplitl [H2]
      · iexists (Y 2); isplitr; · ipureintro; exact (rafter1_2 V c t _ _).mpr rfl
        iexact H2
      iexists _; isplitr
      swap; · iexact H3
      ipureintro; exact rafter1_3 V c t _ _

/-- The pipeline's body obligation at every point: the windows written out one by one. What the buffers may hold
    when the body is called plays no part. -/
theorem rbody1 (c : Dev nD) : (rdat1 (F := F) V c).BodyObligation (defs₀ (F := F)) Variants.none () Set.univ := fun t Y _ => by
  rw [bigSep_W1, bigSep_W1]
  exact sound_rbody1 V c t Y

end Cert.Kernel.Hand

end
-- ==== Proof.K.Run.lean ====
/-
  The whole program run at any float instance: the two kernel regions in order from any launch memory, every weakly
  fair execution ending, nothing faulting, the five argument arrays as launched.
  The first layer's region is entered at the launch contents and its proof data name everything, so at its exit the
  unscoped buffers are known by name: the hidden activations at what the write-backs made, every other buffer as
  launched. The second layer's region is entered at those contents; its data are relational, so at its exit its four
  arrays are held at SOME contents each may then have. That is the last thread state: nothing runs after it. Read
  against a final memory, the two weight-side inputs of the second layer are as at its entry because an input
  window's array is never written back, which is as launched because the first layer's region does not have them
  among its arrays; the three arguments of the first layer bypass the second region untouched at what the first
  region's exit names, and there each is an input window's array, so as launched too.
-/
import proofs.«122316_j6519760355912_1_alg».proof.Proof.K.RData1
import proofs.«122316_j6519760355912_1_alg».proof.Proof.K.Data0
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the two region entries -/

/-- Core c's buffers at launch, -/
abbrev Wl (c : Dev nD) : Valuation τ sig (Elt F) := fun b => m (c, b)
/-- read at the TensorCore's references: what the first region's proof data take. -/
abbrev Vl : (c : Dev nD) → (b : Ref sig .tc) → Buf (Elt F) ((c : Thread nD τ).loc b) := fun c b => Wl m c b

/-- At the first region's exit: its four arrays at what the pipeline leaves (the inputs as entered, the hidden
    activations at the write-backs folded), every other buffer as launched. -/
def Wx (c : Dev nD) : Valuation τ sig (Elt F) :=
  Pipeline.withArrays spec0 c (Wl m c) fun w => (dat0 (Vl m) c).arrAt w cfg0.N
theorem Wx_arr (c : Dev nD) (w : Fin cfg0.W) :
    Wx m c (Proc.devRef .tc (Pipeline.arrRef spec0 w)) = (dat0 (Vl m) c).arrAt w cfg0.N := by
  unfold Wx; exact Pipeline.withArrays_arr spec0 launch0.win.arr_inj c _ _ w
theorem Wx_of_ne (c : Dev nD) (b : Ref sig .tc) (hb : ∀ w, Pipeline.arrRef spec0 w ≠ b) :
    Wx m c (Proc.devRef .tc b) = Wl m c (Proc.devRef .tc b) := by
  unfold Wx; exact Pipeline.withArrays_of_ne spec0 c _ _ b hb
/-- The same read at the TensorCore's references: what the second region's proof data take. -/
abbrev Vx : (c : Dev nD) → (b : Ref sig .tc) → Buf (Elt F) ((c : Thread nD τ).loc b) := fun c b => Wx m c b

theorem hF0 (c : Dev nD) (w : Fin cfg0.W) : (dat0 (Vl m) c).arrAt w cfg0.N = Vx m c (Pipeline.arrRef spec0 w) :=
  (Wx_arr m c w).symm
theorem hrest0 (c : Dev nD) : ∀ b, b ∉ Finset.univ.image (Pipeline.arrRef spec0) → Vx m c b = Vl m c b :=
  fun b hb => Wx_of_ne m c b fun w e => hb (Finset.mem_image.mpr ⟨w, Finset.mem_univ _, e⟩)

/-! ### Each argument at the second region's entry is as launched -/

/-- The first layer's three arguments are input windows' arrays of the first region: never written back. -/
theorem Vx_main_arg0 (c : Dev nD) : Vx m c main_arg0 = m ((c : Thread nD τ).loc main_arg0) :=
  (Wx_arr m c 0).trans (((dat0 (Vl m) c).arrAt_in 0 rfl _).trans (A_eq0 (Vl m) c 0))
theorem Vx_main_arg1 (c : Dev nD) : Vx m c main_arg1 = m ((c : Thread nD τ).loc main_arg1) :=
  (Wx_arr m c 1).trans (((dat0 (Vl m) c).arrAt_in 1 rfl _).trans (A_eq0 (Vl m) c 1))
theorem Vx_main_arg2 (c : Dev nD) : Vx m c main_arg2 = m ((c : Thread nD τ).loc main_arg2) :=
  (Wx_arr m c 2).trans (((dat0 (Vl m) c).arrAt_in 2 rfl _).trans (A_eq0 (Vl m) c 2))
/-- The second layer's two arguments are no array of the first region: it bypasses them. -/
theorem Vx_main_arg3 (c : Dev nD) : Vx m c main_arg3 = m ((c : Thread nD τ).loc main_arg3) :=
  Wx_of_ne m c main_arg3 (by decide)
theorem Vx_main_arg4 (c : Dev nD) : Vx m c main_arg4 = m ((c : Thread nD τ).loc main_arg4) :=
  Wx_of_ne m c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents: the first region's exact data read
    relationally, the second region's relational data. -/
def rdats : (p : Fin 2) → (c : Dev nD) → Pipeline.RDat τ (Elt F) Unit ℕ (UR sig nD τ) ℕ (Pipeline.pin (pcfgs (F := F)) adm p) c
  | ⟨0, _⟩ => fun c => (dat0 (Vl m) c).toR
  | ⟨1, _⟩ => fun c => rdat1 (Vx m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the core's generator register at some state and its owes, at nothing. -/
abbrev R (c : Dev nD) : sProp 𝕄 := iprop((∃ r, prngReg c r) ∗ ∃ W, owes (c : Thread nD τ) (0 : CellTallies nD τ sig Unit) W)
/-- The last thread state (beside the core owing nothing): the second region's arrays at some contents each may
    hold after every write-back, the three buffers that bypass it at what the first region's exit names. -/
abbrev Tₙ (c : Dev nD) : sProp 𝕄 :=
  iprop((rdats m 1 c).arraysAt cfg1.N ∗ Pipeline.unscopedRest (Ix := Unit) (Name := ℕ) (U := UR sig nD τ) (Lvl := ℕ) spec1 c (Vx m c))

/-- A region's arrays at contents F and the unscoped rest at V are the core's unscoped buffers at any V' that has the
    arrays at F and agrees with V off them. -/
theorem unscopedBufs_of_rarrays {p : Fin 2} (hw : Pipeline.WinFacts (Pipeline.pin (pcfgs (F := F)) adm p).spec)
    (harr : ∀ w, ((Pipeline.pin (pcfgs (F := F)) adm p).spec w).arr.IsWhole) (c : Dev nD)
    (hshare : ∀ w, (rdats m p c).share w = fullShare)
    (V V' : (b : Ref sig .tc) → Buf (Elt F) ((c : Thread nD τ).loc b))
    (A : (w : Fin (Pipeline.pin (pcfgs (F := F)) adm p).W) → Buf (Elt F) (((Pipeline.pin (pcfgs (F := F)) adm p).spec w).arr.view.loc (c : Thread nD τ)))
    (hA : ∀ w, A w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m p c).arrays A ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats m) p c harr hshare]
  refine sep_mono (Entails.of_eq (bigSep_congr fun w _ => by rw [hA])) (Entails.of_eq ?_)
  unfold Pipeline.unscopedRest
  exact bigSep_congr fun b hb => by rw [hrest b (Finset.mem_sdiff.mp hb).2]

/-! ## The regions as segments -/

set_option backward.isDefEq.respectTransparency.types false in
/-- THE SECOND REGION over the thread state: entered from every unscoped buffer at the contents the first region's exit
    names, left with its arrays at some contents each may hold after every write-back and the bypassing buffers as
    entered. The generator register into the class invariant and out; nothing owed; no semaphore of the kernel's own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := rbody1 (Vx m) c
  hwaits := Pipeline.RDat.hwaits_of_owed_zero _ _ _ _ L lv 1 fun _ _ => rfl
  pre c := iprop(unscopedBufs c (Vx m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vx m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (Vx m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, -, Hrest⟩
    imodintro
    isplitl [Ha Hrest]
    · isplitl [Ha]; · iexact Ha
      iexact Hrest
    unfold Pipeline.RDat.owesAt Pipeline.owesWithin
    icases HO with ⟨%W, -, HO⟩; iexists W; iexact HO

section Run

variable (hb0 : ∀ (V : (c : Dev nD) → (b : Ref sig .tc) → Buf (Elt F) ((c : Thread nD τ).loc b)) (c : Dev nD),
    BodyObligation (dat0 (F := F) V c) (defs₀ (F := F)) Variants.none () Set.univ)
  (hin0 : ∀ (V : (c : Dev nD) → (b : Ref sig .tc) → Buf (Elt F) ((c : Thread nD τ).loc b)) (c : Dev nD),
    Pipeline.ΦA spec0 c ⊢ (dat0 (F := F) V c).Φ 0)
  (hout0 : ∀ (V : (c : Dev nD) → (b : Ref sig .tc) → Buf (Elt F) ((c : Thread nD τ).loc b)) (c : Dev nD),
    (dat0 (F := F) V c).Φ (Fin.last cfg0.N) ⊢ Pipeline.ΦA spec0 c)

include hb0 hin0 hout0

set_option backward.isDefEq.respectTransparency.types false in
/-- THE FIRST REGION over the thread state: entered from every unscoped buffer as launched, left at the contents its
    exit names. Its arrays split out of the unscoped buffers and put back at what the write-backs made; the generator
    register into the class invariant and out; nothing owed; no semaphore of the kernel's own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (hb0 (Vl m) c).loose.toR
  hwaits := Pipeline.RDat.hwaits_of_owed_zero _ _ _ _ L lv 0 fun _ _ => rfl
  pre c := iprop(unscopedBufs c (Vl m c) ∗ R c)
  post c := iprop(unscopedBufs c (Vx m c) ∗ R c)
  X c := iprop(∃ r, prngReg c r)
  Y c := iprop(∃ r, prngReg c r)
  Z c := Pipeline.unscopedRest (Ix := Unit) (Name := ℕ) (U := UR sig nD τ) (Lvl := ℕ) spec0 c (Vl m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (Vl m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vl m) c)
    unfold Pipeline.ΦA
    iintro ⟨Hp, -, Hr⟩
    isplitl [Hr]; · iexact Hr
    iexact Hp
  hout c := by
    rw [Pipeline.ownSems0_none]
    refine BIBase.Entails.trans (hout0 (Vl m) c) ?_
    unfold Pipeline.ΦA
    iintro ⟨Hr, Hp⟩
    isplitl [Hp]; · iexact Hp
    isplitr; · iempintro
    iexact Hr
  hexit c := by
    have hjoin := unscopedBufs_of_rarrays (p := 0) m launch0.win launch0.arr_whole c
      ((rdats m 0 c).share_full fun _ => rfl) (Vl m c) (Vx m c) ((dat0 (Vl m) c).arrAt · cfg0.N) (hF0 m c) (hrest0 m c)
    have harrs : (rdats m 0 c).arraysAt cfg0.N = ((rdats m 0 c).arrays ((dat0 (Vl m) c).arrAt · cfg0.N) : sProp 𝕄) :=
      (dat0 (Vl m) c).toR_arraysAt_eq cfg0.N
    iintro ⟨Ha, HO, HY, Hrest⟩
    imodintro
    isplitl [Ha Hrest]
    · iapply hjoin; isplitl [Ha]
      · rw [← harrs]; iexact Ha
      iexact Hrest
    isplitl [HY]; · iexact HY
    unfold Pipeline.RDat.owesAt Pipeline.owesWithin
    icases HO with ⟨%W, -, HO⟩; iexists W; iexact HO

/-! ## @main as segments, and the launch -/

/-- @main's two segments in order: a region per kernel call. -/
abbrev segs : List (Pipeline.RDat.Seg (pcfgs (F := F)) adm (rdats m) () defs₀ 𝒱₀ L lv) :=
  [ .region (reg0 m hb0 hin0 hout0), .region (reg1 m) ]

/-- @main is the run of the two segments. -/
theorem main_run (c : Dev nD) : main (F := F) c = Pipeline.RDat.Seg.run (segs m hb0 hin0 hout0) := by
  rw [main_chain c, Pipeline.RDat.Seg.run_eq_chain]; rfl

end Run

set_option backward.isDefEq.respectTransparency.types false in
/-- THE FRAME at any float instance: at the compiled mesh, from any memory with zero counters, every weakly fair
    execution of @main on the TensorCores terminates, nothing faulting, and every final state has the five argument
    arrays as launched. -/
theorem frame_run (ρ : Dev nD → PrngReg)
    (hb0 : ∀ (V : (c : Dev nD) → (b : Ref sig .tc) → Buf (Elt F) ((c : Thread nD τ).loc b)) (c : Dev nD),
      BodyObligation (dat0 (F := F) V c) (defs₀ (F := F)) Variants.none () Set.univ)
    (hin0 : ∀ (V : (c : Dev nD) → (b : Ref sig .tc) → Buf (Elt F) ((c : Thread nD τ).loc b)) (c : Dev nD),
      Pipeline.ΦA spec0 c ⊢ (dat0 (F := F) V c).Φ 0)
    (hout0 : ∀ (V : (c : Dev nD) → (b : Ref sig .tc) → Buf (Elt F) ((c : Thread nD τ).loc b)) (c : Dev nD),
      (dat0 (F := F) V c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.RDat.θ_run_regions_kit (pcfgs (F := F)) adm (rdats m) () cellOf_inj emb₁ defs₀ 𝒱₀ L lv m ρ main (segs m hb0 hin0 hout0)
    (fun c Q => by rw [main_run m hb0 hin0 hout0 c])
    (by simp only [segs, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(unscopedBufs c (Vl m c) ∗ R c)) (Tₙ := Tₙ m)
    (hch := ⟨fun _ => .rfl, fun _ => .rfl, fun _ => .rfl⟩)
    (hinit := by
      refine Pipeline.initEach L lv fun c => ?_
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => by
      dsimp only [Tₙ]; rw [unscopedRest1_eq]
      iintro ⟨⟨Ha, H0, H1, H2⟩, HSI⟩
      icombine HSI H0 gives %h0
      icombine HSI H1 gives %h1
      icombine HSI H2 gives %h2
      ihave Hr := (Pipeline.RDat.arrays_read (pcfgs (F := F)) adm (rdats m) (p := 1) launch1.arr_whole c cfg1.N s') $$ [Ha HSI]
      · isplitl [Ha] <;> iassumption
      icases Hr with ⟨%ha, HSI⟩
      imodintro
      isplitr
      · ipureintro
        have h3 := ha 1
        have h4 := ha 2
        rw [(rdats m 1 c).ArrAt_in 1 rfl] at h3
        rw [(rdats m 1 c).ArrAt_in 2 rfl] at h4
        exact ⟨(Buf.eq_of_forall_mem_univ h0).trans (Vx_main_arg0 m c), (Buf.eq_of_forall_mem_univ h1).trans (Vx_main_arg1 m c),
          (Buf.eq_of_forall_mem_univ h2).trans (Vx_main_arg2 m c), h3.trans (Vx_main_arg3 m c), h4.trans (Vx_main_arg4 m c)⟩
      iexact HSI)
    (hQ := fun _ h => h)

end Cert.Kernel.Hand

end
-- ==== Proof.KI.Cond.lean ====
/-
  The two branch conditions of each kernel body as propositions of the grid coordinates, decided over the grid in
  closed form: with t = tile * (number of reduction steps) + step, the first branch (zero the two accumulators) is
  taken exactly at step 0 and the second (scale, and for the first layer clamp at zero, then store the output tile)
  exactly at the last step. Also where the output window is idle and where it is written back, and the two
  accumulators' scratch buffers as memrefs.
-/
import proofs.«122316_j6519760355912_1_alg».proof.Proof.Gen.KernelIdeal.Launch
import proofs.«122316_j6519760355912_1_alg».proof.Proof.Gen.KernelIdeal.Skeleton
import proofs.«122316_j6519760355912_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Layer 1 (8 tiles of 128 output features, 8 reduction steps of 256) -/

/-- "this is reduction step 0": the body zeroes both accumulators first. -/
abbrev condF0 (i : grid0.Coords) : Prop := (Scalar.cmpi .ne (Scalar.extui (Scalar.cmpi .eq (BitVec.ofNat 32 (i 1).val) 0#32)) 0#32) = 1#1
/-- "this is the last reduction step": the body stores the output tile. -/
abbrev condL0 (i : grid0.Coords) : Prop := k0_cond2 i = 1#1

theorem hcondF0 : ∀ t : Fin cfg0.N, condF0 (grid0.coords t) ↔ t.val % 8 = 0 :=
  (by decide +kernel : ∀ t : Fin grid0.N, condF0 (grid0.coords t) ↔ t.val % 8 = 0)
theorem hcondL0 : ∀ t : Fin cfg0.N, condL0 (grid0.coords t) ↔ t.val % 8 = 7 :=
  (by decide +kernel : ∀ t : Fin grid0.N, condL0 (grid0.coords t) ↔ t.val % 8 = 7)

/-- The three input windows are live at every point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- The output window is idle, and not written back, away from the last reduction step; live at it. -/
theorem idle0_3 : ∀ t : Fin cfg0.N, ¬condL0 (grid0.coords t) → cfg0.idle 3 (grid0.coords t) = true := by decide +kernel
theorem noFlush0_3 : ∀ t : Fin cfg0.N, ¬condL0 (grid0.coords t) → (cfg0.win 3).flush t = false := by decide +kernel
theorem live0_3 : ∀ t : Fin cfg0.N, condL0 (grid0.coords t) → cfg0.idle 3 (grid0.coords t) = false := by decide +kernel

/-- The matmul accumulator and the bias-sum accumulator: whole scoped buffers of the kernel's own. -/
abbrev scA0 : Memref sig .tc .vmem S100x128 .f32 := Memref.whole cc0_scratch0
abbrev scB0 : Memref sig .tc .vmem S100x128 .f32 := Memref.whole cc0_scratch1

/-! ## Layer 2 (8 tiles of 128 output features, the last overhanging by 24; 4 reduction steps of 256) -/

abbrev condF1 (i : grid1.Coords) : Prop := (Scalar.cmpi .ne (Scalar.extui (Scalar.cmpi .eq (BitVec.ofNat 32 (i 1).val) 0#32)) 0#32) = 1#1
abbrev condL1 (i : grid1.Coords) : Prop := k1_cond2 i = 1#1

theorem hcondF1 : ∀ t : Fin cfg1.N, condF1 (grid1.coords t) ↔ t.val % 4 = 0 :=
  (by decide +kernel : ∀ t : Fin grid1.N, condF1 (grid1.coords t) ↔ t.val % 4 = 0)
theorem hcondL1 : ∀ t : Fin cfg1.N, condL1 (grid1.coords t) ↔ t.val % 4 = 3 :=
  (by decide +kernel : ∀ t : Fin grid1.N, condL1 (grid1.coords t) ↔ t.val % 4 = 3)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem idle1_3 : ∀ t : Fin cfg1.N, ¬condL1 (grid1.coords t) → cfg1.idle 3 (grid1.coords t) = true := by decide +kernel
theorem noFlush1_3 : ∀ t : Fin cfg1.N, ¬condL1 (grid1.coords t) → (cfg1.win 3).flush t = false := by decide +kernel
theorem live1_3 : ∀ t : Fin cfg1.N, condL1 (grid1.coords t) → cfg1.idle 3 (grid1.coords t) = false := by decide +kernel

abbrev scA1 : Memref sig .tc .vmem S100x128 .f32 := Memref.whole cc1_scratch0
abbrev scB1 : Memref sig .tc .vmem S100x128 .f32 := Memref.whole cc1_scratch1

/-! ## Whole-buffer accesses -/

theorem hz2 : (![0, 0] : Fin 2 → Nat) = fun _ => 0 := funext fun a => by fin_cases a <;> rfl
theorem hz3 : (![0, 0, 0] : Fin 3 → Nat) = fun _ => 0 := funext fun a => by fin_cases a <;> rfl

/-- One store through the whole rectangle covers the buffer. -/
theorem cover_one (p : Vec F S100x128 .f32) (y : S100x128.Idx) :
    ∃ pc ∈ ([⟨Rect.unit ![0, 0] S100x128.size inb_S100x128_S100x128_0_0, p⟩] : List (View.Piece (Elt F) S100x128 .f32)), y ∈ pc.1.set :=
  ⟨_, List.mem_singleton_self _, View.mem_set_unit_zero hz2 inb_S100x128_S100x128_0_0 y⟩

/-- So does the later of two. -/
theorem cover_two (p q : Vec F S100x128 .f32) (y : S100x128.Idx) :
    ∃ pc ∈ ([⟨Rect.unit ![0, 0] S100x128.size inb_S100x128_S100x128_0_0, p⟩, ⟨Rect.unit ![0, 0] S100x128.size inb_S100x128_S100x128_0_0, q⟩] : List (View.Piece (Elt F) S100x128 .f32)), y ∈ pc.1.set :=
  ⟨_, List.mem_cons_self, View.mem_set_unit_zero hz2 inb_S100x128_S100x128_0_0 y⟩

end Cert.KernelIdeal.Hand

end
-- ==== Proof.KI.Kern0.lean ====
/-
  The first layer's kernel body run once on whole buffers, in each of the three cases a grid point can be in.
  Write a, s for what the two accumulators hold when the body starts and x, w, b for the three input blocks; every
  load and store is of a whole buffer. At reduction step 0 the accumulators are first zeroed, so they end at
  (0 + x·w, 0 + Σ b); at a middle step at (a + x·w, s + Σ b); at the last step the same, and the output tile is
  stored as the scaled (and clamped) sum of the two. The output buffer is untouched before the last step.
  The arithmetic stays folded in the body's named payloads; every statement holds for any float instance.
-/
import proofs.«122316_j6519760355912_1_alg».proof.Proof.KI.Cond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- A middle reduction step: both accumulators updated, the output buffer untouched. -/
theorem kern0_mid (c : Dev nD) (E : Set ℕ) (i : grid0.Coords)
    (arg2 : Memref sig .tc .vmem S100x256 .f32) (harg2 : arg2.IsWhole) (arg3 : Memref sig .tc .vmem S256x128 .f32) (harg3 : arg3.IsWhole)
    (arg4 : Memref sig .tc .vmem S100x256x128 .f32) (harg4 : arg4.IsWhole) (arg5 : Memref sig .tc .vmem S100x128 .f32) (harg5 : arg5.IsWhole)
    (arg6 : Memref sig .tc .vmem S100x128 .f32) (harg6 : arg6.IsWhole) (arg7 : Memref sig .tc .vmem S100x128 .f32) (harg7 : arg7.IsWhole)
    (hF : ¬condF0 i) (hL : ¬condL0 i)
    (x : Vec F S100x256 .f32) (w : Vec F S256x128 .f32) (b : Vec F S100x256x128 .f32) (o : Vec F S100x128 .f32)
    (a s : Vec F S100x128 .f32) (K : PUnit → sProp 𝕄) :
    iprop(owns (c : Thread nD τ) arg2 fullShare x ∗ owns (c : Thread nD τ) arg3 fullShare w ∗ owns (c : Thread nD τ) arg4 fullShare b
        ∗ owns (c : Thread nD τ) arg5 fullShare o ∗ owns (c : Thread nD τ) arg6 fullShare a ∗ owns (c : Thread nD τ) arg7 fullShare s
        ∗ (iprop(owns (c : Thread nD τ) arg2 fullShare x ∗ owns (c : Thread nD τ) arg3 fullShare w ∗ owns (c : Thread nD τ) arg4 fullShare b
            ∗ owns (c : Thread nD τ) arg5 fullShare o ∗ owns (c : Thread nD τ) arg6 fullShare (k0_pay3 x w a) ∗ owns (c : Thread nD τ) arg7 fullShare (k0_pay4 s b)) -∗ K ⟨⟩))
      ⊢ wp frame (wpE (defs₀ (F := F)) Variants.none c none) E (cc0__fused_linear_kernel i arg2 harg2 arg3 harg3 arg4 harg4 arg5 harg5 arg6 harg6 arg7 harg7) K := by
  simp only [cc0__fused_linear_kernel_eq_skeleton]; unfold cc0__fused_linear_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hF | exact hL)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    try sl_unfold_words
    rw [View.read_writes_eq_canon _ _ _ (cover_one _), View.canon_unit_zero hz2]
    simp only [View.readAt_eq_ld, harg2.read_unread, harg3.read_unread, harg6.read_unread,
      View.ld_unit_zero (S := S100x256) hz2, View.ld_unit_zero (S := S256x128) hz2, View.ld_unit_zero (S := S100x128) hz2]
  · iexists _; isplitr
    swap; · iexact H7
    ipureintro
    try sl_unfold_words
    rw [View.read_writes_eq_canon _ _ _ (cover_one _), View.canon_unit_zero hz2]
    simp only [View.readAt_eq_ld, harg4.read_unread, harg7.read_unread,
      View.ld_unit_zero (S := S100x256x128) hz3, View.ld_unit_zero (S := S100x128) hz2]

set_option maxHeartbeats 1600000 in
/-- Reduction step 0: both accumulators zeroed, then updated; the output buffer untouched. -/
theorem kern0_first (c : Dev nD) (E : Set ℕ) (i : grid0.Coords)
    (arg2 : Memref sig .tc .vmem S100x256 .f32) (harg2 : arg2.IsWhole) (arg3 : Memref sig .tc .vmem S256x128 .f32) (harg3 : arg3.IsWhole)
    (arg4 : Memref sig .tc .vmem S100x256x128 .f32) (harg4 : arg4.IsWhole) (arg5 : Memref sig .tc .vmem S100x128 .f32) (harg5 : arg5.IsWhole)
    (arg6 : Memref sig .tc .vmem S100x128 .f32) (harg6 : arg6.IsWhole) (arg7 : Memref sig .tc .vmem S100x128 .f32) (harg7 : arg7.IsWhole)
    (hF : condF0 i) (hL : ¬condL0 i)
    (x : Vec F S100x256 .f32) (w : Vec F S256x128 .f32) (b : Vec F S100x256x128 .f32) (o : Vec F S100x128 .f32)
    (a s : Vec F S100x128 .f32) (K : PUnit → sProp 𝕄) :
    iprop(owns (c : Thread nD τ) arg2 fullShare x ∗ owns (c : Thread nD τ) arg3 fullShare w ∗ owns (c : Thread nD τ) arg4 fullShare b
        ∗ owns (c : Thread nD τ) arg5 fullShare o ∗ owns (c : Thread nD τ) arg6 fullShare a ∗ owns (c : Thread nD τ) arg7 fullShare s
        ∗ (iprop(owns (c : Thread nD τ) arg2 fullShare x ∗ owns (c : Thread nD τ) arg3 fullShare w ∗ owns (c : Thread nD τ) arg4 fullShare b
            ∗ owns (c : Thread nD τ) arg5 fullShare o ∗ owns (c : Thread nD τ) arg6 fullShare (k0_pay3 x w k0_pay1) ∗ owns (c : Thread nD τ) arg7 fullShare (k0_pay4 k0_pay2 b)) -∗ K ⟨⟩))
      ⊢ wp frame (wpE (defs₀ (F := F)) Variants.none c none) E (cc0__fused_linear_kernel i arg2 harg2 arg3 harg3 arg4 harg4 arg5 harg5 arg6 harg6 arg7 harg7) K := by
  simp only [cc0__fused_linear_kernel_eq_skeleton]; unfold cc0__fused_linear_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hF | exact hL)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    try sl_unfold_words
    rw [View.read_writes_eq_canon _ _ _ (cover_two _ _), View.canon_cons_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]
  · iexists _; isplitr
    swap; · iexact H7
    ipureintro
    try sl_unfold_words
    rw [View.read_writes_eq_canon _ _ _ (cover_two _ _), View.canon_cons_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]

set_option maxHeartbeats 1600000 in
/-- The last reduction step: both accumulators updated, then the output tile stored from them. -/
theorem kern0_last (c : Dev nD) (E : Set ℕ) (i : grid0.Coords)
    (arg2 : Memref sig .tc .vmem S100x256 .f32) (harg2 : arg2.IsWhole) (arg3 : Memref sig .tc .vmem S256x128 .f32) (harg3 : arg3.IsWhole)
    (arg4 : Memref sig .tc .vmem S100x256x128 .f32) (harg4 : arg4.IsWhole) (arg5 : Memref sig .tc .vmem S100x128 .f32) (harg5 : arg5.IsWhole)
    (arg6 : Memref sig .tc .vmem S100x128 .f32) (harg6 : arg6.IsWhole) (arg7 : Memref sig .tc .vmem S100x128 .f32) (harg7 : arg7.IsWhole)
    (hF : ¬condF0 i) (hL : condL0 i)
    (x : Vec F S100x256 .f32) (w : Vec F S256x128 .f32) (b : Vec F S100x256x128 .f32) (o : Vec F S100x128 .f32)
    (a s : Vec F S100x128 .f32) (K : PUnit → sProp 𝕄) :
    iprop(owns (c : Thread nD τ) arg2 fullShare x ∗ owns (c : Thread nD τ) arg3 fullShare w ∗ owns (c : Thread nD τ) arg4 fullShare b
        ∗ owns (c : Thread nD τ) arg5 fullShare o ∗ owns (c : Thread nD τ) arg6 fullShare a ∗ owns (c : Thread nD τ) arg7 fullShare s
        ∗ (iprop(owns (c : Thread nD τ) arg2 fullShare x ∗ owns (c : Thread nD τ) arg3 fullShare w ∗ owns (c : Thread nD τ) arg4 fullShare b
            ∗ owns (c : Thread nD τ) arg5 fullShare (k0_pay5 (k0_pay3 x w a) (k0_pay4 s b)) ∗ owns (c : Thread nD τ) arg6 fullShare (k0_pay3 x w a) ∗ owns (c : Thread nD τ) arg7 fullShare (k0_pay4 s b)) -∗ K ⟨⟩))
      ⊢ wp frame (wpE (defs₀ (F := F)) Variants.none c none) E (cc0__fused_linear_kernel i arg2 harg2 arg3 harg3 arg4 harg4 arg5 harg5 arg6 harg6 arg7 harg7) K := by
  simp only [cc0__fused_linear_kernel_eq_skeleton]; unfold cc0__fused_linear_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hF | exact hL)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_words
    rw [View.read_writes_eq_canon _ _ _ (cover_one _), View.canon_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]
  isplitl [H6]
  · iexists _; isplitr
    swap; · iexact H6
    ipureintro
    try sl_unfold_words
    rw [View.read_writes_eq_canon _ _ _ (cover_one _), View.canon_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]
  · iexists _; isplitr
    swap; · iexact H7
    ipureintro
    try sl_unfold_words
    rw [View.read_writes_eq_canon _ _ _ (cover_one _), View.canon_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]

end Cert.KernelIdeal.Hand

end
-- ==== Proof.KI.Data0.lean ====
/-
  The first layer's pipeline as proof data, at any float instance, from the buffer contents V the region is
  entered with. Point t = 8 * tile + step reads the blocks x[:, 256 step ..], W1[256 step .., 128 tile ..] and
  b1[:, 256 step .., 128 tile ..]. The two accumulators after point t are given by recursion on t: at step 0 they
  restart from zero, otherwise they continue from what point t - 1 left. The output tile stored at a last step is
  the body's scaled and clamped sum of the two accumulators there. The region's invariant is, before point 0,
  "every scratch buffer at something", and before point t + 1 the two accumulators at what point t left.
-/
import proofs.«122316_j6519760355912_1_alg».proof.Proof.KI.Cond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block whenever the body runs, fetched at that point or not, for any
    proof data over V whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The accumulators, point by point -/

/-- What the matmul accumulator (first) and the bias-sum accumulator (second) hold after the body at point n. -/
def scAt0 (c : Dev nD) : (n : ℕ) → n < cfg0.N → Vec F S100x128 .f32 × Vec F S100x128 .f32
  | 0, hn => (k0_pay3 (iblk0 V c 0 ⟨0, hn⟩) (iblk0 V c 1 ⟨0, hn⟩) k0_pay1, k0_pay4 k0_pay2 (iblk0 V c 2 ⟨0, hn⟩))
  | n + 1, hn =>
    if (n + 1) % 8 = 0 then
      (k0_pay3 (iblk0 V c 0 ⟨n + 1, hn⟩) (iblk0 V c 1 ⟨n + 1, hn⟩) k0_pay1, k0_pay4 k0_pay2 (iblk0 V c 2 ⟨n + 1, hn⟩))
    else
      (k0_pay3 (iblk0 V c 0 ⟨n + 1, hn⟩) (iblk0 V c 1 ⟨n + 1, hn⟩) (scAt0 c n (Nat.lt_of_succ_lt hn)).1,
        k0_pay4 (scAt0 c n (Nat.lt_of_succ_lt hn)).2 (iblk0 V c 2 ⟨n + 1, hn⟩))

/-- At reduction step 0 the accumulators restart from zero. -/
theorem scAt0_first (c : Dev nD) (t : Fin cfg0.N) (h : t.val % 8 = 0) :
    scAt0 V c t.val t.isLt = (k0_pay3 (iblk0 V c 0 t) (iblk0 V c 1 t) k0_pay1, k0_pay4 k0_pay2 (iblk0 V c 2 t)) := by
  obtain ⟨n, hn⟩ := t
  cases n with
  | zero => rfl
  | succ n => exact if_pos h

/-- At a later step they continue from what the point before left. -/
theorem scAt0_next (c : Dev nD) (t : Fin cfg0.N) (h : ¬t.val % 8 = 0) :
    scAt0 V c t.val t.isLt = (k0_pay3 (iblk0 V c 0 t) (iblk0 V c 1 t) (scAt0 V c (t.val - 1) (Nat.lt_of_le_of_lt (Nat.sub_le _ _) t.isLt)).1,
      k0_pay4 (scAt0 V c (t.val - 1) (Nat.lt_of_le_of_lt (Nat.sub_le _ _) t.isLt)).2 (iblk0 V c 2 t)) := by
  obtain ⟨n, hn⟩ := t
  cases n with
  | zero => exact absurd (Nat.zero_mod _) h
  | succ n => exact if_neg h

/-- The output tile the body stores at a last reduction step (at the other points nothing reads this). -/
def out0 (c : Dev nD) (t : Fin cfg0.N) : Vec F S100x128 .f32 :=
  k0_pay5 (scAt0 V c t.val t.isLt).1 (scAt0 V c t.val t.isLt).2

/-! ## The invariant -/

/-- The scoped buffers that are neither a staging buffer of this pipeline nor one of its two accumulators, each at
    something. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- "Every scratch buffer at something, the generator register at some state", with the two accumulators first. -/
theorem PhiA0_eq (c : Dev nD) :
    (Pipeline.ΦA spec0 c : sProp 𝕄)
      = iprop(((∃ d, owns (c : Thread nD τ) scA0 fullShare d) ∗ (∃ d, owns (c : Thread nD τ) scB0 fullShare d) ∗ rest0 c) ∗ (∃ r, prngReg c r)) := by
  unfold Pipeline.ΦA rest0; rw [scopedRest0_eq]; simp only [scA0, scB0, owns_whole]; try rfl

/-- Before point n: at n = 0 the class invariant; afterwards the two accumulators at what point n - 1 left. -/
def Phi0 (c : Dev nD) : (n : ℕ) → n ≤ cfg0.N → sProp 𝕄
  | 0, _ => Pipeline.ΦA spec0 c
  | n + 1, hn => iprop((owns (c : Thread nD τ) scA0 fullShare (scAt0 V c n hn).1 ∗ owns (c : Thread nD τ) scB0 fullShare (scAt0 V c n hn).2 ∗ rest0 c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scA0 fullShare (scAt0 V c n hn).1 ∗ owns (c : Thread nD τ) scB0 fullShare (scAt0 V c n hn).2 ∗ rest0 c) ∗ (∃ r, prngReg c r)) := rfl

theorem Phi0_pos (c : Dev nD) (n : ℕ) (h : n ≤ cfg0.N) (hz : n ≠ 0) :
    Phi0 V c n h = iprop((owns (c : Thread nD τ) scA0 fullShare (scAt0 V c (n - 1) (by omega)).1 ∗ owns (c : Thread nD τ) scB0 fullShare (scAt0 V c (n - 1) (by omega)).2 ∗ rest0 c) ∗ (∃ r, prngReg c r)) := by
  cases n with
  | zero => exact absurd rfl hz
  | succ n => rfl

/-! ## The proof data -/

/-- Pipeline 0's proof data on core c: the arrays as found; after the body each input buffer at its block and the
    output buffer at the tile; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem Phi0_castSucc (c : Dev nD) (t : Fin cfg0.N) :
    (dat0 V c).Φ t.castSucc = Phi0 V c t.val (Nat.le_of_lt t.isLt) := by
  dsimp only [dat0]; simp only [Fin.coe_castSucc]

theorem Phi0_at_succ (c : Dev nD) (t : Fin cfg0.N) :
    (dat0 V c).Φ t.succ = Phi0 V c (t.val + 1) t.isLt := rfl

end Cert.KernelIdeal.Hand

end
-- ==== Proof.KI.Body0.lean ====
/-
  The first layer's kernel body at every grid point, against the pipeline's proof data: whatever point t = 8 * tile
  + step the pipeline calls the body at, the three input buffers hold their blocks, the invariant hands over the two
  accumulators, and the body hands everything back with the accumulators advanced by one reduction step. Three
  cases, as the body has: step 0 (the accumulators restart from zero, whatever they held), a middle step (they
  continue from what the point before left), the last step (they continue, and the output tile is stored). Away
  from the last step the output buffer is idle: it is handed back holding what it held. Also the two ends of the
  region: what it is entered with is the invariant before point 0, and the invariant after the last point gives
  that back with the accumulators' contents forgotten.
-/
import proofs.«122316_j6519760355912_1_alg».proof.Proof.KI.Kern0
import proofs.«122316_j6519760355912_1_alg».proof.Proof.KI.Data0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two ends -/

/-- Before any point the invariant holds both accumulators at something: at point 0 by what the region is
    entered with; later their named contents are forgotten. -/
theorem Phi0_open (c : Dev nD) (n : ℕ) (h : n ≤ cfg0.N) :
    Phi0 V c n h ⊢ iprop(((∃ d, owns (c : Thread nD τ) scA0 fullShare d) ∗ (∃ d, owns (c : Thread nD τ) scB0 fullShare d) ∗ rest0 c) ∗ (∃ r, prngReg c r)) := by
  by_cases hz : n = 0
  · rw [Phi0_zero V c n h hz, PhiA0_eq]
  · rw [Phi0_pos V c n h hz]
    iintro ⟨⟨HA, HB, Hr⟩, Hg⟩
    isplitr [Hg]
    · isplitl [HA]
      · iexists _; iexact HA
      isplitl [HB]
      · iexists _; iexact HB
      iexact Hr
    iexact Hg

/-! ## The body at a point -/

/-- What the body is called with at point t: the invariant, nothing owed, each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- An input window is live everywhere: the body leaves its buffer at the block it found there. -/
theorem leaves0_0 (c : Dev nD) (t : Fin cfg0.N) :
    (dat0 V c).leavesExact 0 t = owns (c : Thread nD τ) (st0_0 t) fullShare (iblk0 V c 0 t) := by
  unfold Dat.leavesExact; rw [live0_0 t, after0_0]
theorem leaves0_1 (c : Dev nD) (t : Fin cfg0.N) :
    (dat0 V c).leavesExact 1 t = owns (c : Thread nD τ) (st0_1 t) fullShare (iblk0 V c 1 t) := by
  unfold Dat.leavesExact; rw [live0_1 t, after0_1]
theorem leaves0_2 (c : Dev nD) (t : Fin cfg0.N) :
    (dat0 V c).leavesExact 2 t = owns (c : Thread nD τ) (st0_2 t) fullShare (iblk0 V c 2 t) := by
  unfold Dat.leavesExact; rw [live0_2 t, after0_2]
/-- The output window is live at a last reduction step: its buffer is left at the tile stored there. -/
theorem leaves0_3 (c : Dev nD) (t : Fin cfg0.N) (hL : condL0 (grid0.coords t)) :
    (dat0 V c).leavesExact 3 t = owns (c : Thread nD τ) (st0_3 t) fullShare (out0 V c t) := by
  unfold Dat.leavesExact; rw [live0_3 t hL, after0_3]

set_option maxHeartbeats 4800000 in
/-- The body at any point. The input buffers hold their blocks; which of the three cases the point is in is read
    off t mod 8. At step 0 the accumulators are taken at whatever they hold (the body zeroes them first); at a later
    step at what the point before left. Each case's run of the body gives them back advanced by this point's
    blocks, which is what the invariant after the point names; the output buffer comes back as it was found, or,
    at the last step, at the tile computed from the two accumulators. Nothing is owed before or after. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [Phi0_castSucc, Phi0_at_succ, Phi0_succ, leaves0_0, leaves0_1, leaves0_2]
  have hN : t.val < 64 := lt_of_lt_of_eq t.isLt (show cfg0.N = 64 from N_0)
  by_cases h0 : t.val % 8 = 0
  · -- reduction step 0
    have hF : condF0 (grid0.coords t) := (hcondF0 t).mpr h0
    have hL : ¬condL0 (grid0.coords t) := fun h => by have := (hcondL0 t).mp h; omega
    rw [Dat.leavesExact_idle (dat0 V c) 3 t (idle0_3 t hL) (noFlush0_3 t hL), scAt0_first V c t h0]
    dsimp only
    iintro ⟨HΦ, Ho, ⟨%d0, H0⟩, ⟨%d1, H1⟩, ⟨%d2, H2⟩, ⟨%d3, H3⟩⟩
    ihave ⟨⟨⟨%a, HA⟩, ⟨%s, HB⟩, Hr⟩, Hg⟩ := (Phi0_open V c _ _) $$ HΦ
    iapply (kern0_first c Set.univ (grid0.coords t) _ _ _ _ _ _ _ _ _ _ _ _ hF hL (iblk0 V c 0 t) (iblk0 V c 1 t) (iblk0 V c 2 t) ((dat0 V c).before 3 t d3) a s _)
    iframe H0 H1 H2 H3 HA HB
    iintro ⟨H0, H1, H2, H3, HA, HB⟩
    iframe HA HB Hr Hg Ho H0 H1 H2
    iexists d3; iexact H3
  · have hF : ¬condF0 (grid0.coords t) := fun h => h0 ((hcondF0 t).mp h)
    have hz : t.val ≠ 0 := fun h => h0 (by rw [h])
    rw [Phi0_pos V c _ _ hz, scAt0_next V c t h0]
    dsimp only
    by_cases h7 : t.val % 8 = 7
    · -- the last reduction step
      have hL : condL0 (grid0.coords t) := (hcondL0 t).mpr h7
      rw [leaves0_3 V c t hL]
      unfold out0
      rw [scAt0_next V c t h0]
      dsimp only
      iintro ⟨⟨⟨HA, HB, Hr⟩, Hg⟩, Ho, ⟨%d0, H0⟩, ⟨%d1, H1⟩, ⟨%d2, H2⟩, ⟨%d3, H3⟩⟩
      iapply (kern0_last c Set.univ (grid0.coords t) _ _ _ _ _ _ _ _ _ _ _ _ hF hL (iblk0 V c 0 t) (iblk0 V c 1 t) (iblk0 V c 2 t) ((dat0 V c).before 3 t d3) _ _ _)
      iframe H0 H1 H2 H3 HA HB
      iintro ⟨H0, H1, H2, H3, HA, HB⟩
      iframe HA HB Hr Hg Ho H0 H1 H2
      iexact H3
    · -- a middle step
      have hL : ¬condL0 (grid0.coords t) := fun h => h7 ((hcondL0 t).mp h)
      rw [Dat.leavesExact_idle (dat0 V c) 3 t (idle0_3 t hL) (noFlush0_3 t hL)]
      iintro ⟨⟨⟨HA, HB, Hr⟩, Hg⟩, Ho, ⟨%d0, H0⟩, ⟨%d1, H1⟩, ⟨%d2, H2⟩, ⟨%d3, H3⟩⟩
      iapply (kern0_mid c Set.univ (grid0.coords t) _ _ _ _ _ _ _ _ _ _ _ _ hF hL (iblk0 V c 0 t) (iblk0 V c 1 t) (iblk0 V c 2 t) ((dat0 V c).before 3 t d3) _ _ _)
      iframe H0 H1 H2 H3 HA HB
      iintro ⟨H0, H1, H2, H3, HA, HB⟩
      iframe HA HB Hr Hg Ho H0 H1 H2
      iexists d3; iexact H3

/-- The pipeline's body obligation at every point: the windows written out one by one. -/
theorem body_obligation0 (c : Dev nD) : BodyObligation (dat0 (F := F) V c) (defs₀ (F := F)) Variants.none () Set.univ := fun t => by
  rw [bigSep_W0, bigSep_W0]
  exact sound_body0 V c t

/-- what the region is handed is the invariant before the first point -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- after the last point the invariant gives the class invariant back (the accumulators' contents forgotten) -/
theorem hout0 (c : Dev nD) : (dat0 V c).Φ (Fin.last cfg0.N) ⊢ Pipeline.ΦA spec0 c := by
  rw [PhiA0_eq]
  exact Phi0_open V c (Fin.last cfg0.N).val (Nat.le_of_lt_succ (Fin.last cfg0.N).isLt)

end Cert.KernelIdeal.Hand

end
-- ==== Proof.KI.Kern1.lean ====
/-
  The second layer's kernel body run once on whole buffers, in each of the three cases a grid point can be in.
  Write a, s for what the two accumulators hold when the body starts and x, w, b for the three input blocks; every
  load and store is of a whole buffer. At reduction step 0 the accumulators are first zeroed, so they end at
  (0 + x·w, 0 + Σ b); at a middle step at (a + x·w, s + Σ b); at the last step the same, and the output tile is
  stored as the scaled sum of the two. The output buffer is untouched before the last step.
  The arithmetic stays folded in the body's named payloads; every statement holds for any float instance.
-/
import proofs.«122316_j6519760355912_1_alg».proof.Proof.KI.Cond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- A middle reduction step: both accumulators updated, the output buffer untouched. -/
theorem kern1_mid (c : Dev nD) (E : Set ℕ) (i : grid1.Coords)
    (arg2 : Memref sig .tc .vmem S100x256 .f32) (harg2 : arg2.IsWhole) (arg3 : Memref sig .tc .vmem S256x128 .f32) (harg3 : arg3.IsWhole)
    (arg4 : Memref sig .tc .vmem S100x256x128 .f32) (harg4 : arg4.IsWhole) (arg5 : Memref sig .tc .vmem S100x128 .f32) (harg5 : arg5.IsWhole)
    (arg6 : Memref sig .tc .vmem S100x128 .f32) (harg6 : arg6.IsWhole) (arg7 : Memref sig .tc .vmem S100x128 .f32) (harg7 : arg7.IsWhole)
    (hF : ¬condF1 i) (hL : ¬condL1 i)
    (x : Vec F S100x256 .f32) (w : Vec F S256x128 .f32) (b : Vec F S100x256x128 .f32) (o : Vec F S100x128 .f32)
    (a s : Vec F S100x128 .f32) (K : PUnit → sProp 𝕄) :
    iprop(owns (c : Thread nD τ) arg2 fullShare x ∗ owns (c : Thread nD τ) arg3 fullShare w ∗ owns (c : Thread nD τ) arg4 fullShare b
        ∗ owns (c : Thread nD τ) arg5 fullShare o ∗ owns (c : Thread nD τ) arg6 fullShare a ∗ owns (c : Thread nD τ) arg7 fullShare s
        ∗ (iprop(owns (c : Thread nD τ) arg2 fullShare x ∗ owns (c : Thread nD τ) arg3 fullShare w ∗ owns (c : Thread nD τ) arg4 fullShare b
            ∗ owns (c : Thread nD τ) arg5 fullShare o ∗ owns (c : Thread nD τ) arg6 fullShare (k1_pay3 x w a) ∗ owns (c : Thread nD τ) arg7 fullShare (k1_pay4 s b)) -∗ K ⟨⟩))
      ⊢ wp frame (wpE (defs₀ (F := F)) Variants.none c none) E (cc1__fused_linear_kernel i arg2 harg2 arg3 harg3 arg4 harg4 arg5 harg5 arg6 harg6 arg7 harg7) K := by
  simp only [cc1__fused_linear_kernel_eq_skeleton]; unfold cc1__fused_linear_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hF | exact hL)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    try sl_unfold_words
    rw [View.read_writes_eq_canon _ _ _ (cover_one _), View.canon_unit_zero hz2]
    simp only [View.readAt_eq_ld, harg2.read_unread, harg3.read_unread, harg6.read_unread,
      View.ld_unit_zero (S := S100x256) hz2, View.ld_unit_zero (S := S256x128) hz2, View.ld_unit_zero (S := S100x128) hz2]
  · iexists _; isplitr
    swap; · iexact H7
    ipureintro
    try sl_unfold_words
    rw [View.read_writes_eq_canon _ _ _ (cover_one _), View.canon_unit_zero hz2]
    simp only [View.readAt_eq_ld, harg4.read_unread, harg7.read_unread,
      View.ld_unit_zero (S := S100x256x128) hz3, View.ld_unit_zero (S := S100x128) hz2]

set_option maxHeartbeats 1600000 in
/-- Reduction step 0: both accumulators zeroed, then updated; the output buffer untouched. -/
theorem kern1_first (c : Dev nD) (E : Set ℕ) (i : grid1.Coords)
    (arg2 : Memref sig .tc .vmem S100x256 .f32) (harg2 : arg2.IsWhole) (arg3 : Memref sig .tc .vmem S256x128 .f32) (harg3 : arg3.IsWhole)
    (arg4 : Memref sig .tc .vmem S100x256x128 .f32) (harg4 : arg4.IsWhole) (arg5 : Memref sig .tc .vmem S100x128 .f32) (harg5 : arg5.IsWhole)
    (arg6 : Memref sig .tc .vmem S100x128 .f32) (harg6 : arg6.IsWhole) (arg7 : Memref sig .tc .vmem S100x128 .f32) (harg7 : arg7.IsWhole)
    (hF : condF1 i) (hL : ¬condL1 i)
    (x : Vec F S100x256 .f32) (w : Vec F S256x128 .f32) (b : Vec F S100x256x128 .f32) (o : Vec F S100x128 .f32)
    (a s : Vec F S100x128 .f32) (K : PUnit → sProp 𝕄) :
    iprop(owns (c : Thread nD τ) arg2 fullShare x ∗ owns (c : Thread nD τ) arg3 fullShare w ∗ owns (c : Thread nD τ) arg4 fullShare b
        ∗ owns (c : Thread nD τ) arg5 fullShare o ∗ owns (c : Thread nD τ) arg6 fullShare a ∗ owns (c : Thread nD τ) arg7 fullShare s
        ∗ (iprop(owns (c : Thread nD τ) arg2 fullShare x ∗ owns (c : Thread nD τ) arg3 fullShare w ∗ owns (c : Thread nD τ) arg4 fullShare b
            ∗ owns (c : Thread nD τ) arg5 fullShare o ∗ owns (c : Thread nD τ) arg6 fullShare (k1_pay3 x w k1_pay1) ∗ owns (c : Thread nD τ) arg7 fullShare (k1_pay4 k1_pay2 b)) -∗ K ⟨⟩))
      ⊢ wp frame (wpE (defs₀ (F := F)) Variants.none c none) E (cc1__fused_linear_kernel i arg2 harg2 arg3 harg3 arg4 harg4 arg5 harg5 arg6 harg6 arg7 harg7) K := by
  simp only [cc1__fused_linear_kernel_eq_skeleton]; unfold cc1__fused_linear_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hF | exact hL)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    try sl_unfold_words
    rw [View.read_writes_eq_canon _ _ _ (cover_two _ _), View.canon_cons_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]
  · iexists _; isplitr
    swap; · iexact H7
    ipureintro
    try sl_unfold_words
    rw [View.read_writes_eq_canon _ _ _ (cover_two _ _), View.canon_cons_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]

set_option maxHeartbeats 1600000 in
/-- The last reduction step: both accumulators updated, then the output tile stored from them. -/
theorem kern1_last (c : Dev nD) (E : Set ℕ) (i : grid1.Coords)
    (arg2 : Memref sig .tc .vmem S100x256 .f32) (harg2 : arg2.IsWhole) (arg3 : Memref sig .tc .vmem S256x128 .f32) (harg3 : arg3.IsWhole)
    (arg4 : Memref sig .tc .vmem S100x256x128 .f32) (harg4 : arg4.IsWhole) (arg5 : Memref sig .tc .vmem S100x128 .f32) (harg5 : arg5.IsWhole)
    (arg6 : Memref sig .tc .vmem S100x128 .f32) (harg6 : arg6.IsWhole) (arg7 : Memref sig .tc .vmem S100x128 .f32) (harg7 : arg7.IsWhole)
    (hF : ¬condF1 i) (hL : condL1 i)
    (x : Vec F S100x256 .f32) (w : Vec F S256x128 .f32) (b : Vec F S100x256x128 .f32) (o : Vec F S100x128 .f32)
    (a s : Vec F S100x128 .f32) (K : PUnit → sProp 𝕄) :
    iprop(owns (c : Thread nD τ) arg2 fullShare x ∗ owns (c : Thread nD τ) arg3 fullShare w ∗ owns (c : Thread nD τ) arg4 fullShare b
        ∗ owns (c : Thread nD τ) arg5 fullShare o ∗ owns (c : Thread nD τ) arg6 fullShare a ∗ owns (c : Thread nD τ) arg7 fullShare s
        ∗ (iprop(owns (c : Thread nD τ) arg2 fullShare x ∗ owns (c : Thread nD τ) arg3 fullShare w ∗ owns (c : Thread nD τ) arg4 fullShare b
            ∗ owns (c : Thread nD τ) arg5 fullShare (k1_pay5 (k1_pay3 x w a) (k1_pay4 s b)) ∗ owns (c : Thread nD τ) arg6 fullShare (k1_pay3 x w a) ∗ owns (c : Thread nD τ) arg7 fullShare (k1_pay4 s b)) -∗ K ⟨⟩))
      ⊢ wp frame (wpE (defs₀ (F := F)) Variants.none c none) E (cc1__fused_linear_kernel i arg2 harg2 arg3 harg3 arg4 harg4 arg5 harg5 arg6 harg6 arg7 harg7) K := by
  simp only [cc1__fused_linear_kernel_eq_skeleton]; unfold cc1__fused_linear_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hF | exact hL)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_words
    rw [View.read_writes_eq_canon _ _ _ (cover_one _), View.canon_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]
  isplitl [H6]
  · iexists _; isplitr
    swap; · iexact H6
    ipureintro
    try sl_unfold_words
    rw [View.read_writes_eq_canon _ _ _ (cover_one _), View.canon_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]
  · iexists _; isplitr
    swap; · iexact H7
    ipureintro
    try sl_unfold_words
    rw [View.read_writes_eq_canon _ _ _ (cover_one _), View.canon_unit_zero hz2]
    simp only [View.readAt_eq_ld, harg2.read_unread, harg3.read_unread, harg4.read_unread, harg6.read_unread, harg7.read_unread,
      View.readCov_unit_zero (S := S100x128) _ hz2, View.readCov_eq_canon', View.canon_cons_unit_zero (S := S100x128) hz2, View.canon_unit_zero (S := S100x128) hz2,
      View.ld_unit_zero (S := S100x256) hz2, View.ld_unit_zero (S := S256x128) hz2, View.ld_unit_zero (S := S100x128) hz2, View.ld_unit_zero (S := S100x256x128) hz3]

end Cert.KernelIdeal.Hand

end
-- ==== Proof.Spec.lean ====
/-
  What both programs compute, as functions of the argument arrays, index by index, on the extended reals.
  The hidden layer: h[i, j] = max(0, (Σ_k x[i, k] · W1[k, j] + Σ_k b1[i, k, j]) · 2⁻¹¹), k over the 2048 input features.
  The output: out[i, j] = (Σ_k h[i, k] · W2[k, j] + Σ_k b2[i, k, j]) · 2⁻¹⁰, k over the 1024 hidden features.
  Each sum of products is a row of x (or h) against a column of the weight; the second sum is the mean of the
  per-sample bias over its contracted axis before the common scale 1/2048 (or 1/1024) is applied to both.
-/
import Idealize.ShloMosaic.PureOps.Ideal
import Idealize.ShloMosaic.Lib.ValueIdx

noncomputable section

namespace Cert.Spec

open Idealize.ShloMosaic

abbrev SX : Shape := ⟨2, ![100, 2048]⟩
abbrev SW1 : Shape := ⟨2, ![2048, 1024]⟩
abbrev SB1 : Shape := ⟨3, ![100, 2048, 1024]⟩
abbrev SH : Shape := ⟨2, ![100, 1024]⟩
abbrev SW2 : Shape := ⟨2, ![1024, 1000]⟩
abbrev SB2 : Shape := ⟨3, ![100, 1024, 1000]⟩
abbrev SO : Shape := ⟨2, ![100, 1000]⟩

/-- The two scales: 1/2048 and 1/1024. -/
def c1 : EReal := ((1 / 2048 : ℝ) : EReal)
def c2 : EReal := ((1 / 1024 : ℝ) : EReal)

/-! ## Indices: row i₀ of the left operand at k, column i₁ of the right operand at k -/

abbrev xIdx (i : SH.Idx) (k : Fin 2048) : SX.Idx := fun a => match a with
  | ⟨0, _⟩ => ⟨(i 0).val, (i 0).isLt⟩
  | ⟨1, _⟩ => ⟨k.val, k.isLt⟩
abbrev w1Idx (i : SH.Idx) (k : Fin 2048) : SW1.Idx := fun a => match a with
  | ⟨0, _⟩ => ⟨k.val, k.isLt⟩
  | ⟨1, _⟩ => ⟨(i 1).val, (i 1).isLt⟩
abbrev b1Idx (i : SH.Idx) (k : Fin 2048) : SB1.Idx := fun a => match a with
  | ⟨0, _⟩ => ⟨(i 0).val, (i 0).isLt⟩
  | ⟨1, _⟩ => ⟨k.val, k.isLt⟩
  | ⟨2, _⟩ => ⟨(i 1).val, (i 1).isLt⟩
abbrev hIdx (i : SO.Idx) (k : Fin 1024) : SH.Idx := fun a => match a with
  | ⟨0, _⟩ => ⟨(i 0).val, (i 0).isLt⟩
  | ⟨1, _⟩ => ⟨k.val, k.isLt⟩
abbrev w2Idx (i : SO.Idx) (k : Fin 1024) : SW2.Idx := fun a => match a with
  | ⟨0, _⟩ => ⟨k.val, k.isLt⟩
  | ⟨1, _⟩ => ⟨(i 1).val, (i 1).isLt⟩
abbrev b2Idx (i : SO.Idx) (k : Fin 1024) : SB2.Idx := fun a => match a with
  | ⟨0, _⟩ => ⟨(i 0).val, (i 0).isLt⟩
  | ⟨1, _⟩ => ⟨k.val, k.isLt⟩
  | ⟨2, _⟩ => ⟨(i 1).val, (i 1).isLt⟩

/-! ## The two layers -/

/-- The hidden layer. -/
def hid (x : SX.Idx → EReal) (W1 : SW1.Idx → EReal) (b1 : SB1.Idx → EReal) : SH.Idx → EReal := fun i =>
  max (((∑ k : Fin 2048, x (xIdx i k) * W1 (w1Idx i k)) + ∑ k : Fin 2048, b1 (b1Idx i k)) * c1) 0

/-- The output layer. -/
def out (h : SH.Idx → EReal) (W2 : SW2.Idx → EReal) (b2 : SB2.Idx → EReal) : SO.Idx → EReal := fun i =>
  ((∑ k : Fin 1024, h (hIdx i k) * W2 (w2Idx i k)) + ∑ k : Fin 1024, b2 (b2Idx i k)) * c2

end Cert.Spec

end
-- ==== Proof.Consts.lean ====
/-
  The float literals the two programs spell, as the extended reals their bit patterns denote: the zero word, the
  kernel's two scales 2⁻¹¹ and 2⁻¹⁰, and the reference's two divisors 2048 and 1024. All are exact dyadics.
-/
import proofs.«122316_j6519760355912_1_alg».proof.Proof.Spec

noncomputable section

namespace Cert.Consts

open Idealize.ShloMosaic

theorem ofBits_zero : Ideal.ofBits .f32 0x00000000#32 = 0 := by
  simp [Ideal.ofBits, Ideal.ieee]

theorem ofBits_inv2048 : Ideal.ofBits .f32 0x3A000000#32 = Cert.Spec.c1 := by
  unfold Cert.Spec.c1
  simp [Ideal.ofBits, Ideal.ieee, -EReal.coe_mul]; norm_num

theorem ofBits_inv1024 : Ideal.ofBits .f32 0x3A800000#32 = Cert.Spec.c2 := by
  unfold Cert.Spec.c2
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

end Cert.Consts

end
-- ==== Proof.KI.Pay.lean ====
/-
  The kernels' stored values at the ideal instance, read at one index. With every change of float format the
  identity and every operation exact, an accumulator update adds one block's partial sum: the matmul update adds
  Σ_k x[p, k] · w[k, q] over the block's 256 contracted entries (row p of the left block against column q of the
  right), the bias update adds Σ_k b[p, k, q]; the two "zero" values are 0; and the output tile is the scaled sum
  of the two accumulators, clamped at zero in the first layer. In particular entry (p, q) of an updated
  accumulator reads the right-hand block w (or b) only in its column q.
-/
import proofs.«122316_j6519760355912_1_alg».proof.Proof.Gen.KernelIdeal.Skeleton
import proofs.«122316_j6519760355912_1_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic

/-! ## Indices into the three blocks from an entry of the tile -/

/-- Row of the left block: [j₀, k]. -/
abbrev rowK (j : S100x128.Idx) (k : Fin 256) : S100x256.Idx := fun a => match a with
  | ⟨0, _⟩ => ⟨(j 0).val, (j 0).isLt⟩
  | ⟨1, _⟩ => ⟨k.val, k.isLt⟩
/-- Column of the right block: [k, j₁]. -/
abbrev colK (j : S100x128.Idx) (k : Fin 256) : S256x128.Idx := fun a => match a with
  | ⟨0, _⟩ => ⟨k.val, k.isLt⟩
  | ⟨1, _⟩ => ⟨(j 1).val, (j 1).isLt⟩
/-- Fibre of the bias block: [j₀, k, j₁]. -/
abbrev fibK (j : S100x128.Idx) (k : Fin 256) : S100x256x128.Idx := fun a => match a with
  | ⟨0, _⟩ => ⟨(j 0).val, (j 0).isLt⟩
  | ⟨1, _⟩ => ⟨k.val, k.isLt⟩
  | ⟨2, _⟩ => ⟨(j 1).val, (j 1).isLt⟩

/-! ## The block product and the lane sum at an entry -/

/-- The left operand's index of the block product keeps the output row on its axis 0 … -/
private theorem lhsIdx_blockDot_0 (i : S100x128.Idx) (q : dot_S100x256_S256x128_S100x128_1_0_0_1_n_n.contr.Idx) :
    (dot_S100x256_S256x128_S100x128_1_0_0_1_n_n.lhsIdx i q 0).val = (i 0).val := by
  unfold DotDims.lhsIdx
  rw [dif_neg (show ¬(0 : Fin S100x256.rank) ∈ dot_S100x256_S256x128_S100x128_1_0_0_1_n_n.lhsBatch by decide), dif_pos (show (0 : Fin S100x256.rank) ∈ dot_S100x256_S256x128_S100x128_1_0_0_1_n_n.lhsNonContracting by decide)]
  rfl
/-- … and carries the contracted coordinate on its axis 1. -/
private theorem lhsIdx_blockDot_1 (i : S100x128.Idx) (q : dot_S100x256_S256x128_S100x128_1_0_0_1_n_n.contr.Idx) :
    (dot_S100x256_S256x128_S100x128_1_0_0_1_n_n.lhsIdx i q 1).val = (q ⟨0, by decide⟩).val :=
  dot_S100x256_S256x128_S100x128_1_0_0_1_n_n.lhsIdx_val_of_single rfl i q
/-- The right operand's index carries the contracted coordinate on its axis 0 … -/
private theorem rhsIdx_blockDot_0 (i : S100x128.Idx) (q : dot_S100x256_S256x128_S100x128_1_0_0_1_n_n.contr.Idx) :
    (dot_S100x256_S256x128_S100x128_1_0_0_1_n_n.rhsIdx i q 0).val = (q ⟨0, by decide⟩).val :=
  dot_S100x256_S256x128_S100x128_1_0_0_1_n_n.rhsIdx_val_of_single rfl i q
/-- … and keeps the output column on its axis 1. -/
private theorem rhsIdx_blockDot_1 (i : S100x128.Idx) (q : dot_S100x256_S256x128_S100x128_1_0_0_1_n_n.contr.Idx) :
    (dot_S100x256_S256x128_S100x128_1_0_0_1_n_n.rhsIdx i q 1).val = (i 1).val := by
  unfold DotDims.rhsIdx
  rw [dif_neg (show ¬(1 : Fin S256x128.rank) ∈ dot_S100x256_S256x128_S100x128_1_0_0_1_n_n.rhsBatch by decide), dif_pos (show (1 : Fin S256x128.rank) ∈ dot_S100x256_S256x128_S100x128_1_0_0_1_n_n.rhsNonContracting by decide)]
  rfl

/-- The block product into a zero accumulator, at entry j: the sum over the 256 contracted positions of the left
    block's row j₀ against the right block's column j₁. -/
private theorem blockDot_zero_apply {φ₁ φ₂ : FTy} (x : FVec Ideal S100x256 φ₁) (w : FVec Ideal S256x128 φ₂) (j : S100x128.Idx) :
    matmul dot_S100x256_S256x128_S100x128_1_0_0_1_n_n none x w (constant (F := Ideal) S100x128 .f32 0x00000000#32) j
      = ∑ k : Fin 256, x (rowK j k) * w (colK j k) := by
  simp only [matmul]
  rw [Ideal.matmul_constant_zero_apply, ← Equiv.sum_comp (ValueIdx.contrEquiv1 dot_S100x256_S256x128_S100x128_1_0_0_1_n_n 256 rfl rfl).symm]
  refine Finset.sum_congr rfl fun k _ => ?_
  have hk := ValueIdx.contrEquiv1_symm_val dot_S100x256_S256x128_S100x128_1_0_0_1_n_n 256 rfl rfl k
  have el : dot_S100x256_S256x128_S100x128_1_0_0_1_n_n.lhsIdx j ((ValueIdx.contrEquiv1 dot_S100x256_S256x128_S100x128_1_0_0_1_n_n 256 rfl rfl).symm k) = rowK j k := funext fun a => Fin.ext (by
    match a with
    | ⟨0, _⟩ => exact lhsIdx_blockDot_0 _ _
    | ⟨1, _⟩ => exact (lhsIdx_blockDot_1 _ _).trans hk)
  have er : dot_S100x256_S256x128_S100x128_1_0_0_1_n_n.rhsIdx j ((ValueIdx.contrEquiv1 dot_S100x256_S256x128_S100x128_1_0_0_1_n_n 256 rfl rfl).symm k) = colK j k := funext fun a => Fin.ext (by
    match a with
    | ⟨0, _⟩ => exact (rhsIdx_blockDot_0 _ _).trans hk
    | ⟨1, _⟩ => exact rhsIdx_blockDot_1 _ _)
  rw [el, er]

/-- The sum over the middle axis of a [100, 256, 128] block, at entry j: the sum of the fibre through (j₀, ·, j₁). -/
private theorem laneSum_apply (b : FVec Ideal S100x256x128 .f32) (h : S100x256x128.Reduces [1] S100x128) (hφ : FKind.Formats .f32)
    (hacc : (0x00000000#32 : BitVec 32) = FKind.add.neutral .f32 hφ) (j : S100x128.Idx) :
    multiReduction (F := Ideal) .add [1] S100x128 b 0x00000000#32 h hφ hacc j = ∑ k : Fin 256, b (fibK j k) := by
  refine (Ideal.multiReduction_add_single b 0x00000000#32 h hφ hacc j).trans ?_
  refine Finset.sum_congr rfl fun k _ => ?_
  exact congrArg b (funext fun a => Fin.ext (by match a with | ⟨0, _⟩ => rfl | ⟨1, _⟩ => rfl | ⟨2, _⟩ => rfl))

/-! ## The first layer's kernel -/

theorem k0_pay1_apply (j : S100x128.Idx) : k0_pay1 (F := Ideal) j = 0 := by
  unfold k0_pay1
  rw [shapeCast_self]
  exact Cert.Consts.ofBits_zero

theorem k0_pay2_apply (j : S100x128.Idx) : k0_pay2 (F := Ideal) j = 0 := by
  unfold k0_pay2
  rw [shapeCast_self]
  exact Cert.Consts.ofBits_zero

theorem k0_pay3_apply (x : Vec Ideal S100x256 .f32) (w : Vec Ideal S256x128 .f32) (a : Vec Ideal S100x128 .f32) (j : S100x128.Idx) :
    k0_pay3 x w a j = a j + ∑ k : Fin 256, x (rowK j k) * w (colK j k) := by
  unfold k0_pay3
  rw [shapeCast_self]
  exact congrArg (a j + ·) (blockDot_zero_apply (truncf .bf16 x _) (truncf .bf16 w _) j)

theorem k0_pay4_apply (s : Vec Ideal S100x128 .f32) (b : Vec Ideal S100x256x128 .f32) (j : S100x128.Idx) :
    k0_pay4 s b j = s j + ∑ k : Fin 256, b (fibK j k) := by
  unfold k0_pay4
  rw [shapeCast_self]
  exact congrArg (s j + ·) (laneSum_apply b _ _ _ j)

theorem k0_pay5_apply (a s : Vec Ideal S100x128 .f32) (j : S100x128.Idx) :
    k0_pay5 a s j = max ((a j + s j) * Cert.Spec.c1) 0 := by
  unfold k0_pay5
  show max ((a j + s j) * Ideal.ofBits .f32 0x3A000000#32) (Ideal.ofBits .f32 0x00000000#32) = _
  rw [Cert.Consts.ofBits_inv2048, Cert.Consts.ofBits_zero]

/-! ## The second layer's kernel -/

theorem k1_pay1_apply (j : S100x128.Idx) : k1_pay1 (F := Ideal) j = 0 := by
  unfold k1_pay1
  rw [shapeCast_self]
  exact Cert.Consts.ofBits_zero

theorem k1_pay2_apply (j : S100x128.Idx) : k1_pay2 (F := Ideal) j = 0 := by
  unfold k1_pay2
  rw [shapeCast_self]
  exact Cert.Consts.ofBits_zero

theorem k1_pay3_apply (x : Vec Ideal S100x256 .f32) (w : Vec Ideal S256x128 .f32) (a : Vec Ideal S100x128 .f32) (j : S100x128.Idx) :
    k1_pay3 x w a j = a j + ∑ k : Fin 256, x (rowK j k) * w (colK j k) := by
  unfold k1_pay3
  rw [shapeCast_self, shapeCast_self]
  exact congrArg (a j + ·) (blockDot_zero_apply (truncf .bf16 x _) (truncf .bf16 w _) j)

theorem k1_pay4_apply (s : Vec Ideal S100x128 .f32) (b : Vec Ideal S100x256x128 .f32) (j : S100x128.Idx) :
    k1_pay4 s b j = s j + ∑ k : Fin 256, b (fibK j k) := by
  unfold k1_pay4
  rw [shapeCast_self]
  exact congrArg (s j + ·) (laneSum_apply b _ _ _ j)

theorem k1_pay5_apply (a s : Vec Ideal S100x128 .f32) (j : S100x128.Idx) :
    k1_pay5 a s j = (a j + s j) * Cert.Spec.c2 := by
  unfold k1_pay5
  show (a j + s j) * Ideal.ofBits .f32 0x3A800000#32 = _
  rw [Cert.Consts.ofBits_inv1024]

end Cert.KernelIdeal.Hand

end
-- ==== Proof.KI.Data1.lean ====
/-
  The second layer's pipeline as proof data at the ideal instance. Point t = 4 * tile + step reads the blocks
  h[:, 256 step ..], W2[256 step .., 128 tile ..] and b2[:, 256 step .., 128 tile ..]; the last tile (tile 7) has
  only 104 of its 128 columns inside the arrays' 1000, and what a fetch leaves in the other 24 columns of the two
  right-hand staging buffers is not determined. Entry (p, q) of an accumulator update reads those blocks only in
  column q, so the accumulators' columns INSIDE the array are determined all the same: they agree with the
  accumulators computed from the blocks filled out with zeros ("canonical"). The invariant says exactly that;
  the stored data are the canonical ones, which is all that is asked of a window cut at the array's end.
-/
import proofs.«122316_j6519760355912_1_alg».proof.Proof.KI.Cond
import proofs.«122316_j6519760355912_1_alg».proof.Proof.KI.Pay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-! ## The blocks -/

/-- Window w's block at point t as a fetch reads it: its part inside the array. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The left block (never cut). -/
def hblk1 (c : Dev nD) (t : Fin cfg1.N) : Vec Ideal S100x256 .f32 := iblk1 V c 0 t
/-- The weight block and the bias block, filled out with zeros past the array's end. -/
def wblk1 (c : Dev nD) (t : Fin cfg1.N) : Vec Ideal S256x128 .f32 := win1_1.fill (grid1.coords t) (fun _ => 0) (iblk1 V c 1 t)
def bblk1 (c : Dev nD) (t : Fin cfg1.N) : Vec Ideal S100x256x128 .f32 := win1_2.fill (grid1.coords t) (fun _ => 0) (iblk1 V c 2 t)

/-! ## Columns inside the array -/

/-- How many of a tile's 128 columns lie inside the array at point n: 104 in the last tile, all elsewhere. -/
def ncol (n : ℕ) : ℕ := if n / 4 = 7 then 104 else 128

theorem ncol_pred (n : ℕ) (h : ¬n % 4 = 0) : ncol (n - 1) = ncol n := by
  unfold ncol; have : (n - 1) / 4 = n / 4 := by omega
  rw [this]

/-- Two tiles agree on the columns inside the array at point n. -/
def Agree (n : ℕ) (a a' : Vec Ideal S100x128 .f32) : Prop := ∀ y : S100x128.Idx, (y 1).val < ncol n → a y = a' y

theorem Agree.refl (n : ℕ) (a : Vec Ideal S100x128 .f32) : Agree n a a := fun _ _ => rfl

/-- The three cut windows cut the same columns, and nothing else. -/
theorem xsize1 : ∀ t : Fin cfg1.N,
    win1_1.xsize (grid1.coords t) 0 = 256 ∧ win1_1.xsize (grid1.coords t) 1 = ncol t.val
    ∧ win1_2.xsize (grid1.coords t) 0 = 100 ∧ win1_2.xsize (grid1.coords t) 1 = 256 ∧ win1_2.xsize (grid1.coords t) 2 = ncol t.val
    ∧ win1_3.xsize (grid1.coords t) 0 = 100 ∧ win1_3.xsize (grid1.coords t) 1 = ncol t.val :=
  (by decide +kernel : ∀ t : Fin grid1.N,
    win1_1.xsize (grid1.coords t) 0 = 256 ∧ win1_1.xsize (grid1.coords t) 1 = ncol t.val
    ∧ win1_2.xsize (grid1.coords t) 0 = 100 ∧ win1_2.xsize (grid1.coords t) 1 = 256 ∧ win1_2.xsize (grid1.coords t) 2 = ncol t.val
    ∧ win1_3.xsize (grid1.coords t) 0 = 100 ∧ win1_3.xsize (grid1.coords t) 1 = ncol t.val)

/-! ## The canonical accumulators, point by point -/

def scC1 (c : Dev nD) : (n : ℕ) → n < cfg1.N → Vec Ideal S100x128 .f32 × Vec Ideal S100x128 .f32
  | 0, hn => (k1_pay3 (hblk1 V c ⟨0, hn⟩) (wblk1 V c ⟨0, hn⟩) (k1_pay1 (F := Ideal)), k1_pay4 (k1_pay2 (F := Ideal)) (bblk1 V c ⟨0, hn⟩))
  | n + 1, hn =>
    if (n + 1) % 4 = 0 then
      (k1_pay3 (hblk1 V c ⟨n + 1, hn⟩) (wblk1 V c ⟨n + 1, hn⟩) (k1_pay1 (F := Ideal)), k1_pay4 (k1_pay2 (F := Ideal)) (bblk1 V c ⟨n + 1, hn⟩))
    else
      (k1_pay3 (hblk1 V c ⟨n + 1, hn⟩) (wblk1 V c ⟨n + 1, hn⟩) (scC1 c n (Nat.lt_of_succ_lt hn)).1,
        k1_pay4 (scC1 c n (Nat.lt_of_succ_lt hn)).2 (bblk1 V c ⟨n + 1, hn⟩))

theorem scC1_first (c : Dev nD) (t : Fin cfg1.N) (h : t.val % 4 = 0) :
    scC1 V c t.val t.isLt = (k1_pay3 (hblk1 V c t) (wblk1 V c t) (k1_pay1 (F := Ideal)), k1_pay4 (k1_pay2 (F := Ideal)) (bblk1 V c t)) := by
  obtain ⟨n, hn⟩ := t
  cases n with
  | zero => rfl
  | succ n => exact if_pos h

theorem scC1_next (c : Dev nD) (t : Fin cfg1.N) (h : ¬t.val % 4 = 0) :
    scC1 V c t.val t.isLt = (k1_pay3 (hblk1 V c t) (wblk1 V c t) (scC1 V c (t.val - 1) (Nat.lt_of_le_of_lt (Nat.sub_le _ _) t.isLt)).1,
      k1_pay4 (scC1 V c (t.val - 1) (Nat.lt_of_le_of_lt (Nat.sub_le _ _) t.isLt)).2 (bblk1 V c t)) := by
  obtain ⟨n, hn⟩ := t
  cases n with
  | zero => exact absurd (Nat.zero_mod _) h
  | succ n => exact if_neg h

/-- The canonical output tile at a last reduction step. -/
def out1 (c : Dev nD) (t : Fin cfg1.N) : Vec Ideal S100x128 .f32 :=
  k1_pay5 (scC1 V c t.val t.isLt).1 (scC1 V c t.val t.isLt).2

/-! ## The invariant -/

/-- The scoped buffers that are neither a staging buffer of this pipeline nor one of its two accumulators. -/
def rest1 (c : Dev nD) : sProp 𝕄 :=
  iprop((∃ f : Buf (Elt Ideal) ((c : Thread nD τ).loc cc0_stg0_0), ((c : Thread nD τ).loc cc0_stg0_0) ↦{fullShare} f) ∗ (∃ f : Buf (Elt Ideal) ((c : Thread nD τ).loc cc0_stg0_1), ((c : Thread nD τ).loc cc0_stg0_1) ↦{fullShare} f) ∗ (∃ f : Buf (Elt Ideal) ((c : Thread nD τ).loc cc0_stg1_0), ((c : Thread nD τ).loc cc0_stg1_0) ↦{fullShare} f) ∗ (∃ f : Buf (Elt Ideal) ((c : Thread nD τ).loc cc0_stg1_1), ((c : Thread nD τ).loc cc0_stg1_1) ↦{fullShare} f) ∗ (∃ f : Buf (Elt Ideal) ((c : Thread nD τ).loc cc0_stg2_0), ((c : Thread nD τ).loc cc0_stg2_0) ↦{fullShare} f) ∗ (∃ f : Buf (Elt Ideal) ((c : Thread nD τ).loc cc0_stg2_1), ((c : Thread nD τ).loc cc0_stg2_1) ↦{fullShare} f) ∗ (∃ f : Buf (Elt Ideal) ((c : Thread nD τ).loc cc0_stg3_0), ((c : Thread nD τ).loc cc0_stg3_0) ↦{fullShare} f) ∗ (∃ f : Buf (Elt Ideal) ((c : Thread nD τ).loc cc0_stg3_1), ((c : Thread nD τ).loc cc0_stg3_1) ↦{fullShare} f) ∗ (∃ f : Buf (Elt Ideal) ((c : Thread nD τ).loc cc0_scratch0), ((c : Thread nD τ).loc cc0_scratch0) ↦{fullShare} f) ∗ (∃ f : Buf (Elt Ideal) ((c : Thread nD τ).loc cc0_scratch1), ((c : Thread nD τ).loc cc0_scratch1) ↦{fullShare} f))

/-- "Every scratch buffer at something, the generator register at some state", with the two accumulators first: -/
theorem PhiA1_open (c : Dev nD) :
    (Pipeline.ΦA spec1 c : sProp 𝕄)
      ⊢ iprop(((∃ d, owns (c : Thread nD τ) scA1 fullShare d) ∗ (∃ d, owns (c : Thread nD τ) scB1 fullShare d) ∗ rest1 c) ∗ (∃ r, prngReg c r)) := by
  unfold Pipeline.ΦA rest1; rw [scopedRest1_eq]; simp only [scA1, scB1, owns_whole]
  iintro ⟨⟨H1, H2, H3, H4, H5, H6, H7, H8, H9, H10, HA, HB⟩, Hp⟩
  isplitr [Hp]
  · isplitl [HA]; · iexact HA
    isplitl [HB]; · iexact HB
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iexact Hp

/-- and back. -/
theorem PhiA1_close (c : Dev nD) :
    iprop(((∃ d, owns (c : Thread nD τ) scA1 fullShare d) ∗ (∃ d, owns (c : Thread nD τ) scB1 fullShare d) ∗ rest1 c) ∗ (∃ r, prngReg c r))
      ⊢ (Pipeline.ΦA spec1 c : sProp 𝕄) := by
  unfold Pipeline.ΦA rest1; rw [scopedRest1_eq]; simp only [scA1, scB1, owns_whole]
  iintro ⟨⟨HA, HB, H1, H2, H3, H4, H5, H6, H7, H8, H9, H10⟩, Hp⟩
  isplitr [Hp]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HA]; · iexact HA
    iexact HB
  · iexact Hp

/-- Before point n: at n = 0 the class invariant; afterwards each accumulator at some contents that agree with the
    canonical accumulator after point n - 1 on that point's columns inside the array. -/
def Phi1 (c : Dev nD) : (n : ℕ) → n ≤ cfg1.N → sProp 𝕄
  | 0, _ => Pipeline.ΦA spec1 c
  | n + 1, hn => iprop(((∃ a, ⌜Agree n a (scC1 V c n hn).1⌝ ∗ owns (c : Thread nD τ) scA1 fullShare a)
      ∗ (∃ s, ⌜Agree n s (scC1 V c n hn).2⌝ ∗ owns (c : Thread nD τ) scB1 fullShare s) ∗ rest1 c) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(((∃ a, ⌜Agree n a (scC1 V c n hn).1⌝ ∗ owns (c : Thread nD τ) scA1 fullShare a)
      ∗ (∃ s, ⌜Agree n s (scC1 V c n hn).2⌝ ∗ owns (c : Thread nD τ) scB1 fullShare s) ∗ rest1 c) ∗ (∃ r, prngReg c r)) := rfl

theorem Phi1_pos (c : Dev nD) (n : ℕ) (h : n ≤ cfg1.N) (hz : n ≠ 0) :
    Phi1 V c n h = iprop(((∃ a, ⌜Agree (n - 1) a (scC1 V c (n - 1) (by omega)).1⌝ ∗ owns (c : Thread nD τ) scA1 fullShare a)
      ∗ (∃ s, ⌜Agree (n - 1) s (scC1 V c (n - 1) (by omega)).2⌝ ∗ owns (c : Thread nD τ) scB1 fullShare s) ∗ rest1 c) ∗ (∃ r, prngReg c r)) := by
  cases n with
  | zero => exact absurd rfl hz
  | succ n => rfl

/-! ## The proof data -/

def dat1 (c : Dev nD) : Dat τ (Elt Ideal) Unit ℕ (UR sig nD τ) ℕ cfg1 c where
  A w := V c (Pipeline.arrRef spec1 w)
  after w t := match w with
    | ⟨0, _⟩ => hblk1 V c t
    | ⟨1, _⟩ => wblk1 V c t
    | ⟨2, _⟩ => bblk1 V c t
    | ⟨3, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = hblk1 V c t := by dsimp only [dat1]
theorem after1_1 (c : Dev nD) (t : Fin cfg1.N) : (dat1 V c).after 1 t = wblk1 V c t := by dsimp only [dat1]
theorem after1_2 (c : Dev nD) (t : Fin cfg1.N) : (dat1 V c).after 2 t = bblk1 V c t := by dsimp only [dat1]
theorem after1_3 (c : Dev nD) (t : Fin cfg1.N) : (dat1 V c).after 3 t = out1 V c t := by dsimp only [dat1]

/-- What the body finds in the three input buffers: each is fetched at every point, so it holds the block on the
    part inside the array and whatever the buffer held, d, elsewhere. -/
theorem before1_0 (c : Dev nD) (t : Fin cfg1.N) (d) : (dat1 V c).before 0 t d = hblk1 V c t := by
  unfold Dat.before; rw [if_pos (fetch1_0 t)]; rfl
theorem before1_1 (c : Dev nD) (t : Fin cfg1.N) (d) :
    (dat1 V c).before 1 t d = win1_1.fill (grid1.coords t) d (iblk1 V c 1 t) := by
  unfold Dat.before; rw [if_pos (fetch1_1 t)]; rfl
theorem before1_2 (c : Dev nD) (t : Fin cfg1.N) (d) :
    (dat1 V c).before 2 t d = win1_2.fill (grid1.coords t) d (iblk1 V c 2 t) := by
  unfold Dat.before; rw [if_pos (fetch1_2 t)]; rfl

theorem Phi1_castSucc (c : Dev nD) (t : Fin cfg1.N) :
    (dat1 V c).Φ t.castSucc = Phi1 V c t.val (Nat.le_of_lt t.isLt) := by
  dsimp only [dat1]; simp only [Fin.coe_castSucc]

theorem Phi1_at_succ (c : Dev nD) (t : Fin cfg1.N) :
    (dat1 V c).Φ t.succ = Phi1 V c (t.val + 1) t.isLt := rfl

end Cert.KernelIdeal.Hand

end
-- ==== Proof.KI.Agree.lean ====
/-
  Column by column. Entry (p, q) of an accumulator update reads the weight block and the bias block only in their
  column q, and the output tile is computed entry by entry; so tiles that agree on the columns inside the array are
  carried to tiles that agree there, whatever the blocks hold in the other columns. And a block's entries in a column
  inside the array do not depend on what the staging buffer held before the fetch.
-/
import proofs.«122316_j6519760355912_1_alg».proof.Proof.KI.Data1

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

/-! ## The payloads respect agreement on the inside columns -/

theorem agree_pay3 (n : ℕ) (x : Vec Ideal S100x256 .f32) (w w' : Vec Ideal S256x128 .f32) (a a' : Vec Ideal S100x128 .f32)
    (hw : ∀ y : S100x128.Idx, (y 1).val < ncol n → ∀ k : Fin 256, w (colK y k) = w' (colK y k)) (ha : Agree n a a') :
    Agree n (k1_pay3 x w a) (k1_pay3 x w' a') := fun y hy => by
  rw [k1_pay3_apply, k1_pay3_apply, ha y hy]
  exact congrArg _ (Finset.sum_congr rfl fun k _ => by rw [hw y hy k])

theorem agree_pay4 (n : ℕ) (s s' : Vec Ideal S100x128 .f32) (b b' : Vec Ideal S100x256x128 .f32)
    (hb : ∀ y : S100x128.Idx, (y 1).val < ncol n → ∀ k : Fin 256, b (fibK y k) = b' (fibK y k)) (hs : Agree n s s') :
    Agree n (k1_pay4 s b) (k1_pay4 s' b') := fun y hy => by
  rw [k1_pay4_apply, k1_pay4_apply, hs y hy]
  exact congrArg _ (Finset.sum_congr rfl fun k _ => hb y hy k)

theorem agree_pay5 (n : ℕ) (a a' s s' : Vec Ideal S100x128 .f32) (ha : Agree n a a') (hs : Agree n s s') :
    Agree n (k1_pay5 a s) (k1_pay5 a' s') := fun y hy => by
  rw [k1_pay5_apply, k1_pay5_apply, ha y hy, hs y hy]

/-! ## The blocks' inside columns do not depend on what the buffer held -/

theorem moved1_1 (t : Fin cfg1.N) (y : S100x128.Idx) (hy : (y 1).val < ncol t.val) (k : Fin 256) :
    win1_1.moved (grid1.coords t) (colK y k) = true := by
  obtain ⟨h0, h1, -⟩ := xsize1 t
  refine (win1_1.moved_iff _ _).mpr fun a => ?_
  match a with
  | ⟨0, _⟩ => exact lt_of_lt_of_eq k.isLt h0.symm
  | ⟨1, _⟩ => exact lt_of_lt_of_eq hy h1.symm

theorem moved1_2 (t : Fin cfg1.N) (y : S100x128.Idx) (hy : (y 1).val < ncol t.val) (k : Fin 256) :
    win1_2.moved (grid1.coords t) (fibK y k) = true := by
  obtain ⟨-, -, h0, h1, h2, -⟩ := xsize1 t
  refine (win1_2.moved_iff _ _).mpr fun a => ?_
  match a with
  | ⟨0, _⟩ => exact lt_of_lt_of_eq (y 0).isLt h0.symm
  | ⟨1, _⟩ => exact lt_of_lt_of_eq k.isLt h1.symm
  | ⟨2, _⟩ => exact lt_of_lt_of_eq hy h2.symm

theorem fill1_1_col (t : Fin cfg1.N) (d d' : win1_1.block.Idx → EReal) (g : (win1_1.xblock (grid1.coords t)).Idx → EReal)
    (y : S100x128.Idx) (hy : (y 1).val < ncol t.val) (k : Fin 256) :
    win1_1.fill (grid1.coords t) d g (colK y k) = win1_1.fill (grid1.coords t) d' g (colK y k) := by
  unfold Window.fill; rw [dif_pos (moved1_1 t y hy k), dif_pos (moved1_1 t y hy k)]

theorem fill1_2_col (t : Fin cfg1.N) (d d' : win1_2.block.Idx → EReal) (g : (win1_2.xblock (grid1.coords t)).Idx → EReal)
    (y : S100x128.Idx) (hy : (y 1).val < ncol t.val) (k : Fin 256) :
    win1_2.fill (grid1.coords t) d g (fibK y k) = win1_2.fill (grid1.coords t) d' g (fibK y k) := by
  unfold Window.fill; rw [dif_pos (moved1_2 t y hy k), dif_pos (moved1_2 t y hy k)]

/-! ## Agreement on the inside columns is equality of what a write-back moves -/

theorem cut_of_agree (t : Fin cfg1.N) (X X' : Vec Ideal S100x128 .f32) (h : Agree t.val X X') :
    win1_3.cut (grid1.coords t) X = win1_3.cut (grid1.coords t) X' := by
  obtain ⟨-, -, -, -, -, -, h1⟩ := xsize1 t
  funext j
  exact h (win1_3.xinj (grid1.coords t) j) (lt_of_lt_of_eq (j 1).isLt h1)

end Cert.KernelIdeal.Hand

end
-- ==== Proof.KI.Body1.lean ====
/-
  The second layer's body obligation at the ideal instance. At each point the three input buffers hold their blocks
  on the part inside the array and anything, d, beyond it; the accumulators arrive agreeing with the canonical ones
  on the inside columns (or, at step 0, at anything: the body zeroes them first). One run of the body advances them
  by this point's blocks; since an entry reads the right-hand blocks only in its own column, the advanced
  accumulators again agree with the canonical ones on the inside columns, whatever d was. At the last step the
  stored tile is computed entry by entry from the two accumulators, so it agrees with the canonical tile on the
  inside columns, which is all that a window cut at the array's end is asked to say.
-/
import proofs.«122316_j6519760355912_1_alg».proof.Proof.KI.Kern1
import proofs.«122316_j6519760355912_1_alg».proof.Proof.KI.Agree

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-! ## The two ends -/

/-- Before any point the invariant holds both accumulators at something. -/
theorem Phi1_open (c : Dev nD) (n : ℕ) (h : n ≤ cfg1.N) :
    Phi1 V c n h ⊢ iprop(((∃ d, owns (c : Thread nD τ) scA1 fullShare d) ∗ (∃ d, owns (c : Thread nD τ) scB1 fullShare d) ∗ rest1 c) ∗ (∃ r, prngReg c r)) := by
  by_cases hz : n = 0
  · rw [Phi1_zero V c n h hz]; exact PhiA1_open c
  · rw [Phi1_pos V c n h hz]
    iintro ⟨⟨⟨%a, -, HA⟩, ⟨%s, -, HB⟩, Hr⟩, Hg⟩
    isplitr [Hg]
    · isplitl [HA]
      · iexists _; iexact HA
      isplitl [HB]
      · iexists _; iexact HB
      iexact Hr
    iexact Hg

/-- Within a tile the inside columns do not change from one point to the next. -/
theorem agree_pred {n : ℕ} (h : ¬n % 4 = 0) {a a' : Vec Ideal S100x128 .f32} (ha : Agree (n - 1) a a') : Agree n a a' := by
  unfold Agree at ha ⊢; rw [ncol_pred n h] at ha; exact ha

/-! ## The body at a point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leaves 0 t
    ∗ (dat1 V c).leaves 1 t
    ∗ (dat1 V c).leaves 2 t
    ∗ (dat1 V c).leaves 3 t)

/-- The left window is never cut and live everywhere: its buffer is left at the block. -/
theorem leaves1_0 (c : Dev nD) (t : Fin cfg1.N) :
    (dat1 V c).leaves 0 t = owns (c : Thread nD τ) (st1_0 t) fullShare (hblk1 V c t) := by
  unfold Dat.leaves; rw [live1_0 t, after1_0]
/-- The two cut input windows: the buffer is left at the block on the part inside the array, anything beyond. -/
theorem leaves1_1 (c : Dev nD) (t : Fin cfg1.N) :
    (dat1 V c).leaves 1 t = iprop(∃ d, owns (c : Thread nD τ) (st1_1 t) fullShare (win1_1.fill (grid1.coords t) d (iblk1 V c 1 t))) := by
  unfold Dat.leaves; rw [live1_1 t, after1_1]
  show iprop(∃ d, owns (c : Thread nD τ) (st1_1 t) fullShare (win1_1.fill (grid1.coords t) d (win1_1.cut (grid1.coords t) (wblk1 V c t)))) = _
  unfold wblk1; rw [win1_1.cut_fill]
theorem leaves1_2 (c : Dev nD) (t : Fin cfg1.N) :
    (dat1 V c).leaves 2 t = iprop(∃ d, owns (c : Thread nD τ) (st1_2 t) fullShare (win1_2.fill (grid1.coords t) d (iblk1 V c 2 t))) := by
  unfold Dat.leaves; rw [live1_2 t, after1_2]
  show iprop(∃ d, owns (c : Thread nD τ) (st1_2 t) fullShare (win1_2.fill (grid1.coords t) d (win1_2.cut (grid1.coords t) (bblk1 V c t)))) = _
  unfold bblk1; rw [win1_2.cut_fill]
/-- The output window at a last reduction step: left at the canonical tile on the part inside the array. -/
theorem leaves1_3 (c : Dev nD) (t : Fin cfg1.N) (hL : condL1 (grid1.coords t)) :
    (dat1 V c).leaves 3 t = iprop(∃ d, owns (c : Thread nD τ) (st1_3 t) fullShare (win1_3.fill (grid1.coords t) d (win1_3.cut (grid1.coords t) (out1 V c t)))) := by
  unfold Dat.leaves; rw [live1_3 t hL, after1_3]

set_option maxHeartbeats 4800000 in
theorem sound_body1 (c : Dev nD) (t : Fin cfg1.N) :
    bodyPre1 V c t ⊢ wp frame (wpE (defs₀ (F := Ideal)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_castSucc, Phi1_at_succ, Phi1_succ, leaves1_0, leaves1_1, leaves1_2]
  have hN : t.val < 32 := lt_of_lt_of_eq t.isLt (show cfg1.N = 32 from N_1)
  by_cases h0 : t.val % 4 = 0
  · -- reduction step 0
    have hF : condF1 (grid1.coords t) := (hcondF1 t).mpr h0
    have hL : ¬condL1 (grid1.coords t) := fun h => by have := (hcondL1 t).mp h; omega
    rw [Dat.leaves_idle (dat1 V c) 3 t (idle1_3 t hL) (noFlush1_3 t hL), scC1_first V c t h0]
    dsimp only
    iintro ⟨HΦ, Ho, ⟨%d0, H0⟩, ⟨%d1, H1⟩, ⟨%d2, H2⟩, ⟨%d3, H3⟩⟩
    ihave ⟨⟨⟨%a, HA⟩, ⟨%s, HB⟩, Hr⟩, Hg⟩ := (Phi1_open V c _ _) $$ HΦ
    have ha' : Agree t.val (k1_pay3 (hblk1 V c t) (win1_1.fill (grid1.coords t) d1 (iblk1 V c 1 t)) (k1_pay1 (F := Ideal))) (k1_pay3 (hblk1 V c t) (wblk1 V c t) (k1_pay1 (F := Ideal))) :=
      agree_pay3 t.val (hblk1 V c t) (win1_1.fill (grid1.coords t) d1 (iblk1 V c 1 t)) (wblk1 V c t) (k1_pay1 (F := Ideal)) (k1_pay1 (F := Ideal))
        (fun y hy k => fill1_1_col t d1 (fun _ => 0) (iblk1 V c 1 t) y hy k) (Agree.refl _ _)
    have hs' : Agree t.val (k1_pay4 (k1_pay2 (F := Ideal)) (win1_2.fill (grid1.coords t) d2 (iblk1 V c 2 t))) (k1_pay4 (k1_pay2 (F := Ideal)) (bblk1 V c t)) :=
      agree_pay4 t.val (k1_pay2 (F := Ideal)) (k1_pay2 (F := Ideal)) (win1_2.fill (grid1.coords t) d2 (iblk1 V c 2 t)) (bblk1 V c t)
        (fun y hy k => fill1_2_col t d2 (fun _ => 0) (iblk1 V c 2 t) y hy k) (Agree.refl _ _)
    iapply (kern1_first c Set.univ (grid1.coords t) _ _ _ _ _ _ _ _ _ _ _ _ hF hL (hblk1 V c t) (win1_1.fill (grid1.coords t) d1 (iblk1 V c 1 t)) (win1_2.fill (grid1.coords t) d2 (iblk1 V c 2 t)) ((dat1 V c).before 3 t d3) a s _)
    iframe H0 H1 H2 H3 HA HB
    iintro ⟨H0, H1, H2, H3, HA, HB⟩
    iframe Hr Hg Ho H0
    isplitl [HA HB]
    · isplitl [HA]
      · iexists (k1_pay3 (hblk1 V c t) (win1_1.fill (grid1.coords t) d1 (iblk1 V c 1 t)) (k1_pay1 (F := Ideal))); isplitr
        · ipureintro; exact ha'
        iexact HA
      · iexists (k1_pay4 (k1_pay2 (F := Ideal)) (win1_2.fill (grid1.coords t) d2 (iblk1 V c 2 t))); isplitr
        · ipureintro; exact hs'
        iexact HB
    isplitl [H1]; · iexists d1; iexact H1
    isplitl [H2]; · iexists d2; iexact H2
    iexists d3; iexact H3
  · have hF : ¬condF1 (grid1.coords t) := fun h => h0 ((hcondF1 t).mp h)
    have hz : t.val ≠ 0 := fun h => h0 (by rw [h])
    rw [Phi1_pos V c _ _ hz, scC1_next V c t h0]
    dsimp only
    by_cases h3 : t.val % 4 = 3
    · -- the last reduction step
      have hL : condL1 (grid1.coords t) := (hcondL1 t).mpr h3
      rw [leaves1_3 V c t hL]
      iintro ⟨⟨⟨⟨%a, %ha, HA⟩, ⟨%s, %hs, HB⟩, Hr⟩, Hg⟩, Ho, ⟨%d0, H0⟩, ⟨%d1, H1⟩, ⟨%d2, H2⟩, ⟨%d3, H3⟩⟩
      have ha' : Agree t.val (k1_pay3 (hblk1 V c t) (win1_1.fill (grid1.coords t) d1 (iblk1 V c 1 t)) a) (k1_pay3 (hblk1 V c t) (wblk1 V c t) (scC1 V c (t.val - 1) (Nat.lt_of_le_of_lt (Nat.sub_le _ _) t.isLt)).1) :=
        agree_pay3 t.val (hblk1 V c t) (win1_1.fill (grid1.coords t) d1 (iblk1 V c 1 t)) (wblk1 V c t) a (scC1 V c (t.val - 1) (Nat.lt_of_le_of_lt (Nat.sub_le _ _) t.isLt)).1
          (fun y hy k => fill1_1_col t d1 (fun _ => 0) (iblk1 V c 1 t) y hy k) (agree_pred h0 ha)
      have hs' : Agree t.val (k1_pay4 s (win1_2.fill (grid1.coords t) d2 (iblk1 V c 2 t))) (k1_pay4 (scC1 V c (t.val - 1) (Nat.lt_of_le_of_lt (Nat.sub_le _ _) t.isLt)).2 (bblk1 V c t)) :=
        agree_pay4 t.val s (scC1 V c (t.val - 1) (Nat.lt_of_le_of_lt (Nat.sub_le _ _) t.isLt)).2 (win1_2.fill (grid1.coords t) d2 (iblk1 V c 2 t)) (bblk1 V c t)
          (fun y hy k => fill1_2_col t d2 (fun _ => 0) (iblk1 V c 2 t) y hy k) (agree_pred h0 hs)
      iapply (kern1_last c Set.univ (grid1.coords t) _ _ _ _ _ _ _ _ _ _ _ _ hF hL (hblk1 V c t) (win1_1.fill (grid1.coords t) d1 (iblk1 V c 1 t)) (win1_2.fill (grid1.coords t) d2 (iblk1 V c 2 t)) ((dat1 V c).before 3 t d3) a s _)
      iframe H0 H1 H2 H3 HA HB
      iintro ⟨H0, H1, H2, H3, HA, HB⟩
      iframe Hr Hg Ho H0
      isplitl [HA HB]
      · isplitl [HA]
        · iexists (k1_pay3 (hblk1 V c t) (win1_1.fill (grid1.coords t) d1 (iblk1 V c 1 t)) a); isplitr
          · ipureintro; exact ha'
          iexact HA
        · iexists (k1_pay4 s (win1_2.fill (grid1.coords t) d2 (iblk1 V c 2 t))); isplitr
          · ipureintro; exact hs'
          iexact HB
      isplitl [H1]; · iexists d1; iexact H1
      isplitl [H2]; · iexists d2; iexact H2
      iexists (k1_pay5 (k1_pay3 (hblk1 V c t) (win1_1.fill (grid1.coords t) d1 (iblk1 V c 1 t)) a) (k1_pay4 s (win1_2.fill (grid1.coords t) d2 (iblk1 V c 2 t))))
      have hcut := cut_of_agree t _ _ (agree_pay5 t.val _ _ _ _ ha' hs')
      unfold out1
      rw [scC1_next V c t h0]
      dsimp only
      rw [← hcut, win1_3.fill_cut]
      iexact H3
    · -- a middle step
      have hL : ¬condL1 (grid1.coords t) := fun h => h3 ((hcondL1 t).mp h)
      rw [Dat.leaves_idle (dat1 V c) 3 t (idle1_3 t hL) (noFlush1_3 t hL)]
      iintro ⟨⟨⟨⟨%a, %ha, HA⟩, ⟨%s, %hs, HB⟩, Hr⟩, Hg⟩, Ho, ⟨%d0, H0⟩, ⟨%d1, H1⟩, ⟨%d2, H2⟩, ⟨%d3, H3⟩⟩
      have ha' : Agree t.val (k1_pay3 (hblk1 V c t) (win1_1.fill (grid1.coords t) d1 (iblk1 V c 1 t)) a) (k1_pay3 (hblk1 V c t) (wblk1 V c t) (scC1 V c (t.val - 1) (Nat.lt_of_le_of_lt (Nat.sub_le _ _) t.isLt)).1) :=
        agree_pay3 t.val (hblk1 V c t) (win1_1.fill (grid1.coords t) d1 (iblk1 V c 1 t)) (wblk1 V c t) a (scC1 V c (t.val - 1) (Nat.lt_of_le_of_lt (Nat.sub_le _ _) t.isLt)).1
          (fun y hy k => fill1_1_col t d1 (fun _ => 0) (iblk1 V c 1 t) y hy k) (agree_pred h0 ha)
      have hs' : Agree t.val (k1_pay4 s (win1_2.fill (grid1.coords t) d2 (iblk1 V c 2 t))) (k1_pay4 (scC1 V c (t.val - 1) (Nat.lt_of_le_of_lt (Nat.sub_le _ _) t.isLt)).2 (bblk1 V c t)) :=
        agree_pay4 t.val s (scC1 V c (t.val - 1) (Nat.lt_of_le_of_lt (Nat.sub_le _ _) t.isLt)).2 (win1_2.fill (grid1.coords t) d2 (iblk1 V c 2 t)) (bblk1 V c t)
          (fun y hy k => fill1_2_col t d2 (fun _ => 0) (iblk1 V c 2 t) y hy k) (agree_pred h0 hs)
      iapply (kern1_mid c Set.univ (grid1.coords t) _ _ _ _ _ _ _ _ _ _ _ _ hF hL (hblk1 V c t) (win1_1.fill (grid1.coords t) d1 (iblk1 V c 1 t)) (win1_2.fill (grid1.coords t) d2 (iblk1 V c 2 t)) ((dat1 V c).before 3 t d3) a s _)
      iframe H0 H1 H2 H3 HA HB
      iintro ⟨H0, H1, H2, H3, HA, HB⟩
      iframe Hr Hg Ho H0
      isplitl [HA HB]
      · isplitl [HA]
        · iexists (k1_pay3 (hblk1 V c t) (win1_1.fill (grid1.coords t) d1 (iblk1 V c 1 t)) a); isplitr
          · ipureintro; exact ha'
          iexact HA
        · iexists (k1_pay4 s (win1_2.fill (grid1.coords t) d2 (iblk1 V c 2 t))); isplitr
          · ipureintro; exact hs'
          iexact HB
      isplitl [H1]; · iexists d1; iexact H1
      isplitl [H2]; · iexists d2; iexact H2
      iexists d3; iexact H3

/-- The pipeline's body obligation at every point, in the form for windows cut at the array's end. -/
theorem body_obligation1 (c : Dev nD) : BodyObligationLoose (dat1 V c) (defs₀ (F := Ideal)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the class invariant back. -/
theorem hout1 (c : Dev nD) : (dat1 V c).Φ (Fin.last cfg1.N) ⊢ Pipeline.ΦA spec1 c :=
  (Phi1_open V c (Fin.last cfg1.N).val (Nat.le_of_lt_succ (Fin.last cfg1.N).isLt)).trans (PhiA1_close c)

end Cert.KernelIdeal.Hand

end
-- ==== Proof.KI.Run.lean ====
/-
  The launch of the whole program. @main is two kernel regions and nothing else: the first layer's pipeline reads the
  arrays main_arg0, main_arg1, main_arg2 and writes main_v0; the second layer's pipeline reads main_v0, main_arg3,
  main_arg4 and writes main_v1. From the launch memory m the contents of the core's unscoped buffers are followed
  through the two regions: at launch they are m's; when the second region is entered they are m's except at the first
  region's arrays, which hold what its pipeline leaves (the inputs untouched, the output with every write-back folded
  in); at the end they are those except at the second region's arrays, likewise. Each region is entered from "every
  unscoped buffer at the current contents, the generator register at some state, nothing owed" and leaves the same at
  the next contents. Given, per region, the body's obligation at every point and the two entailments between the class
  invariant (every scratch buffer at something, the generator register at some state) and the region's own invariant at
  its first and last point, every weakly fair execution of @main terminates and the final memory holds in main_v1 what
  the second pipeline leaves there, and in every argument array what the launch memory held.
-/
import proofs.«122316_j6519760355912_1_alg».proof.Proof.KI.Data0
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the two region entries -/

/-- the launch contents, and the contents when region 1 is entered (region 0's arrays at what its pipeline leaves) -/
abbrev W0 : Dev nD → Valuation τ sig (Elt F) := fun c b => m (c, b)
abbrev V0 : (c : Dev nD) → (b : Ref sig .tc) → Buf (Elt F) ((c : Thread nD τ).loc b) := fun c b => W0 m c b
def W1 (c : Dev nD) : Valuation τ sig (Elt F) :=
  Pipeline.withArrays spec0 c (W0 m c) fun w => (dat0 (V0 m) c).arrAt w cfg0.N
abbrev V1 : (c : Dev nD) → (b : Ref sig .tc) → Buf (Elt F) ((c : Thread nD τ).loc b) := fun c b => W1 m c b

theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

/-- At region 0's exit each of its arrays holds what the pipeline leaves, and every other buffer what it held. -/
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- What is assumed of region 1's proof data, at any entry contents V: its arrays are read off V, held at the full share;
    nothing is owed at any point and no bound is put on the recorded wait pairs at entry; the body's obligation holds at
    every point; and its invariant at the first and the last point is the class invariant, one way each. -/
structure Reg1Facts (d1 : (V : (c : Dev nD) → (b : Ref sig .tc) → Buf (Elt F) ((c : Thread nD τ).loc b)) → (c : Dev nD) → Dat τ (Elt F) Unit ℕ (UR sig nD τ) ℕ cfg1 c) : Prop where
  hA : ∀ V c w, (d1 V c).A w = V c (Pipeline.arrRef spec1 w)
  hq : ∀ V c w, (d1 V c).q w = fullShare
  howed : ∀ V c t, (d1 V c).owed t = 0
  hbody : ∀ V c, Pipeline.BodyObligationLoose (d1 V c) (defs₀ (F := F)) Variants.none () Set.univ
  hin : ∀ V c, Pipeline.ΦA spec1 c ⊢ (d1 V c).Φ 0
  hout : ∀ V c, (d1 V c).Φ (Fin.last cfg1.N) ⊢ Pipeline.ΦA spec1 c
  hrec : ∀ V c, (d1 V c).recorded 0 = Set.univ

/-- Region 1 finds in main_v0 what region 0's pipeline left there, -/
theorem V1_main_v0 (c : Dev nD) : V1 m c main_v0 = (dat0 (V0 m) c).arrAt 3 cfg0.N := W1_arr m c 3
/-- and in its two other operands, which region 0 does not touch, the launch contents. -/
theorem V1_main_arg3 (c : Dev nD) : V1 m c main_arg3 = m ((c : Thread nD τ).loc main_arg3) :=
  W1_of_ne m c main_arg3 (by decide)
theorem V1_main_arg4 (c : Dev nD) : V1 m c main_arg4 = m ((c : Thread nD τ).loc main_arg4) :=
  W1_of_ne m c main_arg4 (by decide)

/-! ## The contents at the end, and the proof data family -/

section Run

variable (d1 : (V : (c : Dev nD) → (b : Ref sig .tc) → Buf (Elt F) ((c : Thread nD τ).loc b)) → (c : Dev nD) → Dat τ (Elt F) Unit ℕ (UR sig nD τ) ℕ cfg1 c)

/-- At region 1's exit: its arrays at what its pipeline leaves, every other buffer as region 1 found it. -/
def W2 (c : Dev nD) : Valuation τ sig (Elt F) :=
  Pipeline.withArrays spec1 c (W1 m c) fun w => (d1 (V1 m) c).arrAt w cfg1.N
abbrev V2 : (c : Dev nD) → (b : Ref sig .tc) → Buf (Elt F) ((c : Thread nD τ).loc b) := fun c b => W2 m d1 c b

theorem W2_arr (c : Dev nD) (w : Fin cfg1.W) :
    W2 m d1 c (Proc.devRef .tc (Pipeline.arrRef spec1 w)) = (d1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m d1 c (Proc.devRef .tc b) = W1 m c (Proc.devRef .tc b) := by
  unfold W2; exact Pipeline.withArrays_of_ne spec1 c _ _ b hb

theorem hF1 (c : Dev nD) (w : Fin cfg1.W) : (d1 (V1 m) c).arrAt w cfg1.N = V2 m d1 c (Pipeline.arrRef spec1 w) :=
  (W2_arr m d1 c w).symm
theorem hrest1 (c : Dev nD) : ∀ b, b ∉ Finset.univ.image (Pipeline.arrRef spec1) → V2 m d1 c b = V1 m c b :=
  fun b hb => W2_of_ne m d1 c b fun w e => hb (Finset.mem_image.mpr ⟨w, Finset.mem_univ _, e⟩)

/-! ### What the last contents are, buffer by buffer: the result, and each argument walked back to the launch memory
    (a region reads an argument through an input window, whose array is never written, or does not touch it) -/

theorem W2_main_v1 (c : Dev nD) : W2 m d1 c (Proc.devRef .tc main_v1) = (d1 (V1 m) c).arrAt 3 cfg1.N := W2_arr m d1 c 3

theorem W2_main_arg0 (c : Dev nD) : W2 m d1 c (Proc.devRef .tc main_arg0) = m ((c : Thread nD τ).loc main_arg0) :=
  calc W2 m d1 c (Proc.devRef .tc main_arg0)
    _ = W1 m c (Proc.devRef .tc main_arg0) := W2_of_ne m d1 c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W2_main_arg1 (c : Dev nD) : W2 m d1 c (Proc.devRef .tc main_arg1) = m ((c : Thread nD τ).loc main_arg1) :=
  calc W2 m d1 c (Proc.devRef .tc main_arg1)
    _ = W1 m c (Proc.devRef .tc main_arg1) := W2_of_ne m d1 c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl
theorem W2_main_arg2 (c : Dev nD) : W2 m d1 c (Proc.devRef .tc main_arg2) = m ((c : Thread nD τ).loc main_arg2) :=
  calc W2 m d1 c (Proc.devRef .tc main_arg2)
    _ = W1 m c (Proc.devRef .tc main_arg2) := W2_of_ne m d1 c main_arg2 (by decide)
    _ = W0 m c (Proc.devRef .tc main_arg2) := (W1_arr m c 2).trans (((dat0 (V0 m) c).arrAt_in 2 rfl _).trans (A_eq0 (V0 m) c 2))
    _ = m ((c : Thread nD τ).loc main_arg2) := rfl
theorem W2_main_arg3 (h1 : Reg1Facts d1) (c : Dev nD) : W2 m d1 c (Proc.devRef .tc main_arg3) = m ((c : Thread nD τ).loc main_arg3) :=
  calc W2 m d1 c (Proc.devRef .tc main_arg3)
    _ = V1 m c main_arg3 := (W2_arr m d1 c 1).trans (((d1 (V1 m) c).arrAt_in 1 rfl _).trans (h1.hA (V1 m) c 1))
    _ = m ((c : Thread nD τ).loc main_arg3) := V1_main_arg3 m c
theorem W2_main_arg4 (h1 : Reg1Facts d1) (c : Dev nD) : W2 m d1 c (Proc.devRef .tc main_arg4) = m ((c : Thread nD τ).loc main_arg4) :=
  calc W2 m d1 c (Proc.devRef .tc main_arg4)
    _ = V1 m c main_arg4 := (W2_arr m d1 c 2).trans (((d1 (V1 m) c).arrAt_in 2 rfl _).trans (h1.hA (V1 m) c 2))
    _ = m ((c : Thread nD τ).loc main_arg4) := V1_main_arg4 m c

/-- The prefetched tables' admissible contents: neither pipeline has a table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => d1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the register at some state. -/
abbrev Tₙ (c : Dev nD) : sProp 𝕄 := iprop(StableHlo.held (c : Thread nD τ) (Pipeline.ucRefs τ sig) (W2 m d1 c) ∗ ∃ r, prngReg c r)

/-! ## Small steps both regions take -/

/-- The class invariant from the generator register and the scratch buffers, whatever else is at hand, -/
theorem PhiA_intro {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp
/-- and back into the two. -/
theorem PhiA_elim {gr W : Nat} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-- A core that owes nothing is, at a point where the proof data owes nothing and bounds the recorded pairs by nothing,
    what the pipeline holds of it there, -/
theorem owesAt_intro {cfg : Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound
  rw [h0, hr, Set.univ_union]
  iintro ⟨%W, HO⟩
  iexists W
  isplitr; · ipureintro; exact Set.subset_univ _
  iexact HO
/-- and conversely, forgetting the bound. -/
theorem owesAt_elim {cfg : Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩
  iexists W
  iexact HO

/-! ## The regions as segments -/

-- a library lemma stated over the pinned configuration unifies with the printed one only when unification may unfold
-- plain definitions in a metavariable's type
set_option backward.isDefEq.respectTransparency.types false in
/-- REGION 0 over the thread state: entered from every unscoped buffer at the launch contents, left at the contents
    region 1 is entered from. Its arrays are split out of the unscoped buffers and put back at the exit contents; the
    generator register and the scratch buffers go into the region's invariant through the class invariant and come back
    out of it; nothing is owed; the kernel has no semaphore of its own. -/
def reg0 (hb0 : ∀ V c, BodyObligation (dat0 (F := F) V c) (defs₀ (F := F)) Variants.none () Set.univ)
    (hin0 : ∀ V c, Pipeline.ΦA spec0 c ⊢ (dat0 (F := F) V c).Φ 0)
    (hout0 : ∀ V c, (dat0 (F := F) V c).Φ (Fin.last cfg0.N) ⊢ Pipeline.ΦA spec0 c) :
    Pipeline.RegionSeg (pcfgs (F := F)) adm (pdats m d1) () defs₀ 𝒱₀ L lv 0 where
  win := launch0.win.to₀
  block_pos := launch0.block_pos
  stage_whole := launch0.stage_whole
  K := PEmpty
  osem k := k.elim
  ho := Pipeline.OwnSemFacts.none _
  hbody c := (hb0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m d1) launch0.win launch0.arr_whole c
      ((pdats m d1 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats m d1 0 c) 0 rfl rfl); iexact HO
    isplitl [Hp]; · iexact Hp
    iexact Hrest
  hin c := (PhiA_intro spec0 c _).trans (hin0 (V0 m) c)
  hout c := by
    rw [Pipeline.ownSems0_none]
    exact (hout0 (V0 m) c).trans (PhiA_elim spec0 c)
  hexit c := by
    have hjoin := Pipeline.unscopedBufs_of_arrays (p := 0) (pcfgs (F := F)) adm (Ix := Unit) (Name := ℕ) (U := UR sig nD τ) (Lvl := ℕ)
      launch0.win launch0.arr_whole c (pdats m d1) ((pdats m d1 0 c).share_full fun _ => rfl)
      (V0 m c) (V1 m c) ((pdats m d1 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats m d1 0 c) (Fin.last _) rfl); iexact HO

set_option backward.isDefEq.respectTransparency.types false in
/-- REGION 1 over the thread state: entered from every unscoped buffer at what region 0 left, left at the last contents
    (what the launch reads at the end), by the same steps from the facts assumed of its proof data. -/
def reg1 (h1 : Reg1Facts d1) :
    Pipeline.RegionSeg (pcfgs (F := F)) adm (pdats m d1) () defs₀ 𝒱₀ L lv 1 where
  win := launch1.win.to₀
  block_pos := launch1.block_pos
  stage_whole := launch1.stage_whole
  K := PEmpty
  osem k := k.elim
  ho := Pipeline.OwnSemFacts.none _
  hbody c := h1.hbody (V1 m) c
  hwaits := Pipeline.hwaits_of_owed_zero _ _ _ _ L lv 1 fun c t => h1.howed (V1 m) c t
  pre c := iprop(StableHlo.held (c : Thread nD τ) (Pipeline.ucRefs τ sig) (W1 m c) ∗ R c)
  post c := iprop(Tₙ m d1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m d1) launch1.win launch1.arr_whole c
      ((pdats m d1 1 c).share_full fun w => h1.hq (V1 m) c w) (V1 m c) fun w => h1.hA (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats m d1 1 c) 0 (h1.howed (V1 m) c 0) (h1.hrec (V1 m) c)); iexact HO
    isplitl [Hp]; · iexact Hp
    iexact Hrest
  hin c := (PhiA_intro spec1 c _).trans (h1.hin (V1 m) c)
  hout c := by
    rw [Pipeline.ownSems0_none]
    exact (h1.hout (V1 m) c).trans (PhiA_elim spec1 c)
  hexit c := by
    have hjoin := Pipeline.unscopedBufs_of_arrays (p := 1) (pcfgs (F := F)) adm (Ix := Unit) (Name := ℕ) (U := UR sig nD τ) (Lvl := ℕ)
      launch1.win launch1.arr_whole c (pdats m d1) ((pdats m d1 1 c).share_full fun w => h1.hq (V1 m) c w)
      (V1 m c) (V2 m d1 c) ((pdats m d1 1 c).arrAt · cfg1.N) (hF1 m d1 c) (hrest1 m d1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owesAt_elim (pdats m d1 1 c) (Fin.last _) (h1.howed (V1 m) c _)); iexact HO

/-! ## @main as the two segments, and the launch -/

/-- @main IS the run of the two regions in order. -/
theorem main_run (hb0 : ∀ V c, BodyObligation (dat0 (F := F) V c) (defs₀ (F := F)) Variants.none () Set.univ)
    (hin0 : ∀ V c, Pipeline.ΦA spec0 c ⊢ (dat0 (F := F) V c).Φ 0)
    (hout0 : ∀ V c, (dat0 (F := F) V c).Φ (Fin.last cfg0.N) ⊢ Pipeline.ΦA spec0 c)
    (h1 : Reg1Facts d1) (c : Dev nD) :
    main (F := F) c = Pipeline.Seg.run [.region (reg0 m d1 hb0 hin0 hout0), .region (reg1 m d1 h1)] :=
  main_segs adm (pdats m d1) () 𝒱₀ L lv (reg0 m d1 hb0 hin0 hout0) (reg1 m d1 h1) c

end Run

-- the launch theorem's implicit arguments are found by unifying its conclusion with this one, which takes unfolding
-- plain definitions in a metavariable's type
set_option backward.isDefEq.respectTransparency.types false in
/-- THE RUN, with the result's value. From any memory m with zero counters, given each region's body obligation and
    the passage between the class invariant and the region's own at its two ends, every weakly fair execution of @main
    terminates, nothing faulting, and in every final state main_v1 holds what the second pipeline's write-backs leave
    there (from the contents it was entered with: the launch memory's, but main_v0 at what the first pipeline left),
    and every argument array holds what it held at launch. -/
theorem run_value (d1 : (V : (c : Dev nD) → (b : Ref sig .tc) → Buf (Elt F) ((c : Thread nD τ).loc b)) → (c : Dev nD) → Dat τ (Elt F) Unit ℕ (UR sig nD τ) ℕ cfg1 c)
    (h1 : Reg1Facts d1)
    (hb0 : ∀ V c, BodyObligation (dat0 (F := F) V c) (defs₀ (F := F)) Variants.none () Set.univ)
    (hin0 : ∀ V c, Pipeline.ΦA spec0 c ⊢ (dat0 (F := F) V c).Φ 0)
    (hout0 : ∀ V c, (dat0 (F := F) V c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v1) = (d1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m d1) () cellOf_inj emb₁ defs₀ 𝒱₀ L lv m ρ main
    [.region (reg0 m d1 hb0 hin0 hout0), .region (reg1 m d1 h1)]
    (fun c Q => by rw [main_run m d1 hb0 hin0 hout0 h1 c])
    (by simp only [Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m d1)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m d1 c b)
    (hfin := fun c s' => by
      iintro ⟨⟨Hh, -⟩, HSI⟩
      unfold StableHlo.held
      imodintro
      iapply (pointsTo_read_all (Pipeline.ucRefs τ sig) (fun b => (((c : Thread nD τ)).1, b)) (W2 m d1 c) s')
      isplitl [Hh] <;> iassumption)
    (hQ := fun s h c =>
      ⟨(h c _ (mem_uc main_v1 (by decide))).trans (W2_main_v1 m d1 c),
        (h c _ (mem_uc main_arg0 (by decide))).trans (W2_main_arg0 m d1 c),
        (h c _ (mem_uc main_arg1 (by decide))).trans (W2_main_arg1 m d1 c),
        (h c _ (mem_uc main_arg2 (by decide))).trans (W2_main_arg2 m d1 c),
        (h c _ (mem_uc main_arg3 (by decide))).trans (W2_main_arg3 m d1 h1 c),
        (h c _ (mem_uc main_arg4 (by decide))).trans (W2_main_arg4 m d1 h1 c)⟩)

end Cert.KernelIdeal.Hand

end
-- ==== Proof.KI.Value0.lean ====
/-
  The first layer's output array after its pipeline has run, at the ideal instance: the specification's hidden layer.
  Point t = 8 * tile + step reads x[:, 256 step ..], W1[256 step .., 128 tile ..] and b1[:, 256 step .., 128 tile ..].
  Entry (p, q) of the matmul accumulator after that point is the partial sum over the first 256 (step + 1) input
  features of x[p, k] * W1[k, 128 tile + q], and of the bias accumulator the same partial sum of b1[p, k, 128 tile + q]:
  step 0 starts both from zero, every later step adds one block of 256 terms. At step 7 the partial sums are the whole
  sums over the 2048 input features, and the tile written back is the hidden layer restricted to the columns
  128 tile .. 128 tile + 127. The eight tiles written back cover the array.
-/
import proofs.«122316_j6519760355912_1_alg».proof.Proof.KI.Data0
import proofs.«122316_j6519760355912_1_alg».proof.Proof.KI.Pay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

/-! ## The arrays and the blocks, by their literal types -/

abbrev xarr (c : Dev nD) : Vec Ideal S100x2048 .f32 := V c main_arg0
abbrev warr (c : Dev nD) : Vec Ideal S2048x1024 .f32 := V c main_arg1
abbrev barr (c : Dev nD) : Vec Ideal S100x2048x1024 .f32 := V c main_arg2

abbrev xblk (c : Dev nD) (t : Fin cfg0.N) : Vec Ideal S100x256 .f32 := iblk0 V c 0 t
abbrev wblk (c : Dev nD) (t : Fin cfg0.N) : Vec Ideal S256x128 .f32 := iblk0 V c 1 t
abbrev bblk (c : Dev nD) (t : Fin cfg0.N) : Vec Ideal S100x256x128 .f32 := iblk0 V c 2 t

/-! ## The index maps over the grid -/

/-- Point t is (tile, step) = (t / 8, t % 8): x's block index is [0, step], W1's [step, tile], b1's [0, step, tile],
    the output's [0, tile]. -/
theorem idx_facts0 : ∀ t : Fin cfg0.N,
    win0_0.index t (0 : Fin 2) = 0 ∧ win0_0.index t (1 : Fin 2) = t.val % 8
    ∧ win0_1.index t (0 : Fin 2) = t.val % 8 ∧ win0_1.index t (1 : Fin 2) = t.val / 8
    ∧ win0_2.index t (0 : Fin 3) = 0 ∧ win0_2.index t (1 : Fin 3) = t.val % 8 ∧ win0_2.index t (2 : Fin 3) = t.val / 8
    ∧ win0_3.index t (0 : Fin 2) = 0 ∧ win0_3.index t (1 : Fin 2) = t.val / 8 :=
  (by decide +kernel : ∀ t : Fin grid0.N, _)

/-! ## Block reads -/

/-- x's block at point t is x[:, 256 step .. 256 step + 255]. -/
theorem xblk_read (c : Dev nD) (t : Fin cfg0.N) (y : S100x256.Idx) (i : S100x2048.Idx)
    (h0 : (i 0).val = (y 0).val) (h1 : (i 1).val = 256 * (t.val % 8) + (y 1).val) :
    xblk V c t y = xarr V c i := by
  obtain ⟨e0, e1, -⟩ := idx_facts0 t
  show V c main_arg0 (((cfg0.win 0).blk t).view.emb y) = V c main_arg0 i
  refine congrArg (V c main_arg0) ?_
  funext a; apply Fin.ext
  match a with
  | ⟨0, _⟩ => show win0_0.index t (0 : Fin 2) * 100 + 1 * (y 0).val = (i 0).val; omega
  | ⟨1, _⟩ => show win0_0.index t (1 : Fin 2) * 256 + 1 * (y 1).val = (i 1).val; omega

/-- W1's block at point t is W1[256 step .., 128 tile ..]. -/
theorem wblk_read (c : Dev nD) (t : Fin cfg0.N) (y : S256x128.Idx) (i : S2048x1024.Idx)
    (h0 : (i 0).val = 256 * (t.val % 8) + (y 0).val) (h1 : (i 1).val = 128 * (t.val / 8) + (y 1).val) :
    wblk V c t y = warr V c i := by
  obtain ⟨-, -, e0, e1, -⟩ := idx_facts0 t
  show V c main_arg1 (((cfg0.win 1).blk t).view.emb y) = V c main_arg1 i
  refine congrArg (V c main_arg1) ?_
  funext a; apply Fin.ext
  match a with
  | ⟨0, _⟩ => show win0_1.index t (0 : Fin 2) * 256 + 1 * (y 0).val = (i 0).val; omega
  | ⟨1, _⟩ => show win0_1.index t (1 : Fin 2) * 128 + 1 * (y 1).val = (i 1).val; omega

/-- b1's block at point t is b1[:, 256 step .., 128 tile ..]. -/
theorem bblk_read (c : Dev nD) (t : Fin cfg0.N) (y : S100x256x128.Idx) (i : S100x2048x1024.Idx)
    (h0 : (i 0).val = (y 0).val) (h1 : (i 1).val = 256 * (t.val % 8) + (y 1).val)
    (h2 : (i 2).val = 128 * (t.val / 8) + (y 2).val) :
    bblk V c t y = barr V c i := by
  obtain ⟨-, -, -, -, e0, e1, e2, -⟩ := idx_facts0 t
  show V c main_arg2 (((cfg0.win 2).blk t).view.emb y) = V c main_arg2 i
  refine congrArg (V c main_arg2) ?_
  funext a; apply Fin.ext
  match a with
  | ⟨0, _⟩ => show win0_2.index t (0 : Fin 3) * 100 + 1 * (y 0).val = (i 0).val; omega
  | ⟨1, _⟩ => show win0_2.index t (1 : Fin 3) * 256 + 1 * (y 1).val = (i 1).val; omega
  | ⟨2, _⟩ => show win0_2.index t (2 : Fin 3) * 128 + 1 * (y 2).val = (i 2).val; omega

/-! ## The terms of the two sums, indexed by the input feature -/

/-- The matmul's term at input feature m for the output entry i: x[i₀, m] * W1[m, i₁] (zero past the last feature). -/
def mmTerm (c : Dev nD) (i : S100x1024.Idx) (m : ℕ) : EReal :=
  if h : m < 2048 then xarr V c (Cert.Spec.xIdx i ⟨m, h⟩) * warr V c (Cert.Spec.w1Idx i ⟨m, h⟩) else 0

/-- The bias's term at input feature m for the output entry i: b1[i₀, m, i₁] (zero past the last feature). -/
def bsTerm (c : Dev nD) (i : S100x1024.Idx) (m : ℕ) : EReal :=
  if h : m < 2048 then barr V c (Cert.Spec.b1Idx i ⟨m, h⟩) else 0

/-! ## One step of each accumulator -/

/-- The matmul update at point t adds, to entry j of the tile, the 256 terms of the features 256 step .. 256 step + 255
    of the output entry i = (j₀, 128 tile + j₁). -/
theorem mm_step (c : Dev nD) (t : Fin cfg0.N) (a : Vec Ideal S100x128 .f32) (j : S100x128.Idx) (i : S100x1024.Idx)
    (h0 : (i 0).val = (j 0).val) (h1 : (i 1).val = 128 * (t.val / 8) + (j 1).val) :
    k0_pay3 (xblk V c t) (wblk V c t) a j = a j + ∑ m ∈ Finset.range 256, mmTerm V c i (256 * (t.val % 8) + m) := by
  refine (k0_pay3_apply (xblk V c t) (wblk V c t) a j).trans ?_
  refine congrArg (fun z => a j + z) ?_
  rw [Finset.sum_range]
  refine Finset.sum_congr rfl fun k _ => ?_
  have hk : 256 * (t.val % 8) + k.val < 2048 := by have := k.isLt; omega
  unfold mmTerm
  rw [dif_pos hk]
  rw [xblk_read V c t (rowK j k) (Cert.Spec.xIdx i ⟨256 * (t.val % 8) + k.val, hk⟩) h0 rfl,
    wblk_read V c t (colK j k) (Cert.Spec.w1Idx i ⟨256 * (t.val % 8) + k.val, hk⟩) rfl h1]

/-- The bias update at point t adds the 256 bias terms of the same features. -/
theorem bs_step (c : Dev nD) (t : Fin cfg0.N) (s : Vec Ideal S100x128 .f32) (j : S100x128.Idx) (i : S100x1024.Idx)
    (h0 : (i 0).val = (j 0).val) (h1 : (i 1).val = 128 * (t.val / 8) + (j 1).val) :
    k0_pay4 s (bblk V c t) j = s j + ∑ m ∈ Finset.range 256, bsTerm V c i (256 * (t.val % 8) + m) := by
  refine (k0_pay4_apply s (bblk V c t) j).trans ?_
  refine congrArg (fun z => s j + z) ?_
  rw [Finset.sum_range]
  refine Finset.sum_congr rfl fun k _ => ?_
  have hk : 256 * (t.val % 8) + k.val < 2048 := by have := k.isLt; omega
  unfold bsTerm
  rw [dif_pos hk]
  exact bblk_read V c t (fibK j k) (Cert.Spec.b1Idx i ⟨256 * (t.val % 8) + k.val, hk⟩) h0 rfl h1

/-! ## The accumulators after every point -/

/-- A sum over the first 256 (r + 1) features is the sum over the first 256 r and the next block of 256. -/
theorem sum_range_block {M : Type*} [AddCommMonoid M] (T : ℕ → M) (r : ℕ) :
    ∑ m ∈ Finset.range (256 * (r + 1)), T m = ∑ m ∈ Finset.range (256 * r), T m + ∑ m ∈ Finset.range 256, T (256 * r + m) := by
  rw [show 256 * (r + 1) = 256 * r + 256 from Nat.mul_succ 256 r, Finset.sum_range_add]

/-- After point n = 8 * tile + step, entry j of the matmul accumulator is the partial sum of the matmul's terms over
    the first 256 (step + 1) features for the output entry i = (j₀, 128 tile + j₁), and entry j of the bias
    accumulator is the same partial sum of the bias's terms. -/
theorem acc_inv (c : Dev nD) : ∀ (n : ℕ) (hn : n < cfg0.N) (j : S100x128.Idx) (i : S100x1024.Idx),
    (i 0).val = (j 0).val → (i 1).val = 128 * (n / 8) + (j 1).val →
    (scAt0 V c n hn).1 j = ∑ m ∈ Finset.range (256 * (n % 8 + 1)), mmTerm V c i m
    ∧ (scAt0 V c n hn).2 j = ∑ m ∈ Finset.range (256 * (n % 8 + 1)), bsTerm V c i m := by
  intro n
  induction n with
  | zero =>
    intro hn j i h0 h1
    have e : scAt0 V c 0 hn = (k0_pay3 (xblk V c ⟨0, hn⟩) (wblk V c ⟨0, hn⟩) (k0_pay1 (F := Ideal)), k0_pay4 (k0_pay2 (F := Ideal)) (bblk V c ⟨0, hn⟩)) :=
      scAt0_first V c ⟨0, hn⟩ rfl
    rw [e]
    dsimp only
    rw [sum_range_block (mmTerm V c i) (0 % 8), sum_range_block (bsTerm V c i) (0 % 8)]
    constructor
    · refine (mm_step V c ⟨0, hn⟩ (k0_pay1 (F := Ideal)) j i h0 h1).trans ?_
      rw [k0_pay1_apply]
      simp only [Nat.zero_mod, Nat.mul_zero, Finset.range_zero, Finset.sum_empty]
    · refine (bs_step V c ⟨0, hn⟩ (k0_pay2 (F := Ideal)) j i h0 h1).trans ?_
      rw [k0_pay2_apply]
      simp only [Nat.zero_mod, Nat.mul_zero, Finset.range_zero, Finset.sum_empty]
  | succ n ih =>
    intro hn j i h0 h1
    by_cases h : (n + 1) % 8 = 0
    · have e : scAt0 V c (n + 1) hn = (k0_pay3 (xblk V c ⟨n + 1, hn⟩) (wblk V c ⟨n + 1, hn⟩) (k0_pay1 (F := Ideal)), k0_pay4 (k0_pay2 (F := Ideal)) (bblk V c ⟨n + 1, hn⟩)) :=
        scAt0_first V c ⟨n + 1, hn⟩ h
      rw [e]
      dsimp only
      rw [sum_range_block (mmTerm V c i) ((n + 1) % 8), sum_range_block (bsTerm V c i) ((n + 1) % 8)]
      constructor
      · refine (mm_step V c ⟨n + 1, hn⟩ (k0_pay1 (F := Ideal)) j i h0 h1).trans ?_
        rw [k0_pay1_apply]
        simp only [h, Nat.mul_zero, Finset.range_zero, Finset.sum_empty]
      · refine (bs_step V c ⟨n + 1, hn⟩ (k0_pay2 (F := Ideal)) j i h0 h1).trans ?_
        rw [k0_pay2_apply]
        simp only [h, Nat.mul_zero, Finset.range_zero, Finset.sum_empty]
    · have e : scAt0 V c (n + 1) hn = (k0_pay3 (xblk V c ⟨n + 1, hn⟩) (wblk V c ⟨n + 1, hn⟩) (scAt0 V c n (Nat.lt_of_succ_lt hn)).1,
          k0_pay4 (scAt0 V c n (Nat.lt_of_succ_lt hn)).2 (bblk V c ⟨n + 1, hn⟩)) :=
        scAt0_next V c ⟨n + 1, hn⟩ h
      have hdiv : (n + 1) / 8 = n / 8 := by omega
      have hmod : (n + 1) % 8 = n % 8 + 1 := by omega
      obtain ⟨iha, ihb⟩ := ih (Nat.lt_of_succ_lt hn) j i h0 (by rw [h1, hdiv])
      rw [e]
      dsimp only
      rw [sum_range_block (mmTerm V c i) ((n + 1) % 8), sum_range_block (bsTerm V c i) ((n + 1) % 8)]
      constructor
      · refine (mm_step V c ⟨n + 1, hn⟩ (scAt0 V c n (Nat.lt_of_succ_lt hn)).1 j i h0 h1).trans ?_
        rw [iha, hmod]
      · refine (bs_step V c ⟨n + 1, hn⟩ (scAt0 V c n (Nat.lt_of_succ_lt hn)).2 j i h0 h1).trans ?_
        rw [ihb, hmod]

/-! ## The tile written back at a last step -/

/-- At a last reduction step the partial sums are the whole sums, so entry j of the stored tile is the hidden layer
    at i = (j₀, 128 tile + j₁). -/
theorem out0_apply (c : Dev nD) (t : Fin cfg0.N) (hf : t.val % 8 = 7) (j : S100x128.Idx) (i : S100x1024.Idx)
    (h0 : (i 0).val = (j 0).val) (h1 : (i 1).val = 128 * (t.val / 8) + (j 1).val) :
    out0 V c t j = Cert.Spec.hid (xarr V c) (warr V c) (barr V c) i := by
  obtain ⟨ha, hb⟩ := acc_inv V c t.val t.isLt j i h0 h1
  unfold out0
  refine (k0_pay5_apply (scAt0 V c t.val t.isLt).1 (scAt0 V c t.val t.isLt).2 j).trans ?_
  rw [ha, hb, hf]
  unfold Cert.Spec.hid
  have ea : ∑ m ∈ Finset.range (256 * (7 + 1)), mmTerm V c i m
      = ∑ k : Fin 2048, xarr V c (Cert.Spec.xIdx i k) * warr V c (Cert.Spec.w1Idx i k) := by
    rw [Finset.sum_range]
    refine Finset.sum_congr rfl fun k _ => ?_
    unfold mmTerm
    rw [dif_pos k.isLt]
  have eb : ∑ m ∈ Finset.range (256 * (7 + 1)), bsTerm V c i m = ∑ k : Fin 2048, barr V c (Cert.Spec.b1Idx i k) := by
    rw [Finset.sum_range]
    refine Finset.sum_congr rfl fun k _ => ?_
    unfold bsTerm
    rw [dif_pos k.isLt]
  rw [ea, eb]

/-- What the array ends holding. -/
abbrev hidArr (c : Dev nD) : Buf (Elt Ideal) ((c : Thread nD τ).loc main_v0) :=
  Cert.Spec.hid (V c main_arg0) (V c main_arg1) (V c main_arg2)

/-- What a last step writes back is its block of the hidden layer. -/
theorem flushed_eq0 (c : Dev nD) (t : Fin cfg0.N) (hf : t.val % 8 = 7) :
    (dat0 (F := Ideal) V c).flushed 3 t = ((cfg0.win 3).blk t).view.read (Elt Ideal) (hidArr V c) := by
  show (cfg0.win 3).cut (grid0.coords t) ((dat0 (F := Ideal) V c).after 3 t) = _
  rw [after0_3]
  obtain ⟨-, -, -, -, -, -, -, e0, e1⟩ := idx_facts0 t
  funext y
  show out0 V c t ((cfg0.win 3).xinj (grid0.coords t) y)
    = Cert.Spec.hid (xarr V c) (warr V c) (barr V c) (((cfg0.win 3).blk t).view.emb y)
  refine out0_apply V c t hf ((cfg0.win 3).xinj (grid0.coords t) y) (((cfg0.win 3).blk t).view.emb y) ?_ ?_
  · show win0_3.index t (0 : Fin 2) * 100 + 1 * (y 0).val = (y 0).val
    omega
  · show win0_3.index t (1 : Fin 2) * 128 + 1 * (y 1).val = 128 * (t.val / 8) + (y 1).val
    omega

/-! ## The tiles cover the array -/

/-- An index of the array is in point t's block iff each coordinate is in the block's range on its axis. -/
theorem mem_blk0 (t : Fin cfg0.N) (i : S100x1024.Idx) :
    i ∈ ((cfg0.win 3).blk t).view.set ↔ ∀ a : Fin 2, win0_3.index t a * S100x128.size a ≤ (i a).val ∧ (i a).val < win0_3.index t a * S100x128.size a + S100x128.size a := by
  show i ∈ ((View.whole main_v0).slice (win0_3.rect t)).set ↔ _
  rw [View.set_slice_whole, Rect.mem_set_unit]
  exact Iff.rfl

/-- Column i₁ lies in the tile i₁ / 128, which point 8 (i₁ / 128) + 7 writes back. -/
theorem cover0 (i : S100x1024.Idx) :
    ∃ t : Fin cfg0.N, (cfg0.win 3).flush t = true ∧ i ∈ ((cfg0.win 3).blk t).view.set := by
  have hi0 : (i 0).val < 100 := (i 0).isLt
  have hi1 : (i 1).val < 1024 := (i 1).isLt
  obtain ⟨t, ht⟩ : ∃ t : Fin cfg0.N, t.val = 8 * ((i 1).val / 128) + 7 :=
    ⟨⟨8 * ((i 1).val / 128) + 7, by rw [show cfg0.N = 64 from N_0]; omega⟩, rfl⟩
  obtain ⟨-, -, -, -, -, -, -, e0, e1⟩ := idx_facts0 t
  refine ⟨t, (flush0_3 t).mpr (by omega), ?_⟩
  rw [mem_blk0]
  intro a
  match a with
  | ⟨0, _⟩ => show win0_3.index t (0 : Fin 2) * 100 ≤ (i 0).val ∧ (i 0).val < win0_3.index t (0 : Fin 2) * 100 + 100; omega
  | ⟨1, _⟩ => show win0_3.index t (1 : Fin 2) * 128 ≤ (i 1).val ∧ (i 1).val < win0_3.index t (1 : Fin 2) * 128 + 128; omega

/-! ## The array after the run -/

/-- The first layer's output array, after the pipeline has run over its 64 points, holds the hidden layer. -/
theorem final0 (c : Dev nD) :
    (dat0 (F := Ideal) V c).arrAt 3 cfg0.N = Cert.Spec.hid (V c main_arg0) (V c main_arg1) (V c main_arg2) :=
  (dat0 (F := Ideal) V c).arrAt_eq_of_cover 3 (hidArr V c)
    (fun t ht => flushed_eq0 V c t ((flush0_3 t).mp ht)) (cover0)

end Cert.KernelIdeal.Hand

end
-- ==== Proof.KI.Value1.lean ====
/-
  The second layer's output array after its pipeline has run, at the ideal instance: the specification's output layer.
  Point t = 4 * tile + step reads h[:, 256 step ..], W2[256 step .., 128 tile ..] and b2[:, 256 step .., 128 tile ..].
  The last tile has only 104 of its 128 columns inside the arrays' 1000; the canonical blocks are filled out with zeros
  there, and nothing below reads them there. For a column q INSIDE the array, entry (p, q) of the matmul accumulator
  after point t is the partial sum over the first 256 (step + 1) hidden features of h[p, k] * W2[k, 128 tile + q], and
  of the bias accumulator the same partial sum of b2[p, k, 128 tile + q]: step 0 starts both from zero, every later
  step adds one block of 256 terms, and entry (p, q) of an update reads the right-hand blocks only in column q.
  At step 3 the partial sums are the whole sums over the 1024 hidden features. What is written back then is the part of
  the tile inside the array, 100 rows by 128 (the last tile: 104) columns, which is the output layer restricted to the
  columns 128 tile .. ; the eight parts written back cover the 1000 columns.
-/
import proofs.«122316_j6519760355912_1_alg».proof.Proof.KI.Data1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

/-! ## The three arrays, by their literal types -/

abbrev harr (c : Dev nD) : Vec Ideal S100x1024 .f32 := V c main_v0
abbrev w2arr (c : Dev nD) : Vec Ideal S1024x1000 .f32 := V c main_arg3
abbrev b2arr (c : Dev nD) : Vec Ideal S100x1024x1000 .f32 := V c main_arg4

/-! ## The index maps over the grid -/

/-- Point t is (tile, step) = (t / 4, t % 4): h's block index is [0, step], W2's [step, tile], b2's [0, step, tile],
    the output's [0, tile]. -/
theorem idx_facts1 : ∀ t : Fin cfg1.N,
    win1_0.index t (0 : Fin 2) = 0 ∧ win1_0.index t (1 : Fin 2) = t.val % 4
    ∧ win1_1.index t (0 : Fin 2) = t.val % 4 ∧ win1_1.index t (1 : Fin 2) = t.val / 4
    ∧ win1_2.index t (0 : Fin 3) = 0 ∧ win1_2.index t (1 : Fin 3) = t.val % 4 ∧ win1_2.index t (2 : Fin 3) = t.val / 4
    ∧ win1_3.index t (0 : Fin 2) = 0 ∧ win1_3.index t (1 : Fin 2) = t.val / 4 :=
  (by decide +kernel : ∀ t : Fin grid1.N, _)

/-! ## Block reads -/

/-- h's block at point t is h[:, 256 step .. 256 step + 255]. -/
theorem hblk1_read (c : Dev nD) (t : Fin cfg1.N) (y : S100x256.Idx) (i : S100x1024.Idx)
    (h0 : (i 0).val = (y 0).val) (h1 : (i 1).val = 256 * (t.val % 4) + (y 1).val) :
    hblk1 V c t y = harr V c i := by
  obtain ⟨e0, e1, -⟩ := idx_facts1 t
  show V c main_v0 (((cfg1.win 0).blk t).view.emb y) = V c main_v0 i
  refine congrArg (V c main_v0) ?_
  funext a; apply Fin.ext
  match a with
  | ⟨0, _⟩ => show win1_0.index t (0 : Fin 2) * 100 + 1 * (y 0).val = (i 0).val; omega
  | ⟨1, _⟩ => show win1_0.index t (1 : Fin 2) * 256 + 1 * (y 1).val = (i 1).val; omega

/-- The canonical weight block at point t, in a column inside the array, is W2[256 step .., 128 tile ..]: the index
    is one the fetch moves, so the filled-out block there is the array's block. -/
theorem wblk1_read (c : Dev nD) (t : Fin cfg1.N) (y : S256x128.Idx) (i : S1024x1000.Idx)
    (hq : (y 1).val < ncol t.val)
    (h0 : (i 0).val = 256 * (t.val % 4) + (y 0).val) (h1 : (i 1).val = 128 * (t.val / 4) + (y 1).val) :
    wblk1 V c t y = w2arr V c i := by
  obtain ⟨-, -, e0, e1, -⟩ := idx_facts1 t
  obtain ⟨x0, x1, -⟩ := xsize1 t
  have hm : win1_1.moved (grid1.coords t) y = true := (win1_1.moved_iff (grid1.coords t) y).mpr fun a => by
    match a with
    | ⟨0, _⟩ => show (y 0).val < win1_1.xsize (grid1.coords t) 0; rw [x0]; exact (y 0).isLt
    | ⟨1, _⟩ => show (y 1).val < win1_1.xsize (grid1.coords t) 1; rw [x1]; exact hq
  unfold wblk1 Window.fill
  rw [dif_pos hm]
  show V c main_arg3 (((cfg1.win 1).blk t).view.emb _) = V c main_arg3 i
  refine congrArg (V c main_arg3) ?_
  funext a; apply Fin.ext
  match a with
  | ⟨0, _⟩ => show win1_1.index t (0 : Fin 2) * 256 + 1 * (y 0).val = (i 0).val; omega
  | ⟨1, _⟩ => show win1_1.index t (1 : Fin 2) * 128 + 1 * (y 1).val = (i 1).val; omega

/-- The canonical bias block at point t, in a column inside the array, is b2[:, 256 step .., 128 tile ..]. -/
theorem bblk1_read (c : Dev nD) (t : Fin cfg1.N) (y : S100x256x128.Idx) (i : S100x1024x1000.Idx)
    (hq : (y 2).val < ncol t.val)
    (h0 : (i 0).val = (y 0).val) (h1 : (i 1).val = 256 * (t.val % 4) + (y 1).val)
    (h2 : (i 2).val = 128 * (t.val / 4) + (y 2).val) :
    bblk1 V c t y = b2arr V c i := by
  obtain ⟨-, -, -, -, e0, e1, e2, -⟩ := idx_facts1 t
  obtain ⟨-, -, x0, x1, x2, -⟩ := xsize1 t
  have hm : win1_2.moved (grid1.coords t) y = true := (win1_2.moved_iff (grid1.coords t) y).mpr fun a => by
    match a with
    | ⟨0, _⟩ => show (y 0).val < win1_2.xsize (grid1.coords t) 0; rw [x0]; exact (y 0).isLt
    | ⟨1, _⟩ => show (y 1).val < win1_2.xsize (grid1.coords t) 1; rw [x1]; exact (y 1).isLt
    | ⟨2, _⟩ => show (y 2).val < win1_2.xsize (grid1.coords t) 2; rw [x2]; exact hq
  unfold bblk1 Window.fill
  rw [dif_pos hm]
  show V c main_arg4 (((cfg1.win 2).blk t).view.emb _) = V c main_arg4 i
  refine congrArg (V c main_arg4) ?_
  funext a; apply Fin.ext
  match a with
  | ⟨0, _⟩ => show win1_2.index t (0 : Fin 3) * 100 + 1 * (y 0).val = (i 0).val; omega
  | ⟨1, _⟩ => show win1_2.index t (1 : Fin 3) * 256 + 1 * (y 1).val = (i 1).val; omega
  | ⟨2, _⟩ => show win1_2.index t (2 : Fin 3) * 128 + 1 * (y 2).val = (i 2).val; omega

/-! ## The terms of the two sums, indexed by the hidden feature -/

/-- The matmul's term at hidden feature m for the output entry i: h[i₀, m] * W2[m, i₁] (zero past the last feature). -/
def mmTerm1 (c : Dev nD) (i : S100x1000.Idx) (m : ℕ) : EReal :=
  if h : m < 1024 then harr V c (Cert.Spec.hIdx i ⟨m, h⟩) * w2arr V c (Cert.Spec.w2Idx i ⟨m, h⟩) else 0

/-- The bias's term at hidden feature m for the output entry i: b2[i₀, m, i₁] (zero past the last feature). -/
def bsTerm1 (c : Dev nD) (i : S100x1000.Idx) (m : ℕ) : EReal :=
  if h : m < 1024 then b2arr V c (Cert.Spec.b2Idx i ⟨m, h⟩) else 0

/-! ## One step of each accumulator, in a column inside the array -/

/-- The matmul update at point t adds, to entry j of the tile, the 256 terms of the features 256 step .. 256 step + 255
    of the output entry i = (j₀, 128 tile + j₁). -/
theorem mm_step1 (c : Dev nD) (t : Fin cfg1.N) (a : Vec Ideal S100x128 .f32) (j : S100x128.Idx) (i : S100x1000.Idx)
    (hq : (j 1).val < ncol t.val) (h0 : (i 0).val = (j 0).val) (h1 : (i 1).val = 128 * (t.val / 4) + (j 1).val) :
    k1_pay3 (hblk1 V c t) (wblk1 V c t) a j = a j + ∑ m ∈ Finset.range 256, mmTerm1 V c i (256 * (t.val % 4) + m) := by
  refine (k1_pay3_apply (hblk1 V c t) (wblk1 V c t) a j).trans ?_
  refine congrArg (fun z => a j + z) ?_
  rw [Finset.sum_range]
  refine Finset.sum_congr rfl fun k _ => ?_
  have hk : 256 * (t.val % 4) + k.val < 1024 := by have := k.isLt; omega
  unfold mmTerm1
  rw [dif_pos hk]
  rw [hblk1_read V c t (rowK j k) (Cert.Spec.hIdx i ⟨256 * (t.val % 4) + k.val, hk⟩) h0 rfl,
    wblk1_read V c t (colK j k) (Cert.Spec.w2Idx i ⟨256 * (t.val % 4) + k.val, hk⟩) hq rfl h1]

/-- The bias update at point t adds the 256 bias terms of the same features. -/
theorem bs_step1 (c : Dev nD) (t : Fin cfg1.N) (s : Vec Ideal S100x128 .f32) (j : S100x128.Idx) (i : S100x1000.Idx)
    (hq : (j 1).val < ncol t.val) (h0 : (i 0).val = (j 0).val) (h1 : (i 1).val = 128 * (t.val / 4) + (j 1).val) :
    k1_pay4 s (bblk1 V c t) j = s j + ∑ m ∈ Finset.range 256, bsTerm1 V c i (256 * (t.val % 4) + m) := by
  refine (k1_pay4_apply s (bblk1 V c t) j).trans ?_
  refine congrArg (fun z => s j + z) ?_
  rw [Finset.sum_range]
  refine Finset.sum_congr rfl fun k _ => ?_
  have hk : 256 * (t.val % 4) + k.val < 1024 := by have := k.isLt; omega
  unfold bsTerm1
  rw [dif_pos hk]
  exact bblk1_read V c t (fibK j k) (Cert.Spec.b2Idx i ⟨256 * (t.val % 4) + k.val, hk⟩) hq h0 rfl h1

/-! ## The accumulators after every point -/

/-- A sum over the first 256 (r + 1) features is the sum over the first 256 r and the next block of 256. -/
theorem sum_range_next256 {M : Type*} [AddCommMonoid M] (T : ℕ → M) (r : ℕ) :
    ∑ m ∈ Finset.range (256 * (r + 1)), T m = ∑ m ∈ Finset.range (256 * r), T m + ∑ m ∈ Finset.range 256, T (256 * r + m) := by
  rw [show 256 * (r + 1) = 256 * r + 256 from Nat.mul_succ 256 r, Finset.sum_range_add]

/-- After point n = 4 * tile + step, entry j of the canonical matmul accumulator in a column inside the array is the
    partial sum of the matmul's terms over the first 256 (step + 1) features for the output entry
    i = (j₀, 128 tile + j₁), and entry j of the bias accumulator is the same partial sum of the bias's terms. -/
theorem acc_inv1 (c : Dev nD) : ∀ (n : ℕ) (hn : n < cfg1.N) (j : S100x128.Idx) (i : S100x1000.Idx),
    (j 1).val < ncol n → (i 0).val = (j 0).val → (i 1).val = 128 * (n / 4) + (j 1).val →
    (scC1 V c n hn).1 j = ∑ m ∈ Finset.range (256 * (n % 4 + 1)), mmTerm1 V c i m
    ∧ (scC1 V c n hn).2 j = ∑ m ∈ Finset.range (256 * (n % 4 + 1)), bsTerm1 V c i m := by
  intro n
  induction n with
  | zero =>
    intro hn j i hq h0 h1
    have e : scC1 V c 0 hn = (k1_pay3 (hblk1 V c ⟨0, hn⟩) (wblk1 V c ⟨0, hn⟩) (k1_pay1 (F := Ideal)), k1_pay4 (k1_pay2 (F := Ideal)) (bblk1 V c ⟨0, hn⟩)) :=
      scC1_first V c ⟨0, hn⟩ rfl
    rw [e]
    dsimp only
    rw [sum_range_next256 (mmTerm1 V c i) (0 % 4), sum_range_next256 (bsTerm1 V c i) (0 % 4)]
    constructor
    · refine (mm_step1 V c ⟨0, hn⟩ (k1_pay1 (F := Ideal)) j i hq h0 h1).trans ?_
      rw [k1_pay1_apply]
      simp only [Nat.zero_mod, Nat.mul_zero, Finset.range_zero, Finset.sum_empty]
    · refine (bs_step1 V c ⟨0, hn⟩ (k1_pay2 (F := Ideal)) j i hq h0 h1).trans ?_
      rw [k1_pay2_apply]
      simp only [Nat.zero_mod, Nat.mul_zero, Finset.range_zero, Finset.sum_empty]
  | succ n ih =>
    intro hn j i hq h0 h1
    by_cases h : (n + 1) % 4 = 0
    · have e : scC1 V c (n + 1) hn = (k1_pay3 (hblk1 V c ⟨n + 1, hn⟩) (wblk1 V c ⟨n + 1, hn⟩) (k1_pay1 (F := Ideal)), k1_pay4 (k1_pay2 (F := Ideal)) (bblk1 V c ⟨n + 1, hn⟩)) :=
        scC1_first V c ⟨n + 1, hn⟩ h
      rw [e]
      dsimp only
      rw [sum_range_next256 (mmTerm1 V c i) ((n + 1) % 4), sum_range_next256 (bsTerm1 V c i) ((n + 1) % 4)]
      constructor
      · refine (mm_step1 V c ⟨n + 1, hn⟩ (k1_pay1 (F := Ideal)) j i hq h0 h1).trans ?_
        rw [k1_pay1_apply]
        simp only [h, Nat.mul_zero, Finset.range_zero, Finset.sum_empty]
      · refine (bs_step1 V c ⟨n + 1, hn⟩ (k1_pay2 (F := Ideal)) j i hq h0 h1).trans ?_
        rw [k1_pay2_apply]
        simp only [h, Nat.mul_zero, Finset.range_zero, Finset.sum_empty]
    · have e : scC1 V c (n + 1) hn = (k1_pay3 (hblk1 V c ⟨n + 1, hn⟩) (wblk1 V c ⟨n + 1, hn⟩) (scC1 V c n (Nat.lt_of_succ_lt hn)).1,
          k1_pay4 (scC1 V c n (Nat.lt_of_succ_lt hn)).2 (bblk1 V c ⟨n + 1, hn⟩)) :=
        scC1_next V c ⟨n + 1, hn⟩ h
      have hdiv : (n + 1) / 4 = n / 4 := by omega
      have hmod : (n + 1) % 4 = n % 4 + 1 := by omega
      have hq' : (j 1).val < ncol n := by
        have e' : ncol n = ncol (n + 1) := ncol_pred (n + 1) h
        rw [e']; exact hq
      obtain ⟨iha, ihb⟩ := ih (Nat.lt_of_succ_lt hn) j i hq' h0 (by rw [h1, hdiv])
      rw [e]
      dsimp only
      rw [sum_range_next256 (mmTerm1 V c i) ((n + 1) % 4), sum_range_next256 (bsTerm1 V c i) ((n + 1) % 4)]
      constructor
      · refine (mm_step1 V c ⟨n + 1, hn⟩ (scC1 V c n (Nat.lt_of_succ_lt hn)).1 j i hq h0 h1).trans ?_
        rw [iha, hmod]
      · refine (bs_step1 V c ⟨n + 1, hn⟩ (scC1 V c n (Nat.lt_of_succ_lt hn)).2 j i hq h0 h1).trans ?_
        rw [ihb, hmod]

/-! ## The tile at a last step -/

/-- At a last reduction step the partial sums are the whole sums, so entry j of the canonical tile, in a column
    inside the array, is the output layer at i = (j₀, 128 tile + j₁). -/
theorem out1_apply (c : Dev nD) (t : Fin cfg1.N) (hf : t.val % 4 = 3) (j : S100x128.Idx) (i : S100x1000.Idx)
    (hq : (j 1).val < ncol t.val) (h0 : (i 0).val = (j 0).val) (h1 : (i 1).val = 128 * (t.val / 4) + (j 1).val) :
    out1 V c t j = Cert.Spec.out (harr V c) (w2arr V c) (b2arr V c) i := by
  obtain ⟨ha, hb⟩ := acc_inv1 V c t.val t.isLt j i hq h0 h1
  unfold out1
  refine (k1_pay5_apply (scC1 V c t.val t.isLt).1 (scC1 V c t.val t.isLt).2 j).trans ?_
  rw [ha, hb, hf]
  unfold Cert.Spec.out
  have ea : ∑ m ∈ Finset.range (256 * (3 + 1)), mmTerm1 V c i m
      = ∑ k : Fin 1024, harr V c (Cert.Spec.hIdx i k) * w2arr V c (Cert.Spec.w2Idx i k) := by
    rw [Finset.sum_range]
    refine Finset.sum_congr rfl fun k _ => ?_
    unfold mmTerm1
    rw [dif_pos k.isLt]
  have eb : ∑ m ∈ Finset.range (256 * (3 + 1)), bsTerm1 V c i m = ∑ k : Fin 1024, b2arr V c (Cert.Spec.b2Idx i k) := by
    rw [Finset.sum_range]
    refine Finset.sum_congr rfl fun k _ => ?_
    unfold bsTerm1
    rw [dif_pos k.isLt]
  rw [ea, eb]

/-- What the array ends holding. -/
abbrev outArr (c : Dev nD) : Buf (Elt Ideal) ((c : Thread nD τ).loc main_v1) :=
  Cert.Spec.out (V c main_v0) (V c main_arg3) (V c main_arg4)

/-- What a last step writes back — the part of its tile inside the array — is its block of the output layer. -/
theorem flushed_eq1 (c : Dev nD) (t : Fin cfg1.N) (hf : t.val % 4 = 3) :
    (dat1 V c).flushed 3 t = ((cfg1.win 3).blk t).view.read (Elt Ideal) (outArr V c) := by
  show (cfg1.win 3).cut (grid1.coords t) ((dat1 V c).after 3 t) = _
  rw [after1_3]
  obtain ⟨-, -, -, -, -, -, -, e0, e1⟩ := idx_facts1 t
  obtain ⟨-, -, -, -, -, x0, x1⟩ := xsize1 t
  funext y
  have hy : (y 1).val < win1_3.xsize (grid1.coords t) 1 := (y 1).isLt
  rw [x1] at hy
  show out1 V c t ((cfg1.win 3).xinj (grid1.coords t) y)
    = Cert.Spec.out (harr V c) (w2arr V c) (b2arr V c) (((cfg1.win 3).blk t).view.emb y)
  refine out1_apply V c t hf ((cfg1.win 3).xinj (grid1.coords t) y) (((cfg1.win 3).blk t).view.emb y) hy ?_ ?_
  · show win1_3.index t (0 : Fin 2) * 100 + 1 * (y 0).val = (y 0).val
    omega
  · show win1_3.index t (1 : Fin 2) * 128 + 1 * (y 1).val = 128 * (t.val / 4) + (y 1).val
    omega

/-! ## The parts written back cover the array -/

/-- An index of the array is in point t's block iff each coordinate is in the block's range inside the array on its axis. -/
theorem mem_blk1 (t : Fin cfg1.N) (i : S100x1000.Idx) :
    i ∈ ((cfg1.win 3).blk t).view.set ↔ ∀ a : Fin 2, win1_3.index t a * S100x128.size a ≤ (i a).val
      ∧ (i a).val < win1_3.index t a * S100x128.size a + win1_3.xsize (grid1.coords t) a := by
  show i ∈ ((View.whole main_v1).slice (win1_3.rect t)).set ↔ _
  rw [View.set_slice_whole, Rect.mem_set_unit]
  exact Iff.rfl

/-- Column i₁ lies in the tile i₁ / 128, which point 4 (i₁ / 128) + 3 writes back: in its first 128 columns, and for
    the last tile in its first 104, since 7 * 128 + 104 = 1000. -/
theorem cover1 (i : S100x1000.Idx) :
    ∃ t : Fin cfg1.N, (cfg1.win 3).flush t = true ∧ i ∈ ((cfg1.win 3).blk t).view.set := by
  have hi0 : (i 0).val < 100 := (i 0).isLt
  have hi1 : (i 1).val < 1000 := (i 1).isLt
  obtain ⟨t, ht⟩ : ∃ t : Fin cfg1.N, t.val = 4 * ((i 1).val / 128) + 3 :=
    ⟨⟨4 * ((i 1).val / 128) + 3, by rw [show cfg1.N = 32 from N_1]; omega⟩, rfl⟩
  obtain ⟨-, -, -, -, -, -, -, e0, e1⟩ := idx_facts1 t
  obtain ⟨-, -, -, -, -, x0, x1⟩ := xsize1 t
  have hc : (i 1).val < 128 * (t.val / 4) + ncol t.val := by
    unfold ncol
    split <;> omega
  refine ⟨t, (flush1_3 t).mpr (by omega), ?_⟩
  rw [mem_blk1]
  intro a
  match a with
  | ⟨0, _⟩ =>
    show win1_3.index t (0 : Fin 2) * 100 ≤ (i 0).val ∧ (i 0).val < win1_3.index t (0 : Fin 2) * 100 + win1_3.xsize (grid1.coords t) 0
    rw [x0]; omega
  | ⟨1, _⟩ =>
    show win1_3.index t (1 : Fin 2) * 128 ≤ (i 1).val ∧ (i 1).val < win1_3.index t (1 : Fin 2) * 128 + win1_3.xsize (grid1.coords t) 1
    rw [x1]; omega

/-! ## The array after the run -/

/-- The second layer's output array, after the pipeline has run over its 32 points, holds the output layer. -/
theorem final1 (c : Dev nD) :
    (dat1 V c).arrAt 3 cfg1.N = Cert.Spec.out (V c main_v0) (V c main_arg3) (V c main_arg4) :=
  (dat1 V c).arrAt_eq_of_cover 3 (outArr V c)
    (fun t ht => flushed_eq1 V c t ((flush1_3 t).mp ht)) (cover1)

end Cert.KernelIdeal.Hand

end
-- ==== Proof.RefValue.lean ====
/-
  The reference program's result at the ideal instance, read index by index.

  The reference divides each of its two summands by the feature count before adding them:
    h[i, j]   = max (Σ_k x[i, k] · W1[k, j] / 2048 + (0 + Σ_k b1[i, k, j]) / 2048) 0,
    out[i, j] = Σ_k h[i, k] · W2[k, j] / 1024 + (0 + Σ_k b2[i, k, j]) / 1024,
  while the specification adds first and scales the sum once by 2⁻¹¹ (or 2⁻¹⁰). On the extended reals the quotient
  by a nonzero real n is the product with the real 1/n, the reduction's initial value 0 is neutral for +, and the
  product with a real c ≥ 0 distributes over EVERY sum of two extended reals, (a + s) · c = a · c + s · c, whatever
  a and s are (also when one is +∞ and the other −∞: both sides are then −∞). So nothing is asked of the inputs.
-/
import proofs.«122316_j6519760355912_1_alg».proof.Proof.Gen.ReferenceIdeal.Run
import proofs.«122316_j6519760355912_1_alg».proof.Proof.Gen.ReferenceIdeal.Read
import proofs.«122316_j6519760355912_1_alg».proof.Proof.Consts

noncomputable section

namespace Cert.ReferenceIdeal.RefValue

open Cert.ReferenceIdeal Cert.ReferenceIdeal.Gen Cert.ReferenceIdeal.Read Idealize.ShloMosaic Idealize.ShloMosaic.TcCoe
  Idealize.SL.Sem

/-! ## The one algebraic fact -/

/-- For a positive real n and ALL extended reals a, s: a / n + (0 + s) / n = (a + s) · (1/n). -/
theorem div_add_div {n : ℝ} (hn : 0 < n) (a s : EReal) :
    Ideal.div a (n : EReal) + Ideal.div (0 + s) (n : EReal) = (a + s) * ((1 / n : ℝ) : EReal) := by
  rw [Ideal.div_coe hn.ne', Ideal.div_coe hn.ne', zero_add]
  exact (EReal.right_distrib_of_nonneg_of_ne_top (EReal.coe_nonneg.mpr (one_div_pos.mpr hn).le) (EReal.coe_ne_top _)
    a s).symm

/-! ## The hidden layer -/

/-- The reference's hidden layer (its value after the relu) is the specification's. -/
theorem hid_eq (x0 : (⟨S100x2048, .f32⟩ : BufTy).Contents (Elt Ideal)) (x1 : (⟨S2048x1024, .f32⟩ : BufTy).Contents (Elt Ideal))
    (x2 : (⟨S100x2048x1024, .f32⟩ : BufTy).Contents (Elt Ideal)) :
    val_main_v7 (F := Ideal) x0 x1 x2 = Cert.Spec.hid x0 x1 x2 := by
  funext i
  rw [val_main_v7_apply, val_main_v6_apply, val_main_v2_apply, val_main_v5_apply, val_main_v0_apply, val_main_v3_apply,
    val_main_v1_apply, val_main_v4_apply, val_main_call0_v0_apply, val_main_cst_apply, val_main_cst_1_apply,
    val_main_cst_0_apply, val_main_call0_cst_apply]
  simp only [Ideal.maximumf_def, Ideal.addf_def, Ideal.hostDivf_def, Ideal.ofBits_def, Cert.Consts.ofBits_zero,
    Cert.Consts.ofBits_2048]
  rw [div_add_div (by norm_num : (0 : ℝ) < 2048)]
  rfl

/-! ## The output layer, over any hidden layer -/

/-- The reference's last seven operations applied to ANY hidden array h are the specification's output layer of h. -/
theorem out_eq (h : (⟨S100x1024, .f32⟩ : BufTy).Contents (Elt Ideal)) (x3 : (⟨S1024x1000, .f32⟩ : BufTy).Contents (Elt Ideal))
    (x4 : (⟨S100x1024x1000, .f32⟩ : BufTy).Contents (Elt Ideal)) (i : S100x1000.Idx) :
    Ideal.div (∑ k : Fin 1024, h (lidx_main_v8 i k) * x3 (ridx_main_v8 i k)) ((1024 : ℝ) : EReal)
      + Ideal.div (0 + ∑ k : Fin 1024, x4 (idx_main_v11 i k)) ((1024 : ℝ) : EReal)
    = Cert.Spec.out h x3 x4 i := by
  rw [div_add_div (by norm_num : (0 : ℝ) < 1024)]
  rfl

/-! ## The whole reference -/

/-- The reference's result is the specification's output layer of the specification's hidden layer. -/
theorem ref_is_spec (x0 : (⟨S100x2048, .f32⟩ : BufTy).Contents (Elt Ideal)) (x1 : (⟨S2048x1024, .f32⟩ : BufTy).Contents (Elt Ideal)) (x2 : (⟨S100x2048x1024, .f32⟩ : BufTy).Contents (Elt Ideal)) (x3 : (⟨S1024x1000, .f32⟩ : BufTy).Contents (Elt Ideal)) (x4 : (⟨S100x1024x1000, .f32⟩ : BufTy).Contents (Elt Ideal)) :
    Cert.ReferenceIdeal.Read.val_main_v14 (F := Ideal) x0 x1 x2 x3 x4 = Cert.Spec.out (Cert.Spec.hid x0 x1 x2) x3 x4 := by
  funext i
  rw [val_main_v14_apply, val_main_v10_apply, val_main_v13_apply, val_main_v8_apply, val_main_v11_apply,
    val_main_v9_apply, val_main_v12_apply, val_main_cst_2_apply, val_main_cst_4_apply, val_main_cst_3_apply, hid_eq]
  simp only [Ideal.addf_def, Ideal.hostDivf_def, Ideal.ofBits_def, Cert.Consts.ofBits_zero, Cert.Consts.ofBits_1024]
  exact out_eq (Cert.Spec.hid x0 x1 x2) x3 x4 i

end Cert.ReferenceIdeal.RefValue

end
-- ==== Proof.lean ====
/-
  The certificate. Both programs compute, for each sample i and output feature j,
      out[i, j] = (Σ_k h[i, k] · W2[k, j] + Σ_k b2[i, k, j]) / 1024,   h[i, j] = max(0, (Σ_k x[i, k] · W1[k, j] + Σ_k b1[i, k, j]) / 2048):
  the kernel accumulates each sum block by block over a grid axis and scales the total once by the exact reciprocal
  2⁻¹¹ (2⁻¹⁰), the reference divides each of the two sums by 2048 (1024) and adds. Over the extended reals a sum
  may be taken in any order and grouping, division by 2048 is multiplication by 1/2048, and multiplication by a
  nonnegative real distributes over every sum, infinite terms included; so the two agree for all inputs and the
  precondition is never used. The kernel's frames are its two pipelines run one after the other; the value of
  its result is read off the same run.
-/
import proofs.«122316_j6519760355912_1_alg».proof.Defs
import proofs.«122316_j6519760355912_1_alg».proof.Proof.Gen.Kernel
import proofs.«122316_j6519760355912_1_alg».proof.Proof.Gen.KernelIdeal
import proofs.«122316_j6519760355912_1_alg».proof.Proof.Gen.ReferenceIdeal
import proofs.«122316_j6519760355912_1_alg».proof.Proof.Gen.Pre_finite_inputs
import proofs.«122316_j6519760355912_1_alg».proof.Proof.K.Body0
import proofs.«122316_j6519760355912_1_alg».proof.Proof.K.Run
import proofs.«122316_j6519760355912_1_alg».proof.Proof.KI.Body0
import proofs.«122316_j6519760355912_1_alg».proof.Proof.KI.Body1
import proofs.«122316_j6519760355912_1_alg».proof.Proof.KI.Run
import proofs.«122316_j6519760355912_1_alg».proof.Proof.KI.Value0
import proofs.«122316_j6519760355912_1_alg».proof.Proof.KI.Value1
import proofs.«122316_j6519760355912_1_alg».proof.Proof.RefValue

noncomputable section

namespace Cert.Proof

open Idealize.ShloMosaic Idealize.ShloMosaic.TcCoe Idealize.SL.Sem

/-- The word-level kernel runs to the end and keeps its arguments. -/
theorem frame_k : Cert.frame_Kernel (hKernel := Cert.Kernel.Gen.facts) (hPre_finite_inputs := Cert.Pre_finite_inputs.Gen.facts) := fun m ρ _ =>
  Cert.Kernel.Hand.frame_run (F := Bits) m ρ (fun V c => Cert.Kernel.Hand.body_obligation0 V c)
    (fun V c => Cert.Kernel.Hand.hin0 V c) (fun V c => Cert.Kernel.Hand.hout0 V c)

/-- What the second pipeline's proof data satisfy. -/
theorem reg1 : Cert.KernelIdeal.Hand.Reg1Facts (F := Ideal) (fun V c => Cert.KernelIdeal.Hand.dat1 V c) where
  hA := fun V c w => Cert.KernelIdeal.Hand.A_eq1 V c w
  hq := fun _ _ _ => rfl
  howed := fun _ _ _ => rfl
  hbody := fun V c => Cert.KernelIdeal.Hand.body_obligation1 V c
  hin := fun V c => Cert.KernelIdeal.Hand.hin1 V c
  hout := fun V c => Cert.KernelIdeal.Hand.hout1 V c
  hrec := fun _ _ => rfl

/-- The idealized kernel's run: its result array at the second pipeline's final contents, its arguments kept. -/
def run_ki (m : (ℓ : Loc Cert.KernelIdeal.nD Cert.KernelIdeal.τ Cert.KernelIdeal.sig) → Buf (Elt Ideal) ℓ) (ρ : Dev Cert.KernelIdeal.nD → PrngReg) :=
  Cert.KernelIdeal.Hand.run_value (F := Ideal) m ρ (fun V c => Cert.KernelIdeal.Hand.dat1 V c) reg1
    (fun V c => Cert.KernelIdeal.Hand.body_obligation0 V c) (fun V c => Cert.KernelIdeal.Hand.hin0 V c) (fun V c => Cert.KernelIdeal.Hand.hout0 V c)

theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (run_ki m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The result array after the kernel's run is the specification's output of the launch arrays. -/
theorem kernel_value (m : (ℓ : Loc Cert.KernelIdeal.nD Cert.KernelIdeal.τ Cert.KernelIdeal.sig) → Buf (Elt Ideal) ℓ) (c : Dev Cert.KernelIdeal.nD) :
    (Cert.KernelIdeal.Hand.dat1 (Cert.KernelIdeal.Hand.V1 m) c).arrAt 3 Cert.KernelIdeal.cfg1.N
      = Cert.Spec.out (Cert.Spec.hid (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  rw [Cert.KernelIdeal.Hand.final1, Cert.KernelIdeal.Hand.V1_main_v0, Cert.KernelIdeal.Hand.final0,
    Cert.KernelIdeal.Hand.V1_main_arg3, Cert.KernelIdeal.Hand.V1_main_arg4]

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.out (Cert.Spec.hid (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun _ h c => ⟨(h c).1.trans (kernel_value m c), (h c).2⟩) (run_ki m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.ReferenceIdeal.RefValue.ref_is_spec,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
